-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096x4096 : Shape := ⟨2, ![4096, 4096]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S4096x2048 .f32) (main_arg1 : FVec F S4096x4096 .f32) (main_arg2 : FVec F S2048x2048 .f32) (main_arg3 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S4096x2048 : Shape := ⟨2, ![4096, 2048]⟩
abbrev S4096x4096 : Shape := ⟨2, ![4096, 4096]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S4096x1 : Shape := ⟨2, ![4096, 1]⟩
abbrev S256x512 : Shape := ⟨2, ![256, 512]⟩
abbrev S512x2048 : Shape := ⟨2, ![512, 2048]⟩
abbrev S_ : Shape := ⟨0, ![]⟩

abbrev nBuf : Space → Nat
  | .hbm => 21
  | .vmem => 24
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S2048x2048, .f32⟩
  | .hbm, ⟨3, _⟩ => ⟨S2048, .f32⟩
  | .hbm, ⟨4, _⟩ => ⟨S1x2048, .f32⟩
  | .hbm, ⟨5, _⟩ => ⟨S2048x2048, .bf16⟩
  | .hbm, ⟨6, _⟩ => ⟨S2048x2048, .bf16⟩
  | .hbm, ⟨7, _⟩ => ⟨S4096x2048, .bf16⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .i1⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .f32⟩
  | .local _ .vmem, ⟨8, _⟩ => ⟨S256x2048, .f32⟩
  | .local _ .vmem, ⟨9, _⟩ => ⟨S2048x2048, .bf16⟩
  | .local _ .vmem, ⟨10, _⟩ => ⟨S2048x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .f32⟩
  | .local _ .vmem, ⟨14, _⟩ => ⟨S256x2048, .f32⟩
  | .local _ .vmem, ⟨15, _⟩ => ⟨S256x512, .f32⟩
  | .local _ .vmem, ⟨16, _⟩ => ⟨S256x512, .f32⟩
  | .local _ .vmem, ⟨17, _⟩ => ⟨S4096x2048, .bf16⟩
  | .local _ .vmem, ⟨18, _⟩ => ⟨S256x1, .f32⟩
  | .local _ .vmem, ⟨19, _⟩ => ⟨S256x1, .f32⟩
  | .local _ .vmem, ⟨20, _⟩ => ⟨S256x1, .f32⟩
  | .local _ .vmem, ⟨21, _⟩ => ⟨S256x1, .f32⟩
  | .local _ .vmem, ⟨22, _⟩ => ⟨S256x2048, .f32⟩
  | .local _ .vmem, ⟨23, _⟩ => ⟨S256x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_scratch0 : Ref sig .tc := ⟨.vmem, 22, rfl⟩
abbrev cc2_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![16, 8], ![false, false]⟩

def k2_mult1 (i : grid2.Coords) : BitVec 32 :=
  let arg1 : BitVec 32 := BitVec.ofNat 32 (i 1).val
  let c512_i32 : BitVec 32 := 512#32
  let v4 : BitVec 32 := Scalar.muli arg1 c512_i32
  v4
def k2_off1 (i : grid2.Coords) : Fin 2 → Nat :=
  let arg1 : BitVec 32 := BitVec.ofNat 32 (i 1).val
  let c512_i32 : BitVec 32 := 512#32
  let v4 : BitVec 32 := Scalar.muli arg1 c512_i32
  let v5 : BitVec 32 := v4
  let v6 : Index := Scalar.indexCast v5
  let c0_2 : Index := 0#32
  ![v6.toNat, 0]
def k2_cond2 (i : grid2.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_12 : BitVec 32 := 0#32
  let v25 : BitVec 1 := Scalar.cmpi .ne v24 c0_i32_12
  v25

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S256x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S4096x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S256x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S256x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  iota_S256x2048_d0_w32 : S256x2048.Iotas .tc 32 [0]
  iota_S256x2048_d1_w32 : S256x2048.Iotas .tc 32 [1]
  broadcasts_S1x2048_S256x2048 : S1x2048.Broadcasts S256x2048
  natLt_1_32 : 1 < 32
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  reduces_S256x2048_S256 : S256x2048.Reduces [1] S256
  shapeCasts_S256_S256x1 : S256.ShapeCasts S256x1
  broadcasts_S256x1_S256x2048 : S256x1.Broadcasts S256x2048
  shapeCasts_S256x2048_S256x2048 : S256x2048.ShapeCasts S256x2048
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x512_S256x512_0_0 : ∀ a, (![0, 0] : Fin 2 → Nat) a + S256x512.size a ≤ S256x512.size a
  h_S256x512 : 0 < S256x512.numel
  h_S512x2048 : 0 < S512x2048.numel
  shapeCasts_S512x2048_S512x2048 : S512x2048.ShapeCasts S512x2048
  reduces_S256x512_S256 : S256x512.Reduces [1] S256
  reducesTo_S4096x1_S_d0_1 : S4096x1.ReducesTo [0, 1] S_
  h_S_ : 0 < S_.numel
  dot_S256x2048_S2048x2048_S256x2048_1_0_0_1_n_n_wf : DotDims.WF S256x2048 S2048x2048 S256x2048 [1] [0] [0] [1] [] []
  dot_S256x512_S512x2048_S256x2048_1_0_0_1_n_n_wf : DotDims.WF S256x512 S512x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .bf16 = 32 ∨ (Rect.block (s := S2048x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .bf16 = 32 ∨ (Rect.block (s := S2048x2048) S256x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S4096x2048.size a
  hwx1_0 : ∀ i : grid1.Coords, EltTy.bits .f32 = 32 ∨ (Rect.block (s := S4096x2048) S256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S2048x2048.size a
  hwx1_2 : ∀ i : grid1.Coords, EltTy.bits .bf16 = 32 ∨ (Rect.block (s := S2048x2048) S2048x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S4096x2048.size a
  hwx1_3 : ∀ i : grid1.Coords, EltTy.bits .bf16 = 32 ∨ (Rect.block (s := S4096x2048) S256x2048.size (cc1_transform_3 i) (hinb1_3 i)).WholeWords (EltTy.packing .bf16)
  hrank2 : 0 < grid2.rank
  k2_mult1_dvd : ∀ i : grid2.Coords, 512 ∣ (k2_mult1 i).toNat
  k2_off1_inb : ∀ i : grid2.Coords, ∀ a, (k2_off1 i) a + S512x2048.size a ≤ S4096x2048.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S4096x2048.size a
  hwx2_0 : ∀ i : grid2.Coords, EltTy.bits .f32 = 32 ∨ (Rect.block (s := S4096x2048) S256x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x512.size a ≤ S4096x4096.size a
  hwx2_1 : ∀ i : grid2.Coords, EltTy.bits .f32 = 32 ∨ (Rect.block (s := S4096x4096) S256x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096x2048.size a ≤ S4096x2048.size a
  hwx2_2 : ∀ i : grid2.Coords, EltTy.bits .bf16 = 32 ∨ (Rect.block (s := S4096x2048) S4096x2048.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1.size a ≤ S4096x1.size a
  hwx2_3 : ∀ i : grid2.Coords, EltTy.bits .f32 = 32 ∨ (Rect.block (s := S4096x1) S256x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x1.size a ≤ S4096x1.size a
  hwx2_4 : ∀ i : grid2.Coords, EltTy.bits .f32 = 32 ∨ (Rect.block (s := S4096x1) S256x1.size (cc2_transform_4 i) (hinb2_4 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_arg2) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S256x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S2048x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S256x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S256x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S4096x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3_0) S256x1.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3_1) S256x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond2 i == 1#1) | 4 => fun i => !(k2_cond2 i == 1#1) | ⟨_ + 5, h⟩ => absurd h (Nat.not_lt.2 (Nat.le_add_left _ _))

class Facts : Prop extends Facts₀ where

variable [Facts]
-- ==== ReferenceIdeal.lean ====
abbrev S4096x2048 : Shape := ⟨2, ![4096, 2048]⟩
abbrev S4096x4096 : Shape := ⟨2, ![4096, 4096]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S4096 : Shape := ⟨1, ![4096]⟩
abbrev S4096x1 : Shape := ⟨2, ![4096, 1]⟩

abbrev nBuf : Space → Nat
  | .hbm => 78
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S2048x2048, .f32⟩
  | .hbm, ⟨3, _⟩ => ⟨S2048, .f32⟩
  | .hbm, ⟨4, _⟩ => ⟨S_, .f32⟩
  | .hbm, ⟨5, _⟩ => ⟨S4096x2048, .f32⟩
  | .hbm, ⟨6, _⟩ => ⟨S4096x2048, .i1⟩
  | .hbm, ⟨7, _⟩ => ⟨S4096x2048, .f32⟩
  | .hbm, ⟨8, _⟩ => ⟨S2048x2048, .i32⟩
  | .hbm, ⟨9, _⟩ => ⟨S2048x2048, .i32⟩
  | .hbm, ⟨10, _⟩ => ⟨S_, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S2048x2048, .i1⟩
  | .hbm, ⟨15, _⟩ => ⟨S1x2048, .f32⟩
  | .hbm, ⟨16, _⟩ => ⟨S_, .f32⟩
  | .hbm, ⟨17, _⟩ => ⟨S1x2048, .f32⟩
  | .hbm, ⟨18, _⟩ => ⟨S1x2048, .f32⟩
  | .hbm, ⟨19, _⟩ => ⟨S2048x2048, .f32⟩
  | .hbm, ⟨20, _⟩ => ⟨S2048x2048, .i1⟩
  | .hbm, ⟨21, _⟩ => ⟨S2048x2048, .i1⟩
  | .hbm, ⟨22, _⟩ => ⟨S2048x2048, .f32⟩
  | .hbm, ⟨23, _⟩ => ⟨S1x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S2048x2048, .f32⟩
  | .hbm, ⟨28, _⟩ => ⟨S2048x2048, .i1⟩
  | .hbm, ⟨29, _⟩ => ⟨S2048x2048, .i1⟩
  | .hbm, ⟨30, _⟩ => ⟨S2048x2048, .f32⟩
  | .hbm, ⟨31, _⟩ => ⟨S4096x2048, .f32⟩
  | .hbm, ⟨32, _⟩ => ⟨S2048x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S_, .f32⟩
  | .hbm, ⟨61, _⟩ => ⟨S4096, .f32⟩
  | .hbm, ⟨62, _⟩ => ⟨S4096, .i1⟩
  | .hbm, ⟨63, _⟩ => ⟨S4096, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .i1⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_v52 : Ref sig .tc := ⟨.hbm, 68, rfl⟩
abbrev main_cst_10 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_cst_12 : Ref sig .tc := ⟨.hbm, 73, rfl⟩
abbrev main_v55 : Ref sig .tc := ⟨.hbm, 74, rfl⟩
abbrev main_v56 : Ref sig .tc := ⟨.hbm, 75, rfl⟩
abbrev main_cst_13 : Ref sig .tc := ⟨.hbm, 76, rfl⟩
abbrev main_v57 : Ref sig .tc := ⟨.hbm, 77, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S_S2048x2048 : S_.BroadcastsInDim S2048x2048 (![] : Fin 0 → Fin S2048x2048.rank)
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S2048x2048_0_1 : S1x2048.BroadcastsInDim S2048x2048 (![0, 1] : Fin 2 → Fin S2048x2048.rank)
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S4096x1_S4096x2048_0_1 : S4096x1.BroadcastsInDim S4096x2048 (![0, 1] : Fin 2 → Fin S4096x2048.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x2048_S2048x2048_S4096x2048_1_0_0_1_n_n_wf : DotDims.WF S4096x2048 S2048x2048 S4096x2048 [1] [0] [0] [1] [] []
  dot_S4096x4096_S4096x2048_S4096x2048_1_0_0_1_n_n_wf : DotDims.WF S4096x4096 S4096x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf

class Facts : Prop extends Facts₀ where

variable [Facts]
-- ==== Proof.KFrameA.lean ====
/-
  Region 0 of @main (the first pallas_call, the builder of the two L×L correction matrices), at a parameter V — the
  TensorCore's buffer contents when the region is entered.  At grid point t the body reads a 256-row block of the
  adjacency matrix and the whole threshold row, and writes, as ONE whole-block store each, the block of
  C1 = incr·adj − decr·(1 − adj) and the block of A2 = decr; the stored values depend on the point's
  coordinate (the diagonal test compares the global row number, block·256 + local row, with the column).
  Here: what each output's staging buffer holds after the body (the canon of its one store over the payloads),
  the body's triple, the pipeline's proof data and the body obligation at every point.
-/
import proofs.«419477_j84868553769049_3_alg».proof.Proof.Gen.Kernel.Launch
import proofs.«419477_j84868553769049_3_alg».proof.Proof.Gen.Kernel.Skeleton
import proofs.«419477_j84868553769049_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 256×2048 rectangle both stores write through. -/
abbrev rA : Rect S256x2048 := Rect.unit (s := S256x2048) ![0, 0] S256x2048.size inb_S256x2048_S256x2048_0_0
/-- The whole 1×2048 rectangle the threshold row is loaded through. -/
abbrev rA1 : Rect S1x2048 := Rect.unit (s := S1x2048) ![0, 0] S1x2048.size inb_S1x2048_S1x2048_0_0

/-- The C1 block after the body: its one store, over the adjacency block x0 and the threshold row x1 at coordinates i. -/
def outA_2 (i : grid0.Coords) (x0 : Vec F S256x2048 .f32) (x1 : Vec F S1x2048 .f32) : Vec F S256x2048 .bf16 :=
  View.canon [⟨rA, k0_pay4 i (View.ld x0 rA) (View.ld x1 rA1)⟩]
/-- The A2 block after the body. -/
def outA_3 (i : grid0.Coords) (x0 : Vec F S256x2048 .f32) (x1 : Vec F S1x2048 .f32) : Vec F S256x2048 .bf16 :=
  View.canon [⟨rA, k0_pay5 i (View.ld x0 rA) (View.ld x1 rA1)⟩]

/-- One whole-block store tiles the block, so it covers it. -/
theorem coverA (p0 : Vec F S256x2048 .bf16) (y : S256x2048.Idx) :
    ∃ pc ∈ ([⟨rA, p0⟩] : List (View.Piece (Elt F) S256x2048 .bf16)), y ∈ pc.1.set :=
  View.cover_of_tiled [⟨rA, p0⟩] S256x2048.size (by rfl) y

set_option maxHeartbeats 1000000 in
/-- The body on whole staging memrefs: the inputs' at read contents, the outputs' at anything; it leaves the inputs' as
    they were and each output's at its one store. -/
theorem sound_kernelA (c : Dev nD) (E : Set ℕ) (i : grid0.Coords)
    (arg1 : Memref sig .tc .vmem S256x2048 .f32) (harg1 : arg1.IsWhole) (arg2 : Memref sig .tc .vmem S1x2048 .f32) (harg2 : arg2.IsWhole)
    (arg3 : Memref sig .tc .vmem S256x2048 .bf16) (harg3 : arg3.IsWhole) (arg4 : Memref sig .tc .vmem S256x2048 .bf16) (harg4 : arg4.IsWhole)
    (x0 : Vec F S256x2048 .f32) (x1 : Vec F S1x2048 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (outA_2 i x0 x1) ∗ owns (c : Thread nD τ) arg4 fullShare (outA_3 i x0 x1)) -∗ K ⟨⟩))
      ⊢ wp frame (wpE (defs₀ (F := F)) Variants.none c none) E (cc0__stageA_kernel i arg1 harg1 arg2 harg2 arg3 harg3 arg4 harg4) K := by
  simp only [cc0__stageA_kernel_eq_skeleton]; unfold cc0__stageA_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverA _)
  iexists _; isplitr
  swap; · iexact H3
  ipureintro
  exact View.read_writes_eq_canon _ _ _ (coverA _)

/-- Pipeline 0's proof data on core c: the arrays as the region finds them; after the body at point t each input's
    buffer at its block and each output's at its store over the input blocks; the class invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outA_2 (grid0.coords t) (iblk0 V c 0 t) (iblk0 V c 1 t)
    | ⟨3, _⟩ => outA_3 (grid0.coords t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = outA_2 (grid0.coords t) (iblk0 V c 0 t) (iblk0 V c 1 t) := by dsimp only [dat0]
theorem after0_3 (c : Dev nD) (t : Fin cfg0.N) :
    (dat0 V c).after 3 t = outA_3 (grid0.coords t) (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))
/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernelA c Set.univ (grid0.coords t) _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KFrameB.lean ====
/-
  Region 1 of @main (the second pallas_call, the corrected candidates), at a parameter V — the TensorCore's buffer
  contents when the region is entered.  At grid point t the body reads a 256-row block of the predictions and the two
  whole L×L correction matrices, and writes as ONE whole-block store the block of
  candidates = ((pred + Ep·C1) + E·A2) / (1 + (Σ E − E)).
  Here: what the output's staging buffer holds after the body (the canon of its one store over the payload), the
  body's triple, the pipeline's proof data and the body obligation at every point.
-/
import proofs.«419477_j84868553769049_3_alg».proof.Proof.Gen.Kernel.Launch
import proofs.«419477_j84868553769049_3_alg».proof.Proof.Gen.Kernel.Skeleton
import proofs.«419477_j84868553769049_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 256×2048 rectangle the store writes through. -/
abbrev rB : Rect S256x2048 := Rect.unit (s := S256x2048) ![0, 0] S256x2048.size inb_S256x2048_S256x2048_0_0
/-- The whole 2048×2048 rectangle each correction matrix is loaded through. -/
abbrev rBL : Rect S2048x2048 := Rect.unit (s := S2048x2048) ![0, 0] S2048x2048.size inb_S2048x2048_S2048x2048_0_0

/-- The candidates block after the body: its one store, over the prediction block x0 and the matrices x1 (C1), x2 (A2). -/
def outB_3 (x0 : Vec F S256x2048 .f32) (x1 : Vec F S2048x2048 .bf16) (x2 : Vec F S2048x2048 .bf16) : Vec F S256x2048 .bf16 :=
  View.canon [⟨rB, k1_pay1 (View.ld x0 rB) (View.ld x1 rBL) (View.ld x2 rBL)⟩]

/-- One whole-block store tiles the block, so it covers it. -/
theorem coverB (p0 : Vec F S256x2048 .bf16) (y : S256x2048.Idx) :
    ∃ pc ∈ ([⟨rB, p0⟩] : List (View.Piece (Elt F) S256x2048 .bf16)), y ∈ pc.1.set :=
  View.cover_of_tiled [⟨rB, p0⟩] S256x2048.size (by rfl) y

set_option maxHeartbeats 1000000 in
/-- The body on whole staging memrefs: the inputs' at read contents, the output's at anything; it leaves the inputs' as
    they were and the output's at its one store. -/
theorem sound_kernelB (c : Dev nD) (E : Set ℕ) (i : grid1.Coords)
    (arg1 : Memref sig .tc .vmem S256x2048 .f32) (harg1 : arg1.IsWhole) (arg2 : Memref sig .tc .vmem S2048x2048 .bf16) (harg2 : arg2.IsWhole)
    (arg3 : Memref sig .tc .vmem S2048x2048 .bf16) (harg3 : arg3.IsWhole) (arg4 : Memref sig .tc .vmem S256x2048 .bf16) (harg4 : arg4.IsWhole)
    (x0 : Vec F S256x2048 .f32) (x1 : Vec F S2048x2048 .bf16) (x2 : Vec F S2048x2048 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outB_3 x0 x1 x2)) -∗ K ⟨⟩))
      ⊢ wp frame (wpE (defs₀ (F := F)) Variants.none c none) E (cc1__stageB_kernel i arg1 harg1 arg2 harg2 arg3 harg3 arg4 harg4) K := by
  simp only [cc1__stageB_kernel_eq_skeleton]; unfold cc1__stageB_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverB _)

/-- Pipeline 1's proof data on core c: the arrays as the region finds them; after the body at point t each input's
    buffer at its block and the output's at its store over the input blocks; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outB_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = outB_3 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))
/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernelB c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KFrameC.lean ====
/-
  Region 2 of @main (the third pallas_call: residual norms), at a parameter V — the TensorCore's buffer contents when the
  region is entered.  The grid is 16 row tiles × 8 contraction tiles, walked row tile by row tile; point t has
  contraction coordinate k = t mod 8.  Two scratch buffers are carried from point to point: the 256×2048 accumulator of
  similarities·candidates and the 256×1 running row sum of the similarities.  Three control cases:
    k = 0          both scratch buffers are reset to zero, then the point's partial product and row sum are added;
    0 < k < 7      the partial product and row sum are added to what the point before left;
    k = 7          the same, and then the two outputs are stored: the masked residual norm and the validity flag.
  The two output windows are idle (handed back untouched, not written back) at every point but k = 7.
  Here: each case's run with the pieces its stores leave, what the scratch holds after each point (by recursion on the
  point), the invariant that tracks it, the proof data, the body obligation, and the invariant's two ends.
-/
import proofs.«419477_j84868553769049_3_alg».proof.Proof.Gen.Kernel.Launch
import proofs.«419477_j84868553769049_3_alg».proof.Proof.Gen.Kernel.Skeleton
import proofs.«419477_j84868553769049_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions, in closed form over the grid -/

/-- The reset branch is taken: the contraction coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- The epilogue branch is taken: the contraction coordinate is 7. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem idleAt2_4 : ∀ t : Fin cfg2.N, ¬cond2_1 (grid2.coords t) → cfg2.idle 4 (grid2.coords t) = true := by decide +kernel
theorem noFlush2_3 : ∀ t : Fin cfg2.N, ¬cond2_1 (grid2.coords t) → (cfg2.win 3).flush t = false := by decide +kernel
theorem noFlush2_4 : ∀ t : Fin cfg2.N, ¬cond2_1 (grid2.coords t) → (cfg2.win 4).flush t = false := by decide +kernel
theorem liveAt2_3 : ∀ t : Fin cfg2.N, cond2_1 (grid2.coords t) → cfg2.idle 3 (grid2.coords t) = false := by decide +kernel
theorem liveAt2_4 : ∀ t : Fin cfg2.N, cond2_1 (grid2.coords t) → cfg2.idle 4 (grid2.coords t) = false := by decide +kernel

/-! ## The memrefs the body is called with -/

abbrev ms2_0 (t : Fin cfg2.N) : Memref sig .tc .vmem S256x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096x2048 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S256x1 .f32 := win2_4.stage (cfg2.slots t 4)
abbrev hs2_4 (t : Fin cfg2.N) : (ms2_4 t).IsWhole := hstage2_4 ((cfg2.slots t 4).cast nbuf2_4)
/-- The two scratch operands: whole scoped buffers of the kernel's own. -/
abbrev scM2_0 : Memref sig .tc .vmem S256x2048 .f32 := Memref.whole cc2_scratch0
abbrev scM2_1 : Memref sig .tc .vmem S256x1 .f32 := Memref.whole cc2_scratch1
/-- Views through which contents are stated (the choice of buffer does not matter). -/
abbrev VS2_0 : View sig .tc .vmem S256x2048 .f32 := scM2_0.view
abbrev VS2_1 : View sig .tc .vmem S256x1 .f32 := scM2_1.view
abbrev VO2_3 : View sig .tc .vmem S256x1 .f32 := (Memref.whole cc2_stg3_0 : Memref sig .tc .vmem S256x1 .f32).view
abbrev VO2_4 : View sig .tc .vmem S256x1 .f32 := (Memref.whole cc2_stg4_0 : Memref sig .tc .vmem S256x1 .f32).view

/-- Every other scoped buffer of the core (the other calls' staging buffers), unopened. -/
abbrev restC (c : Dev nD) : sProp 𝕄 :=
  Pipeline.scopedRestBut (Ix := Unit) (Name := ℕ) (U := UR sig nD τ) (Lvl := ℕ) (Val := Elt F) spec2 c [cc2_scratch0, cc2_scratch1]

/-- The class invariant with the two scratch buffers brought out as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ restC c) ∗ (∃ r, prngReg c r)) := by
  unfold Pipeline.ΦA
  rw [Pipeline.scopedRest_split_of_list spec2 c [cc2_scratch0, cc2_scratch1] (by decide) (by decide)]
  simp only [scM2_0, scM2_1, owns_whole]; try rfl

/-! ## The body case by case: the pieces each run leaves -/

set_option maxHeartbeats 4000000 in
/-- CASE A (k = 0): both scratch buffers at anything; the outputs idle, handed back untouched. -/
noncomputable def kernelRun2_A (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : cond2_0 i) (hc1 : ¬cond2_1 i)
    (x0 : Vec F S256x2048 .f32) (x1 : Vec F S256x512 .f32) (x2 : Vec F S4096x2048 .bf16) :
    Σ' (LS0 : List (View.Piece (Elt F) S256x2048 .f32)), { LS1 : List (View.Piece (Elt F) S256x1 .f32) //
      ∀ (xi3 xi4 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__stageC_kernel i arg2 harg2 arg3 harg3 arg4 harg4 arg5 harg5 arg6 harg6 arg7 harg7 arg8 harg8) K } := by
  refine ⟨?_, ?_, fun xi3 xi4 E K => ?run⟩
  case run =>
    simp only [cc2__stageC_kernel_eq_skeleton]; unfold cc2__stageC_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 4000000 in
/-- CASE B (0 < k < 7): the scratch buffers at what the point before left; the outputs idle. -/
noncomputable def kernelRun2_B (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : ¬cond2_1 i)
    (x0 : Vec F S256x2048 .f32) (x1 : Vec F S256x512 .f32) (x2 : Vec F S4096x2048 .bf16) (xs0 : Vec F S256x2048 .f32) (xs1 : Vec F S256x1 .f32) :
    Σ' (LS0 : List (View.Piece (Elt F) S256x2048 .f32)), { LS1 : List (View.Piece (Elt F) S256x1 .f32) //
      ∀ (xi3 xi4 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__stageC_kernel i arg2 harg2 arg3 harg3 arg4 harg4 arg5 harg5 arg6 harg6 arg7 harg7 arg8 harg8) K } := by
  refine ⟨?_, ?_, fun xi3 xi4 E K => ?run⟩
  case run =>
    simp only [cc2__stageC_kernel_eq_skeleton]; unfold cc2__stageC_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 4000000 in
/-- CASE C (k = 7): the scratch buffers at what the point before left; the outputs at anything, each left with its store. -/
noncomputable def kernelRun2_C (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : cond2_1 i)
    (x0 : Vec F S256x2048 .f32) (x1 : Vec F S256x512 .f32) (x2 : Vec F S4096x2048 .bf16) (xs0 : Vec F S256x2048 .f32) (xs1 : Vec F S256x1 .f32) :
    Σ' (L3 : List (View.Piece (Elt F) S256x1 .f32)), Σ' (L4 : List (View.Piece (Elt F) S256x1 .f32)),
    Σ' (LS0 : List (View.Piece (Elt F) S256x2048 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__stageC_kernel i arg2 harg2 arg3 harg3 arg4 harg4 arg5 harg5 arg6 harg6 arg7 harg7 arg8 harg8) K } := by
  refine ⟨?_, ?_, ?_, ?_, fun E K => ?run⟩
  case run =>
    simp only [cc2__stageC_kernel_eq_skeleton]; unfold cc2__stageC_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

/-! ## What each case leaves, read back -/

/-- The pieces each case leaves in a scratch buffer tile it, so they cover it. -/
theorem scover2_A_0 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : cond2_0 i) (hc1 : ¬cond2_1 i) (x0 : Vec F S256x2048 .f32) (x1 : Vec F S256x512 .f32) (x2 : Vec F S4096x2048 .bf16) (y : S256x2048.Idx) :
    ∃ pc ∈ (kernelRun2_A c i arg2 harg2 arg3 harg3 arg4 harg4 arg5 harg5 arg6 harg6 arg7 harg7 arg8 harg8 hc0 hc1 x0 x1 x2).1, y ∈ pc.1.set :=
  View.cover_of_tiledL (kernelRun2_A c i arg2 harg2 arg3 harg3 arg4 harg4 arg5 harg5 arg6 harg6 arg7 harg7 arg8 harg8 hc0 hc1 x0 x1 x2).1 S256x2048.size (by sl_kernel_rfl) y
theorem scover2_A_1 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : cond2_0 i) (hc1 : ¬cond2_1 i) (x0 : Vec F S256x2048 .f32) (x1 : Vec F S256x512 .f32) (x2 : Vec F S4096x2048 .bf16) (y : S256x1.Idx) :
    ∃ pc ∈ (kernelRun2_A c i arg2 harg2 arg3 harg3 arg4 harg4 arg5 harg5 arg6 harg6 arg7 harg7 arg8 harg8 hc0 hc1 x0 x1 x2).2.1, y ∈ pc.1.set :=
  View.cover_of_tiledL (kernelRun2_A c i arg2 harg2 arg3 harg3 arg4 harg4 arg5 harg5 arg6 harg6 arg7 harg7 arg8 harg8 hc0 hc1 x0 x1 x2).2.1 S256x1.size (by sl_kernel_rfl) y
theorem scover2_B_0 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : ¬cond2_1 i) (x0 : Vec F S256x2048 .f32) (x1 : Vec F S256x512 .f32) (x2 : Vec F S4096x2048 .bf16) (xs0 : Vec F S256x2048 .f32) (xs1 : Vec F S256x1 .f32) (y : S256x2048.Idx) :
    ∃ pc ∈ (kernelRun2_B c i arg2 harg2 arg3 harg3 arg4 harg4 arg5 harg5 arg6 harg6 arg7 harg7 arg8 harg8 hc0 hc1 x0 x1 x2 xs0 xs1).1, y ∈ pc.1.set :=
  View.cover_of_tiledL (kernelRun2_B c i arg2 harg2 arg3 harg3 arg4 harg4 arg5 harg5 arg6 harg6 arg7 harg7 arg8 harg8 hc0 hc1 x0 x1 x2 xs0 xs1).1 S256x2048.size (by sl_kernel_rfl) y
theorem scover2_B_1 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : ¬cond2_1 i) (x0 : Vec F S256x2048 .f32) (x1 : Vec F S256x512 .f32) (x2 : Vec F S4096x2048 .bf16) (xs0 : Vec F S256x2048 .f32) (xs1 : Vec F S256x1 .f32) (y : S256x1.Idx) :
    ∃ pc ∈ (kernelRun2_B c i arg2 harg2 arg3 harg3 arg4 harg4 arg5 harg5 arg6 harg6 arg7 harg7 arg8 harg8 hc0 hc1 x0 x1 x2 xs0 xs1).2.1, y ∈ pc.1.set :=
  View.cover_of_tiledL (kernelRun2_B c i arg2 harg2 arg3 harg3 arg4 harg4 arg5 harg5 arg6 harg6 arg7 harg7 arg8 harg8 hc0 hc1 x0 x1 x2 xs0 xs1).2.1 S256x1.size (by sl_kernel_rfl) y
theorem cover2_C_3 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : cond2_1 i) (x0 : Vec F S256x2048 .f32) (x1 : Vec F S256x512 .f32) (x2 : Vec F S4096x2048 .bf16) (xs0 : Vec F S256x2048 .f32) (xs1 : Vec F S256x1 .f32) (y : S256x1.Idx) :
    ∃ pc ∈ (kernelRun2_C c i arg2 harg2 arg3 harg3 arg4 harg4 arg5 harg5 arg6 harg6 arg7 harg7 arg8 harg8 hc0 hc1 x0 x1 x2 xs0 xs1).1, y ∈ pc.1.set :=
  View.cover_of_tiledL (kernelRun2_C c i arg2 harg2 arg3 harg3 arg4 harg4 arg5 harg5 arg6 harg6 arg7 harg7 arg8 harg8 hc0 hc1 x0 x1 x2 xs0 xs1).1 S256x1.size (by sl_kernel_rfl) y
theorem cover2_C_4 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : cond2_1 i) (x0 : Vec F S256x2048 .f32) (x1 : Vec F S256x512 .f32) (x2 : Vec F S4096x2048 .bf16) (xs0 : Vec F S256x2048 .f32) (xs1 : Vec F S256x1 .f32) (y : S256x1.Idx) :
    ∃ pc ∈ (kernelRun2_C c i arg2 harg2 arg3 harg3 arg4 harg4 arg5 harg5 arg6 harg6 arg7 harg7 arg8 harg8 hc0 hc1 x0 x1 x2 xs0 xs1).2.1, y ∈ pc.1.set :=
  View.cover_of_tiledL (kernelRun2_C c i arg2 harg2 arg3 harg3 arg4 harg4 arg5 harg5 arg6 harg6 arg7 harg7 arg8 harg8 hc0 hc1 x0 x1 x2 xs0 xs1).2.1 S256x1.size (by sl_kernel_rfl) y
theorem scover2_C_0 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : cond2_1 i) (x0 : Vec F S256x2048 .f32) (x1 : Vec F S256x512 .f32) (x2 : Vec F S4096x2048 .bf16) (xs0 : Vec F S256x2048 .f32) (xs1 : Vec F S256x1 .f32) (y : S256x2048.Idx) :
    ∃ pc ∈ (kernelRun2_C c i arg2 harg2 arg3 harg3 arg4 harg4 arg5 harg5 arg6 harg6 arg7 harg7 arg8 harg8 hc0 hc1 x0 x1 x2 xs0 xs1).2.2.1, y ∈ pc.1.set :=
  View.cover_of_tiledL (kernelRun2_C c i arg2 harg2 arg3 harg3 arg4 harg4 arg5 harg5 arg6 harg6 arg7 harg7 arg8 harg8 hc0 hc1 x0 x1 x2 xs0 xs1).2.2.1 S256x2048.size (by sl_kernel_rfl) y
theorem scover2_C_1 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : cond2_1 i) (x0 : Vec F S256x2048 .f32) (x1 : Vec F S256x512 .f32) (x2 : Vec F S4096x2048 .bf16) (xs0 : Vec F S256x2048 .f32) (xs1 : Vec F S256x1 .f32) (y : S256x1.Idx) :
    ∃ pc ∈ (kernelRun2_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun2_C c i arg2 harg2 arg3 harg3 arg4 harg4 arg5 harg5 arg6 harg6 arg7 harg7 arg8 harg8 hc0 hc1 x0 x1 x2 xs0 xs1).2.2.2.1 S256x1.size (by sl_kernel_rfl) y

/-- What each case leaves in the accumulator / the running row sum / an output: its pieces read back. -/
def sout2_A_0 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : cond2_0 i) (hc1 : ¬cond2_1 i) (x0 : Vec F S256x2048 .f32) (x1 : Vec F S256x512 .f32) (x2 : Vec F S4096x2048 .bf16) : Vec F S256x2048 .f32 :=
  VS2_0.read (Elt F) (VS2_0.writes (Elt F) VS2_0.junk (kernelRun2_A c i arg2 harg2 arg3 harg3 arg4 harg4 arg5 harg5 arg6 harg6 arg7 harg7 arg8 harg8 hc0 hc1 x0 x1 x2).1)
def sout2_A_1 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : cond2_0 i) (hc1 : ¬cond2_1 i) (x0 : Vec F S256x2048 .f32) (x1 : Vec F S256x512 .f32) (x2 : Vec F S4096x2048 .bf16) : Vec F S256x1 .f32 :=
  VS2_1.read (Elt F) (VS2_1.writes (Elt F) VS2_1.junk (kernelRun2_A c i arg2 harg2 arg3 harg3 arg4 harg4 arg5 harg5 arg6 harg6 arg7 harg7 arg8 harg8 hc0 hc1 x0 x1 x2).2.1)
def sout2_B_0 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : ¬cond2_1 i) (x0 : Vec F S256x2048 .f32) (x1 : Vec F S256x512 .f32) (x2 : Vec F S4096x2048 .bf16) (xs0 : Vec F S256x2048 .f32) (xs1 : Vec F S256x1 .f32) : Vec F S256x2048 .f32 :=
  VS2_0.read (Elt F) (VS2_0.writes (Elt F) VS2_0.junk (kernelRun2_B c i arg2 harg2 arg3 harg3 arg4 harg4 arg5 harg5 arg6 harg6 arg7 harg7 arg8 harg8 hc0 hc1 x0 x1 x2 xs0 xs1).1)
def sout2_B_1 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : ¬cond2_1 i) (x0 : Vec F S256x2048 .f32) (x1 : Vec F S256x512 .f32) (x2 : Vec F S4096x2048 .bf16) (xs0 : Vec F S256x2048 .f32) (xs1 : Vec F S256x1 .f32) : Vec F S256x1 .f32 :=
  VS2_1.read (Elt F) (VS2_1.writes (Elt F) VS2_1.junk (kernelRun2_B c i arg2 harg2 arg3 harg3 arg4 harg4 arg5 harg5 arg6 harg6 arg7 harg7 arg8 harg8 hc0 hc1 x0 x1 x2 xs0 xs1).2.1)
def out2_C_3 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : cond2_1 i) (x0 : Vec F S256x2048 .f32) (x1 : Vec F S256x512 .f32) (x2 : Vec F S4096x2048 .bf16) (xs0 : Vec F S256x2048 .f32) (xs1 : Vec F S256x1 .f32) : Vec F S256x1 .f32 :=
  VO2_3.read (Elt F) (VO2_3.writes (Elt F) VO2_3.junk (kernelRun2_C c i arg2 harg2 arg3 harg3 arg4 harg4 arg5 harg5 arg6 harg6 arg7 harg7 arg8 harg8 hc0 hc1 x0 x1 x2 xs0 xs1).1)
def out2_C_4 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : cond2_1 i) (x0 : Vec F S256x2048 .f32) (x1 : Vec F S256x512 .f32) (x2 : Vec F S4096x2048 .bf16) (xs0 : Vec F S256x2048 .f32) (xs1 : Vec F S256x1 .f32) : Vec F S256x1 .f32 :=
  VO2_4.read (Elt F) (VO2_4.writes (Elt F) VO2_4.junk (kernelRun2_C c i arg2 harg2 arg3 harg3 arg4 harg4 arg5 harg5 arg6 harg6 arg7 harg7 arg8 harg8 hc0 hc1 x0 x1 x2 xs0 xs1).2.1)
def sout2_C_0 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : cond2_1 i) (x0 : Vec F S256x2048 .f32) (x1 : Vec F S256x512 .f32) (x2 : Vec F S4096x2048 .bf16) (xs0 : Vec F S256x2048 .f32) (xs1 : Vec F S256x1 .f32) : Vec F S256x2048 .f32 :=
  VS2_0.read (Elt F) (VS2_0.writes (Elt F) VS2_0.junk (kernelRun2_C c i arg2 harg2 arg3 harg3 arg4 harg4 arg5 harg5 arg6 harg6 arg7 harg7 arg8 harg8 hc0 hc1 x0 x1 x2 xs0 xs1).2.2.1)
def sout2_C_1 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : cond2_1 i) (x0 : Vec F S256x2048 .f32) (x1 : Vec F S256x512 .f32) (x2 : Vec F S4096x2048 .bf16) (xs0 : Vec F S256x2048 .f32) (xs1 : Vec F S256x1 .f32) : Vec F S256x1 .f32 :=
  VS2_1.read (Elt F) (VS2_1.writes (Elt F) VS2_1.junk (kernelRun2_C c i arg2 harg2 arg3 harg3 arg4 harg4 arg5 harg5 arg6 harg6 arg7 harg7 arg8 harg8 hc0 hc1 x0 x1 x2 xs0 xs1).2.2.2.1)

/-! ## The case a point is in, from its position -/

theorem hc0A (t : Fin cfg2.N) (h0 : t.val % 8 = 0) : cond2_0 (grid2.coords t) := (hcond2_0 t).mpr h0
theorem hc1A (t : Fin cfg2.N) (h0 : t.val % 8 = 0) : ¬cond2_1 (grid2.coords t) := fun h => by have := (hcond2_1 t).mp h; omega
theorem hc0N (t : Fin cfg2.N) (h0 : ¬t.val % 8 = 0) : ¬cond2_0 (grid2.coords t) := fun h => h0 ((hcond2_0 t).mp h)
theorem hc1N (t : Fin cfg2.N) (h1 : ¬t.val % 8 = 7) : ¬cond2_1 (grid2.coords t) := fun h => h1 ((hcond2_1 t).mp h)
theorem hc1C (t : Fin cfg2.N) (h1 : t.val % 8 = 7) : cond2_1 (grid2.coords t) := (hcond2_1 t).mpr h1
theorem hc0C (t : Fin cfg2.N) (h1 : t.val % 8 = 7) : ¬cond2_0 (grid2.coords t) := fun h => by have := (hcond2_0 t).mp h; omega

/-! ## What the scratch holds after each point -/

/-- THE ACCUMULATION. The accumulator and the running row sum after the body at position n: the case the position
    selects, run at the point's memrefs and input blocks, over what the point before left (a reset point does not
    look back). -/
def scAt2 (c : Dev nD) : (n : ℕ) → n < cfg2.N → Vec F S256x2048 .f32 × Vec F S256x1 .f32
  | 0, hn => (sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) (hc0A ⟨0, hn⟩ (Nat.zero_mod _)) (hc1A ⟨0, hn⟩ (Nat.zero_mod _)) (iblk2 V c 0 ⟨0, hn⟩) (iblk2 V c 1 ⟨0, hn⟩) (iblk2 V c 2 ⟨0, hn⟩),
      sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) (hc0A ⟨0, hn⟩ (Nat.zero_mod _)) (hc1A ⟨0, hn⟩ (Nat.zero_mod _)) (iblk2 V c 0 ⟨0, hn⟩) (iblk2 V c 1 ⟨0, hn⟩) (iblk2 V c 2 ⟨0, hn⟩))
  | n + 1, hn =>
    if h0 : (n + 1) % 8 = 0 then
      (sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hc0A ⟨n + 1, hn⟩ h0) (hc1A ⟨n + 1, hn⟩ h0) (iblk2 V c 0 ⟨n + 1, hn⟩) (iblk2 V c 1 ⟨n + 1, hn⟩) (iblk2 V c 2 ⟨n + 1, hn⟩),
        sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hc0A ⟨n + 1, hn⟩ h0) (hc1A ⟨n + 1, hn⟩ h0) (iblk2 V c 0 ⟨n + 1, hn⟩) (iblk2 V c 1 ⟨n + 1, hn⟩) (iblk2 V c 2 ⟨n + 1, hn⟩))
    else if h1 : (n + 1) % 8 = 7 then
      (sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hc0N ⟨n + 1, hn⟩ h0) (hc1C ⟨n + 1, hn⟩ h1) (iblk2 V c 0 ⟨n + 1, hn⟩) (iblk2 V c 1 ⟨n + 1, hn⟩) (iblk2 V c 2 ⟨n + 1, hn⟩) (scAt2 c n (Nat.lt_of_succ_lt hn)).1 (scAt2 c n (Nat.lt_of_succ_lt hn)).2,
        sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hc0N ⟨n + 1, hn⟩ h0) (hc1C ⟨n + 1, hn⟩ h1) (iblk2 V c 0 ⟨n + 1, hn⟩) (iblk2 V c 1 ⟨n + 1, hn⟩) (iblk2 V c 2 ⟨n + 1, hn⟩) (scAt2 c n (Nat.lt_of_succ_lt hn)).1 (scAt2 c n (Nat.lt_of_succ_lt hn)).2)
    else
      (sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hc0N ⟨n + 1, hn⟩ h0) (hc1N ⟨n + 1, hn⟩ h1) (iblk2 V c 0 ⟨n + 1, hn⟩) (iblk2 V c 1 ⟨n + 1, hn⟩) (iblk2 V c 2 ⟨n + 1, hn⟩) (scAt2 c n (Nat.lt_of_succ_lt hn)).1 (scAt2 c n (Nat.lt_of_succ_lt hn)).2,
        sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hc0N ⟨n + 1, hn⟩ h0) (hc1N ⟨n + 1, hn⟩ h1) (iblk2 V c 0 ⟨n + 1, hn⟩) (iblk2 V c 1 ⟨n + 1, hn⟩) (iblk2 V c 2 ⟨n + 1, hn⟩) (scAt2 c n (Nat.lt_of_succ_lt hn)).1 (scAt2 c n (Nat.lt_of_succ_lt hn)).2)

/-- At a reset point (k = 0): the case's contents, whatever came before. -/
theorem scAt2_A (c : Dev nD) (t : Fin cfg2.N) (h0 : t.val % 8 = 0) :
    scAt2 V c t.val t.isLt = (sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hc0A t h0) (hc1A t h0) (iblk2 V c 0 t) (iblk2 V c 1 t) (iblk2 V c 2 t),
      sout2_A_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hc0A t h0) (hc1A t h0) (iblk2 V c 0 t) (iblk2 V c 1 t) (iblk2 V c 2 t)) := by
  obtain ⟨n, hn⟩ := t
  cases n with
  | zero => exact rfl
  | succ n => exact (dif_pos h0).trans rfl

/-- At a middle point (0 < k < 7): the case's contents over what the point before left. -/
theorem scAt2_B (c : Dev nD) (t : Fin cfg2.N) (h0 : ¬t.val % 8 = 0) (h1 : ¬t.val % 8 = 7) :
    scAt2 V c t.val t.isLt = (sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hc0N t h0) (hc1N t h1) (iblk2 V c 0 t) (iblk2 V c 1 t) (iblk2 V c 2 t) (scAt2 V c (t.val - 1) (Nat.lt_of_le_of_lt (Nat.sub_le _ _) t.isLt)).1 (scAt2 V c (t.val - 1) (Nat.lt_of_le_of_lt (Nat.sub_le _ _) t.isLt)).2,
      sout2_B_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hc0N t h0) (hc1N t h1) (iblk2 V c 0 t) (iblk2 V c 1 t) (iblk2 V c 2 t) (scAt2 V c (t.val - 1) (Nat.lt_of_le_of_lt (Nat.sub_le _ _) t.isLt)).1 (scAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At an epilogue point (k = 7): the case's contents over what the point before left. -/
theorem scAt2_C (c : Dev nD) (t : Fin cfg2.N) (h0 : ¬t.val % 8 = 0) (h1 : t.val % 8 = 7) :
    scAt2 V c t.val t.isLt = (sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hc0N t h0) (hc1C t h1) (iblk2 V c 0 t) (iblk2 V c 1 t) (iblk2 V c 2 t) (scAt2 V c (t.val - 1) (Nat.lt_of_le_of_lt (Nat.sub_le _ _) t.isLt)).1 (scAt2 V c (t.val - 1) (Nat.lt_of_le_of_lt (Nat.sub_le _ _) t.isLt)).2,
      sout2_C_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hc0N t h0) (hc1C t h1) (iblk2 V c 0 t) (iblk2 V c 1 t) (iblk2 V c 2 t) (scAt2 V c (t.val - 1) (Nat.lt_of_le_of_lt (Nat.sub_le _ _) t.isLt)).1 (scAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What the two outputs' staging buffers hold after the body at an epilogue point; at the other points (where the
    windows are idle and not written back) a placeholder nothing consults. -/
def out2At_3 (c : Dev nD) (t : Fin cfg2.N) : Vec F S256x1 .f32 :=
  if h1 : t.val % 8 = 7 then
    out2_C_3 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hc0C t h1) (hc1C t h1) (iblk2 V c 0 t) (iblk2 V c 1 t) (iblk2 V c 2 t) (scAt2 V c (t.val - 1) (Nat.lt_of_le_of_lt (Nat.sub_le _ _) t.isLt)).1 (scAt2 V c (t.val - 1) (Nat.lt_of_le_of_lt (Nat.sub_le _ _) t.isLt)).2
  else VO2_3.read (Elt F) VO2_3.junk
def out2At_4 (c : Dev nD) (t : Fin cfg2.N) : Vec F S256x1 .f32 :=
  if h1 : t.val % 8 = 7 then
    out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hc0C t h1) (hc1C t h1) (iblk2 V c 0 t) (iblk2 V c 1 t) (iblk2 V c 2 t) (scAt2 V c (t.val - 1) (Nat.lt_of_le_of_lt (Nat.sub_le _ _) t.isLt)).1 (scAt2 V c (t.val - 1) (Nat.lt_of_le_of_lt (Nat.sub_le _ _) t.isLt)).2
  else VO2_4.read (Elt F) VO2_4.junk
theorem out2At_3_C (c : Dev nD) (t : Fin cfg2.N) (h1 : t.val % 8 = 7) :
    out2At_3 V c t = out2_C_3 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hc0C t h1) (hc1C t h1) (iblk2 V c 0 t) (iblk2 V c 1 t) (iblk2 V c 2 t) (scAt2 V c (t.val - 1) (Nat.lt_of_le_of_lt (Nat.sub_le _ _) t.isLt)).1 (scAt2 V c (t.val - 1) (Nat.lt_of_le_of_lt (Nat.sub_le _ _) t.isLt)).2 := dif_pos h1
theorem out2At_4_C (c : Dev nD) (t : Fin cfg2.N) (h1 : t.val % 8 = 7) :
    out2At_4 V c t = out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hc0C t h1) (hc1C t h1) (iblk2 V c 0 t) (iblk2 V c 1 t) (iblk2 V c 2 t) (scAt2 V c (t.val - 1) (Nat.lt_of_le_of_lt (Nat.sub_le _ _) t.isLt)).1 (scAt2 V c (t.val - 1) (Nat.lt_of_le_of_lt (Nat.sub_le _ _) t.isLt)).2 := dif_pos h1

/-! ## The invariant that tracks the scratch -/

/-- Before position n: before the first point the class invariant (both scratch buffers at anything); afterwards the
    two scratch buffers at what the point before left, every other scoped buffer unopened, the generator register at
    some state. -/
def PhiS2 (c : Dev nD) : (n : ℕ) → n ≤ cfg2.N → sProp 𝕄
  | 0, _ => Pipeline.ΦA spec2 c
  | n + 1, hn => iprop(iprop(iprop(owns (c : Thread nD τ) scM2_0 fullShare (scAt2 V c n hn).1 ∗ owns (c : Thread nD τ) scM2_1 fullShare (scAt2 V c n hn).2) ∗ restC c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare (scAt2 V c n hn).1 ∗ owns (c : Thread nD τ) scM2_1 fullShare (scAt2 V c n hn).2) ∗ restC c) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare (scAt2 V c (n - 1) (by omega)).1 ∗ owns (c : Thread nD τ) scM2_1 fullShare (scAt2 V c (n - 1) (by omega)).2) ∗ restC c) ∗ (∃ r, prngReg c r)) := by
  cases n with
  | zero => exact absurd rfl hz
  | succ n => rfl

/-! ## The pipeline's proof data -/

/-- Pipeline 2's proof data on core c: the arrays as the region finds them; after the body each input's buffer at its
    block, each output's at what the epilogue stores; the invariant tracking the scratch; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2At_3 V c t
    | ⟨4, _⟩ => out2At_4 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2At_3 V c t := by dsimp only [dat2]
theorem after2_4 (c : Dev nD) (t : Fin cfg2.N) : (dat2 V c).after 4 t = out2At_4 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t)

set_option maxHeartbeats 8000000 in
/-- The body at any point: the inputs' memrefs hold their blocks; the position says which case the point is in; the
    invariant hands the body the scratch at what the point before left (at anything at the very first point) and takes
    it back at this point's contents; an idle output goes back as it came; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  by_cases h0 : t.val % 8 = 0
  · rw [Dat.leavesExact_idle (dat2 V c) 3 t (idleAt2_3 t (hc1A t h0)) (noFlush2_3 t (hc1A t h0))]
    rw [Dat.leavesExact_idle (dat2 V c) 4 t (idleAt2_4 t (hc1A t h0)) (noFlush2_4 t (hc1A t h0))]
    rw [scAt2_A V c t h0]
    unfold sout2_A_0 sout2_A_1; (try dsimp only)
    by_cases hz : t.val = 0
    · rw [PhiS2_castSucc V c t, PhiS2_zero V c _ _ hz, PhiA2_eq]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ _ _ (hc0A t h0) (hc1A t h0) (iblk2 V c 0 t) (iblk2 V c 1 t) (iblk2 V c 2 t)).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_A_0 c _ _ _ _ _ _ _ _ _ _ _ _ _ _ _ _ _ _ _ _)
            · unfold owns; iexists _; isplitr
              swap; · iexact HS1
              ipureintro; exact View.read_writes_of_cover _ _ _ _ _ (scover2_A_1 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ _ _ (hc0A t h0) (hc1A t h0) (iblk2 V c 0 t) (iblk2 V c 1 t) (iblk2 V c 2 t)).2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_A_0 c _ _ _ _ _ _ _ _ _ _ _ _ _ _ _ _ _ _ _ _)
            · unfold owns; iexists _; isplitr
              swap; · iexact HS1
              ipureintro; exact View.read_writes_of_cover _ _ _ _ _ (scover2_A_1 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat2 V c).leavesExact 3 t = owns (c : Thread nD τ) (ms2_3 t) fullShare ((dat2 V c).after 3 t) from by
        unfold Dat.leavesExact; rw [liveAt2_3 t (hc1C t h1)], after2_3, out2At_3_C V c t h1]
      rw [show (dat2 V c).leavesExact 4 t = owns (c : Thread nD τ) (ms2_4 t) fullShare ((dat2 V c).after 4 t) from by
        unfold Dat.leavesExact; rw [liveAt2_4 t (hc1C t h1)], after2_4, out2At_4_C V c t h1]
      rw [scAt2_C V c t h0 h1]
      unfold out2_C_3 out2_C_4 sout2_C_0 sout2_C_1; (try dsimp only)
      rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ _ _ (hc0N t h0) (hc1C t h1) (iblk2 V c 0 t) (iblk2 V c 1 t) (iblk2 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_C_3 c _ _ _ _ _ _ _ _ _ _ _ _ _ _ _ _ _ _ _ _ _ _)
      unfold owns; iexists _; isplitr
      swap; · iexact H4
      ipureintro; exact View.read_writes_of_cover _ _ _ _ _ (cover2_C_4 c _ _ _ _ _ _ _ _ _ _ _ _ _ _ _ _ _ _ _ _ _ _)
    · rw [Dat.leavesExact_idle (dat2 V c) 3 t (idleAt2_3 t (hc1N t h1)) (noFlush2_3 t (hc1N t h1))]
      rw [Dat.leavesExact_idle (dat2 V c) 4 t (idleAt2_4 t (hc1N t h1)) (noFlush2_4 t (hc1N t h1))]
      rw [scAt2_B V c t h0 h1]
      unfold sout2_B_0 sout2_B_1; (try dsimp only)
      rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ _ _ (hc0N t h0) (hc1N t h1) (iblk2 V c 0 t) (iblk2 V c 1 t) (iblk2 V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class invariant back: the scratch contents are forgotten. -/
theorem Phi2_out (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout2 (c : Dev nD) : (dat2 V c).Φ (Fin.last cfg2.N) ⊢ Pipeline.ΦA spec2 c :=
  Phi2_out V c _ (by rw [Fin.val_last]; have : cfg2.N = 128 := N_2; omega)

end Cert.Kernel.Hand

end
-- ==== Proof.KMainRun.lean ====
/-
  The whole program from launch to return: a host stretch (the thresholds reshaped to a row), the three kernel regions,
  and the host tail (the two 4096-element sums, the count test, the division, the select).  The buffer contents at every
  segment boundary are a fold from the launch memory: a host stretch applies its operations; a region leaves each of its
  arrays at what its write-backs make of it and every other buffer as it found it.  Each region is entered from the
  boundary before it and left at the one after it; the run ends with every unscoped buffer at the last boundary's
  contents, from which both the frame (the arguments as launched) and the result's value are read.
-/
import proofs.«419477_j84868553769049_3_alg».proof.Proof.Gen.Kernel.Launch
import proofs.«419477_j84868553769049_3_alg».proof.Proof.Gen.Kernel.Skeleton
import proofs.«419477_j84868553769049_3_alg».proof.Proof.Gen.Kernel.Points
import proofs.«419477_j84868553769049_3_alg».proof.Proof.KFrameA
import proofs.«419477_j84868553769049_3_alg».proof.Proof.KFrameB
import proofs.«419477_j84868553769049_3_alg».proof.Proof.KFrameC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core c's buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit (region 1's entry): its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit (region 2's entry). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- At region 2's exit. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)
/-- After the two host stretches of the tail. -/
abbrev W5 : Dev nD → Valuation τ sig (Elt F) := fun c => StableHlo.after hostOps3 (W4 m c)
abbrev W6 : Dev nD → Valuation τ sig (Elt F) := fun c => StableHlo.after hostOps3_1 (W5 m c)

/-! ## The arguments end as launched -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_forall_not_mem (b := Proc.devRef .tc main_arg0) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m c (Proc.devRef .tc main_arg0) := (W4_arr m c 0).trans (((dat2 (V3 m) c).arrAt_in 0 rfl _).trans (A_eq2 (V3 m) c 0))
    _ = W2 m c (Proc.devRef .tc main_arg0) := (W3_arr m c 0).trans (((dat1 (V2 m) c).arrAt_in 0 rfl _).trans (A_eq1 (V2 m) c 0))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_forall_not_mem (b := Proc.devRef .tc main_arg1) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m c (Proc.devRef .tc main_arg1) := (W4_arr m c 1).trans (((dat2 (V3 m) c).arrAt_in 1 rfl _).trans (A_eq2 (V3 m) c 1))
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_forall_not_mem (b := Proc.devRef .tc main_arg2) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := W3_of_ne m c main_arg2 (by decide)
    _ = W1 m c (Proc.devRef .tc main_arg2) := (W2_arr m c 0).trans (((dat0 (V1 m) c).arrAt_in 0 rfl _).trans (A_eq0 (V1 m) c 0))
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_forall_not_mem (b := Proc.devRef .tc main_arg3) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem hostOps3_1_fresh' : (hostOps3_1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes term. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered from every unscoped buffer at W1, left at W2. Its arrays are split
    out of the unscoped buffers and put back at the exit contents; the generator register goes into the invariant and
    comes out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W3. Its arrays are split
    out of the unscoped buffers and put back at the exit contents; the generator register goes into the invariant and
    comes out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W3, left at W4. Its arrays are split
    out of the unscoped buffers and put back at the exit contents; the generator register goes into the invariant and
    comes out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    have h2 : (pdats m 2 c).Φ (Fin.last _) ⊢ (Pipeline.ΦA spec2 c : sProp 𝕄) := hout2 (V3 m) c
    have h3 : (Pipeline.ΦA spec2 c : sProp 𝕄) ⊢ iprop((∃ r, prngReg c r) ∗ BI.emp ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact h2.trans h3
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh' (W0 m)),
    .region (reg0 m),
    .region (reg1 m),
    .region (reg2 m),
    .host (hseg hostOps3 hostOps3_sub hostOps3_fresh' (W4 m)),
    .host (hseg hostOps3_1 hostOps3_1_sub hostOps3_1_fresh' (W5 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ iprop(Tₙ m c ∗ ∃ W, owes (c.tc : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE FRAME: the four argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run_all m ρ)

end Cert.Kernel.Hand

end
-- ==== Proof.FrameA.lean ====
/-
  Region 0 of @main (the first pallas_call, the builder of the two L×L correction matrices), at a parameter V — the
  TensorCore's buffer contents when the region is entered.  At grid point t the body reads a 256-row block of the
  adjacency matrix and the whole threshold row, and writes, as ONE whole-block store each, the block of
  C1 = incr·adj − decr·(1 − adj) and the block of A2 = decr; the stored values depend on the point's
  coordinate (the diagonal test compares the global row number, block·256 + local row, with the column).
  Here: what each output's staging buffer holds after the body (the canon of its one store over the payloads),
  the body's triple, the pipeline's proof data and the body obligation at every point.
-/
import proofs.«419477_j84868553769049_3_alg».proof.Proof.Gen.KernelIdeal.Launch
import proofs.«419477_j84868553769049_3_alg».proof.Proof.Gen.KernelIdeal.Skeleton
import proofs.«419477_j84868553769049_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 256×2048 rectangle both stores write through. -/
abbrev rA : Rect S256x2048 := Rect.unit (s := S256x2048) ![0, 0] S256x2048.size inb_S256x2048_S256x2048_0_0
/-- The whole 1×2048 rectangle the threshold row is loaded through. -/
abbrev rA1 : Rect S1x2048 := Rect.unit (s := S1x2048) ![0, 0] S1x2048.size inb_S1x2048_S1x2048_0_0

/-- The C1 block after the body: its one store, over the adjacency block x0 and the threshold row x1 at coordinates i. -/
def outA_2 (i : grid0.Coords) (x0 : Vec F S256x2048 .f32) (x1 : Vec F S1x2048 .f32) : Vec F S256x2048 .bf16 :=
  View.canon [⟨rA, k0_pay4 i (View.ld x0 rA) (View.ld x1 rA1)⟩]
/-- The A2 block after the body. -/
def outA_3 (i : grid0.Coords) (x0 : Vec F S256x2048 .f32) (x1 : Vec F S1x2048 .f32) : Vec F S256x2048 .bf16 :=
  View.canon [⟨rA, k0_pay5 i (View.ld x0 rA) (View.ld x1 rA1)⟩]

/-- One whole-block store tiles the block, so it covers it. -/
theorem coverA (p0 : Vec F S256x2048 .bf16) (y : S256x2048.Idx) :
    ∃ pc ∈ ([⟨rA, p0⟩] : List (View.Piece (Elt F) S256x2048 .bf16)), y ∈ pc.1.set :=
  View.cover_of_tiled [⟨rA, p0⟩] S256x2048.size (by rfl) y

set_option maxHeartbeats 1000000 in
/-- The body on whole staging memrefs: the inputs' at read contents, the outputs' at anything; it leaves the inputs' as
    they were and each output's at its one store. -/
theorem sound_kernelA (c : Dev nD) (E : Set ℕ) (i : grid0.Coords)
    (arg1 : Memref sig .tc .vmem S256x2048 .f32) (harg1 : arg1.IsWhole) (arg2 : Memref sig .tc .vmem S1x2048 .f32) (harg2 : arg2.IsWhole)
    (arg3 : Memref sig .tc .vmem S256x2048 .bf16) (harg3 : arg3.IsWhole) (arg4 : Memref sig .tc .vmem S256x2048 .bf16) (harg4 : arg4.IsWhole)
    (x0 : Vec F S256x2048 .f32) (x1 : Vec F S1x2048 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (outA_2 i x0 x1) ∗ owns (c : Thread nD τ) arg4 fullShare (outA_3 i x0 x1)) -∗ K ⟨⟩))
      ⊢ wp frame (wpE (defs₀ (F := F)) Variants.none c none) E (cc0__stageA_kernel i arg1 harg1 arg2 harg2 arg3 harg3 arg4 harg4) K := by
  simp only [cc0__stageA_kernel_eq_skeleton]; unfold cc0__stageA_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverA _)
  iexists _; isplitr
  swap; · iexact H3
  ipureintro
  exact View.read_writes_eq_canon _ _ _ (coverA _)

/-- Pipeline 0's proof data on core c: the arrays as the region finds them; after the body at point t each input's
    buffer at its block and each output's at its store over the input blocks; the class invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outA_2 (grid0.coords t) (iblk0 V c 0 t) (iblk0 V c 1 t)
    | ⟨3, _⟩ => outA_3 (grid0.coords t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = outA_2 (grid0.coords t) (iblk0 V c 0 t) (iblk0 V c 1 t) := by dsimp only [dat0]
theorem after0_3 (c : Dev nD) (t : Fin cfg0.N) :
    (dat0 V c).after 3 t = outA_3 (grid0.coords t) (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))
/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernelA c Set.univ (grid0.coords t) _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrameB.lean ====
/-
  Region 1 of @main (the second pallas_call, the corrected candidates), at a parameter V — the TensorCore's buffer
  contents when the region is entered.  At grid point t the body reads a 256-row block of the predictions and the two
  whole L×L correction matrices, and writes as ONE whole-block store the block of
  candidates = ((pred + Ep·C1) + E·A2) / (1 + (Σ E − E)).
  Here: what the output's staging buffer holds after the body (the canon of its one store over the payload), the
  body's triple, the pipeline's proof data and the body obligation at every point.
-/
import proofs.«419477_j84868553769049_3_alg».proof.Proof.Gen.KernelIdeal.Launch
import proofs.«419477_j84868553769049_3_alg».proof.Proof.Gen.KernelIdeal.Skeleton
import proofs.«419477_j84868553769049_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 256×2048 rectangle the store writes through. -/
abbrev rB : Rect S256x2048 := Rect.unit (s := S256x2048) ![0, 0] S256x2048.size inb_S256x2048_S256x2048_0_0
/-- The whole 2048×2048 rectangle each correction matrix is loaded through. -/
abbrev rBL : Rect S2048x2048 := Rect.unit (s := S2048x2048) ![0, 0] S2048x2048.size inb_S2048x2048_S2048x2048_0_0

/-- The candidates block after the body: its one store, over the prediction block x0 and the matrices x1 (C1), x2 (A2). -/
def outB_3 (x0 : Vec F S256x2048 .f32) (x1 : Vec F S2048x2048 .bf16) (x2 : Vec F S2048x2048 .bf16) : Vec F S256x2048 .bf16 :=
  View.canon [⟨rB, k1_pay1 (View.ld x0 rB) (View.ld x1 rBL) (View.ld x2 rBL)⟩]

/-- One whole-block store tiles the block, so it covers it. -/
theorem coverB (p0 : Vec F S256x2048 .bf16) (y : S256x2048.Idx) :
    ∃ pc ∈ ([⟨rB, p0⟩] : List (View.Piece (Elt F) S256x2048 .bf16)), y ∈ pc.1.set :=
  View.cover_of_tiled [⟨rB, p0⟩] S256x2048.size (by rfl) y

set_option maxHeartbeats 1000000 in
/-- The body on whole staging memrefs: the inputs' at read contents, the output's at anything; it leaves the inputs' as
    they were and the output's at its one store. -/
theorem sound_kernelB (c : Dev nD) (E : Set ℕ) (i : grid1.Coords)
    (arg1 : Memref sig .tc .vmem S256x2048 .f32) (harg1 : arg1.IsWhole) (arg2 : Memref sig .tc .vmem S2048x2048 .bf16) (harg2 : arg2.IsWhole)
    (arg3 : Memref sig .tc .vmem S2048x2048 .bf16) (harg3 : arg3.IsWhole) (arg4 : Memref sig .tc .vmem S256x2048 .bf16) (harg4 : arg4.IsWhole)
    (x0 : Vec F S256x2048 .f32) (x1 : Vec F S2048x2048 .bf16) (x2 : Vec F S2048x2048 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outB_3 x0 x1 x2)) -∗ K ⟨⟩))
      ⊢ wp frame (wpE (defs₀ (F := F)) Variants.none c none) E (cc1__stageB_kernel i arg1 harg1 arg2 harg2 arg3 harg3 arg4 harg4) K := by
  simp only [cc1__stageB_kernel_eq_skeleton]; unfold cc1__stageB_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverB _)

/-- Pipeline 1's proof data on core c: the arrays as the region finds them; after the body at point t each input's
    buffer at its block and the output's at its store over the input blocks; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outB_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = outB_3 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))
/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernelB c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrameC.lean ====
/-
  Region 2 of @main (the third pallas_call: residual norms), at a parameter V — the TensorCore's buffer contents when the
  region is entered.  The grid is 16 row tiles × 8 contraction tiles, walked row tile by row tile; point t has
  contraction coordinate k = t mod 8.  Two scratch buffers are carried from point to point: the 256×2048 accumulator of
  similarities·candidates and the 256×1 running row sum of the similarities.  Three control cases:
    k = 0          both scratch buffers are reset to zero, then the point's partial product and row sum are added;
    0 < k < 7      the partial product and row sum are added to what the point before left;
    k = 7          the same, and then the two outputs are stored: the masked residual norm and the validity flag.
  The two output windows are idle (handed back untouched, not written back) at every point but k = 7.
  Here: each case's run with the pieces its stores leave, what the scratch holds after each point (by recursion on the
  point), the invariant that tracks it, the proof data, the body obligation, and the invariant's two ends.
-/
import proofs.«419477_j84868553769049_3_alg».proof.Proof.Gen.KernelIdeal.Launch
import proofs.«419477_j84868553769049_3_alg».proof.Proof.Gen.KernelIdeal.Skeleton
import proofs.«419477_j84868553769049_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions, in closed form over the grid -/

/-- The reset branch is taken: the contraction coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- The epilogue branch is taken: the contraction coordinate is 7. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem idleAt2_4 : ∀ t : Fin cfg2.N, ¬cond2_1 (grid2.coords t) → cfg2.idle 4 (grid2.coords t) = true := by decide +kernel
theorem noFlush2_3 : ∀ t : Fin cfg2.N, ¬cond2_1 (grid2.coords t) → (cfg2.win 3).flush t = false := by decide +kernel
theorem noFlush2_4 : ∀ t : Fin cfg2.N, ¬cond2_1 (grid2.coords t) → (cfg2.win 4).flush t = false := by decide +kernel
theorem liveAt2_3 : ∀ t : Fin cfg2.N, cond2_1 (grid2.coords t) → cfg2.idle 3 (grid2.coords t) = false := by decide +kernel
theorem liveAt2_4 : ∀ t : Fin cfg2.N, cond2_1 (grid2.coords t) → cfg2.idle 4 (grid2.coords t) = false := by decide +kernel

/-! ## The memrefs the body is called with -/

abbrev ms2_0 (t : Fin cfg2.N) : Memref sig .tc .vmem S256x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096x2048 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S256x1 .f32 := win2_4.stage (cfg2.slots t 4)
abbrev hs2_4 (t : Fin cfg2.N) : (ms2_4 t).IsWhole := hstage2_4 ((cfg2.slots t 4).cast nbuf2_4)
/-- The two scratch operands: whole scoped buffers of the kernel's own. -/
abbrev scM2_0 : Memref sig .tc .vmem S256x2048 .f32 := Memref.whole cc2_scratch0
abbrev scM2_1 : Memref sig .tc .vmem S256x1 .f32 := Memref.whole cc2_scratch1
/-- Views through which contents are stated (the choice of buffer does not matter). -/
abbrev VS2_0 : View sig .tc .vmem S256x2048 .f32 := scM2_0.view
abbrev VS2_1 : View sig .tc .vmem S256x1 .f32 := scM2_1.view
abbrev VO2_3 : View sig .tc .vmem S256x1 .f32 := (Memref.whole cc2_stg3_0 : Memref sig .tc .vmem S256x1 .f32).view
abbrev VO2_4 : View sig .tc .vmem S256x1 .f32 := (Memref.whole cc2_stg4_0 : Memref sig .tc .vmem S256x1 .f32).view

/-- Every other scoped buffer of the core (the other calls' staging buffers), unopened. -/
abbrev restC (c : Dev nD) : sProp 𝕄 :=
  Pipeline.scopedRestBut (Ix := Unit) (Name := ℕ) (U := UR sig nD τ) (Lvl := ℕ) (Val := Elt F) spec2 c [cc2_scratch0, cc2_scratch1]

/-- The class invariant with the two scratch buffers brought out as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ restC c) ∗ (∃ r, prngReg c r)) := by
  unfold Pipeline.ΦA
  rw [Pipeline.scopedRest_split_of_list spec2 c [cc2_scratch0, cc2_scratch1] (by decide) (by decide)]
  simp only [scM2_0, scM2_1, owns_whole]; try rfl

/-! ## The body case by case: the pieces each run leaves -/

set_option maxHeartbeats 4000000 in
/-- CASE A (k = 0): both scratch buffers at anything; the outputs idle, handed back untouched. -/
noncomputable def kernelRun2_A (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : cond2_0 i) (hc1 : ¬cond2_1 i)
    (x0 : Vec F S256x2048 .f32) (x1 : Vec F S256x512 .f32) (x2 : Vec F S4096x2048 .bf16) :
    Σ' (LS0 : List (View.Piece (Elt F) S256x2048 .f32)), { LS1 : List (View.Piece (Elt F) S256x1 .f32) //
      ∀ (xi3 xi4 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__stageC_kernel i arg2 harg2 arg3 harg3 arg4 harg4 arg5 harg5 arg6 harg6 arg7 harg7 arg8 harg8) K } := by
  refine ⟨?_, ?_, fun xi3 xi4 E K => ?run⟩
  case run =>
    simp only [cc2__stageC_kernel_eq_skeleton]; unfold cc2__stageC_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 4000000 in
/-- CASE B (0 < k < 7): the scratch buffers at what the point before left; the outputs idle. -/
noncomputable def kernelRun2_B (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : ¬cond2_1 i)
    (x0 : Vec F S256x2048 .f32) (x1 : Vec F S256x512 .f32) (x2 : Vec F S4096x2048 .bf16) (xs0 : Vec F S256x2048 .f32) (xs1 : Vec F S256x1 .f32) :
    Σ' (LS0 : List (View.Piece (Elt F) S256x2048 .f32)), { LS1 : List (View.Piece (Elt F) S256x1 .f32) //
      ∀ (xi3 xi4 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__stageC_kernel i arg2 harg2 arg3 harg3 arg4 harg4 arg5 harg5 arg6 harg6 arg7 harg7 arg8 harg8) K } := by
  refine ⟨?_, ?_, fun xi3 xi4 E K => ?run⟩
  case run =>
    simp only [cc2__stageC_kernel_eq_skeleton]; unfold cc2__stageC_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 4000000 in
/-- CASE C (k = 7): the scratch buffers at what the point before left; the outputs at anything, each left with its store. -/
noncomputable def kernelRun2_C (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : cond2_1 i)
    (x0 : Vec F S256x2048 .f32) (x1 : Vec F S256x512 .f32) (x2 : Vec F S4096x2048 .bf16) (xs0 : Vec F S256x2048 .f32) (xs1 : Vec F S256x1 .f32) :
    Σ' (L3 : List (View.Piece (Elt F) S256x1 .f32)), Σ' (L4 : List (View.Piece (Elt F) S256x1 .f32)),
    Σ' (LS0 : List (View.Piece (Elt F) S256x2048 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__stageC_kernel i arg2 harg2 arg3 harg3 arg4 harg4 arg5 harg5 arg6 harg6 arg7 harg7 arg8 harg8) K } := by
  refine ⟨?_, ?_, ?_, ?_, fun E K => ?run⟩
  case run =>
    simp only [cc2__stageC_kernel_eq_skeleton]; unfold cc2__stageC_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

/-! ## What each case leaves, read back -/

/-- The pieces each case leaves in a scratch buffer tile it, so they cover it. -/
theorem scover2_A_0 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : cond2_0 i) (hc1 : ¬cond2_1 i) (x0 : Vec F S256x2048 .f32) (x1 : Vec F S256x512 .f32) (x2 : Vec F S4096x2048 .bf16) (y : S256x2048.Idx) :
    ∃ pc ∈ (kernelRun2_A c i arg2 harg2 arg3 harg3 arg4 harg4 arg5 harg5 arg6 harg6 arg7 harg7 arg8 harg8 hc0 hc1 x0 x1 x2).1, y ∈ pc.1.set :=
  View.cover_of_tiledL (kernelRun2_A c i arg2 harg2 arg3 harg3 arg4 harg4 arg5 harg5 arg6 harg6 arg7 harg7 arg8 harg8 hc0 hc1 x0 x1 x2).1 S256x2048.size (by sl_kernel_rfl) y
theorem scover2_A_1 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : cond2_0 i) (hc1 : ¬cond2_1 i) (x0 : Vec F S256x2048 .f32) (x1 : Vec F S256x512 .f32) (x2 : Vec F S4096x2048 .bf16) (y : S256x1.Idx) :
    ∃ pc ∈ (kernelRun2_A c i arg2 harg2 arg3 harg3 arg4 harg4 arg5 harg5 arg6 harg6 arg7 harg7 arg8 harg8 hc0 hc1 x0 x1 x2).2.1, y ∈ pc.1.set :=
  View.cover_of_tiledL (kernelRun2_A c i arg2 harg2 arg3 harg3 arg4 harg4 arg5 harg5 arg6 harg6 arg7 harg7 arg8 harg8 hc0 hc1 x0 x1 x2).2.1 S256x1.size (by sl_kernel_rfl) y
theorem scover2_B_0 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : ¬cond2_1 i) (x0 : Vec F S256x2048 .f32) (x1 : Vec F S256x512 .f32) (x2 : Vec F S4096x2048 .bf16) (xs0 : Vec F S256x2048 .f32) (xs1 : Vec F S256x1 .f32) (y : S256x2048.Idx) :
    ∃ pc ∈ (kernelRun2_B c i arg2 harg2 arg3 harg3 arg4 harg4 arg5 harg5 arg6 harg6 arg7 harg7 arg8 harg8 hc0 hc1 x0 x1 x2 xs0 xs1).1, y ∈ pc.1.set :=
  View.cover_of_tiledL (kernelRun2_B c i arg2 harg2 arg3 harg3 arg4 harg4 arg5 harg5 arg6 harg6 arg7 harg7 arg8 harg8 hc0 hc1 x0 x1 x2 xs0 xs1).1 S256x2048.size (by sl_kernel_rfl) y
theorem scover2_B_1 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : ¬cond2_1 i) (x0 : Vec F S256x2048 .f32) (x1 : Vec F S256x512 .f32) (x2 : Vec F S4096x2048 .bf16) (xs0 : Vec F S256x2048 .f32) (xs1 : Vec F S256x1 .f32) (y : S256x1.Idx) :
    ∃ pc ∈ (kernelRun2_B c i arg2 harg2 arg3 harg3 arg4 harg4 arg5 harg5 arg6 harg6 arg7 harg7 arg8 harg8 hc0 hc1 x0 x1 x2 xs0 xs1).2.1, y ∈ pc.1.set :=
  View.cover_of_tiledL (kernelRun2_B c i arg2 harg2 arg3 harg3 arg4 harg4 arg5 harg5 arg6 harg6 arg7 harg7 arg8 harg8 hc0 hc1 x0 x1 x2 xs0 xs1).2.1 S256x1.size (by sl_kernel_rfl) y
theorem cover2_C_3 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : cond2_1 i) (x0 : Vec F S256x2048 .f32) (x1 : Vec F S256x512 .f32) (x2 : Vec F S4096x2048 .bf16) (xs0 : Vec F S256x2048 .f32) (xs1 : Vec F S256x1 .f32) (y : S256x1.Idx) :
    ∃ pc ∈ (kernelRun2_C c i arg2 harg2 arg3 harg3 arg4 harg4 arg5 harg5 arg6 harg6 arg7 harg7 arg8 harg8 hc0 hc1 x0 x1 x2 xs0 xs1).1, y ∈ pc.1.set :=
  View.cover_of_tiledL (kernelRun2_C c i arg2 harg2 arg3 harg3 arg4 harg4 arg5 harg5 arg6 harg6 arg7 harg7 arg8 harg8 hc0 hc1 x0 x1 x2 xs0 xs1).1 S256x1.size (by sl_kernel_rfl) y
theorem cover2_C_4 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : cond2_1 i) (x0 : Vec F S256x2048 .f32) (x1 : Vec F S256x512 .f32) (x2 : Vec F S4096x2048 .bf16) (xs0 : Vec F S256x2048 .f32) (xs1 : Vec F S256x1 .f32) (y : S256x1.Idx) :
    ∃ pc ∈ (kernelRun2_C c i arg2 harg2 arg3 harg3 arg4 harg4 arg5 harg5 arg6 harg6 arg7 harg7 arg8 harg8 hc0 hc1 x0 x1 x2 xs0 xs1).2.1, y ∈ pc.1.set :=
  View.cover_of_tiledL (kernelRun2_C c i arg2 harg2 arg3 harg3 arg4 harg4 arg5 harg5 arg6 harg6 arg7 harg7 arg8 harg8 hc0 hc1 x0 x1 x2 xs0 xs1).2.1 S256x1.size (by sl_kernel_rfl) y
theorem scover2_C_0 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : cond2_1 i) (x0 : Vec F S256x2048 .f32) (x1 : Vec F S256x512 .f32) (x2 : Vec F S4096x2048 .bf16) (xs0 : Vec F S256x2048 .f32) (xs1 : Vec F S256x1 .f32) (y : S256x2048.Idx) :
    ∃ pc ∈ (kernelRun2_C c i arg2 harg2 arg3 harg3 arg4 harg4 arg5 harg5 arg6 harg6 arg7 harg7 arg8 harg8 hc0 hc1 x0 x1 x2 xs0 xs1).2.2.1, y ∈ pc.1.set :=
  View.cover_of_tiledL (kernelRun2_C c i arg2 harg2 arg3 harg3 arg4 harg4 arg5 harg5 arg6 harg6 arg7 harg7 arg8 harg8 hc0 hc1 x0 x1 x2 xs0 xs1).2.2.1 S256x2048.size (by sl_kernel_rfl) y
theorem scover2_C_1 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : cond2_1 i) (x0 : Vec F S256x2048 .f32) (x1 : Vec F S256x512 .f32) (x2 : Vec F S4096x2048 .bf16) (xs0 : Vec F S256x2048 .f32) (xs1 : Vec F S256x1 .f32) (y : S256x1.Idx) :
    ∃ pc ∈ (kernelRun2_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun2_C c i arg2 harg2 arg3 harg3 arg4 harg4 arg5 harg5 arg6 harg6 arg7 harg7 arg8 harg8 hc0 hc1 x0 x1 x2 xs0 xs1).2.2.2.1 S256x1.size (by sl_kernel_rfl) y

/-- What each case leaves in the accumulator / the running row sum / an output: its pieces read back. -/
def sout2_A_0 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : cond2_0 i) (hc1 : ¬cond2_1 i) (x0 : Vec F S256x2048 .f32) (x1 : Vec F S256x512 .f32) (x2 : Vec F S4096x2048 .bf16) : Vec F S256x2048 .f32 :=
  VS2_0.read (Elt F) (VS2_0.writes (Elt F) VS2_0.junk (kernelRun2_A c i arg2 harg2 arg3 harg3 arg4 harg4 arg5 harg5 arg6 harg6 arg7 harg7 arg8 harg8 hc0 hc1 x0 x1 x2).1)
def sout2_A_1 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : cond2_0 i) (hc1 : ¬cond2_1 i) (x0 : Vec F S256x2048 .f32) (x1 : Vec F S256x512 .f32) (x2 : Vec F S4096x2048 .bf16) : Vec F S256x1 .f32 :=
  VS2_1.read (Elt F) (VS2_1.writes (Elt F) VS2_1.junk (kernelRun2_A c i arg2 harg2 arg3 harg3 arg4 harg4 arg5 harg5 arg6 harg6 arg7 harg7 arg8 harg8 hc0 hc1 x0 x1 x2).2.1)
def sout2_B_0 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : ¬cond2_1 i) (x0 : Vec F S256x2048 .f32) (x1 : Vec F S256x512 .f32) (x2 : Vec F S4096x2048 .bf16) (xs0 : Vec F S256x2048 .f32) (xs1 : Vec F S256x1 .f32) : Vec F S256x2048 .f32 :=
  VS2_0.read (Elt F) (VS2_0.writes (Elt F) VS2_0.junk (kernelRun2_B c i arg2 harg2 arg3 harg3 arg4 harg4 arg5 harg5 arg6 harg6 arg7 harg7 arg8 harg8 hc0 hc1 x0 x1 x2 xs0 xs1).1)
def sout2_B_1 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : ¬cond2_1 i) (x0 : Vec F S256x2048 .f32) (x1 : Vec F S256x512 .f32) (x2 : Vec F S4096x2048 .bf16) (xs0 : Vec F S256x2048 .f32) (xs1 : Vec F S256x1 .f32) : Vec F S256x1 .f32 :=
  VS2_1.read (Elt F) (VS2_1.writes (Elt F) VS2_1.junk (kernelRun2_B c i arg2 harg2 arg3 harg3 arg4 harg4 arg5 harg5 arg6 harg6 arg7 harg7 arg8 harg8 hc0 hc1 x0 x1 x2 xs0 xs1).2.1)
def out2_C_3 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : cond2_1 i) (x0 : Vec F S256x2048 .f32) (x1 : Vec F S256x512 .f32) (x2 : Vec F S4096x2048 .bf16) (xs0 : Vec F S256x2048 .f32) (xs1 : Vec F S256x1 .f32) : Vec F S256x1 .f32 :=
  VO2_3.read (Elt F) (VO2_3.writes (Elt F) VO2_3.junk (kernelRun2_C c i arg2 harg2 arg3 harg3 arg4 harg4 arg5 harg5 arg6 harg6 arg7 harg7 arg8 harg8 hc0 hc1 x0 x1 x2 xs0 xs1).1)
def out2_C_4 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : cond2_1 i) (x0 : Vec F S256x2048 .f32) (x1 : Vec F S256x512 .f32) (x2 : Vec F S4096x2048 .bf16) (xs0 : Vec F S256x2048 .f32) (xs1 : Vec F S256x1 .f32) : Vec F S256x1 .f32 :=
  VO2_4.read (Elt F) (VO2_4.writes (Elt F) VO2_4.junk (kernelRun2_C c i arg2 harg2 arg3 harg3 arg4 harg4 arg5 harg5 arg6 harg6 arg7 harg7 arg8 harg8 hc0 hc1 x0 x1 x2 xs0 xs1).2.1)
def sout2_C_0 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : cond2_1 i) (x0 : Vec F S256x2048 .f32) (x1 : Vec F S256x512 .f32) (x2 : Vec F S4096x2048 .bf16) (xs0 : Vec F S256x2048 .f32) (xs1 : Vec F S256x1 .f32) : Vec F S256x2048 .f32 :=
  VS2_0.read (Elt F) (VS2_0.writes (Elt F) VS2_0.junk (kernelRun2_C c i arg2 harg2 arg3 harg3 arg4 harg4 arg5 harg5 arg6 harg6 arg7 harg7 arg8 harg8 hc0 hc1 x0 x1 x2 xs0 xs1).2.2.1)
def sout2_C_1 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : cond2_1 i) (x0 : Vec F S256x2048 .f32) (x1 : Vec F S256x512 .f32) (x2 : Vec F S4096x2048 .bf16) (xs0 : Vec F S256x2048 .f32) (xs1 : Vec F S256x1 .f32) : Vec F S256x1 .f32 :=
  VS2_1.read (Elt F) (VS2_1.writes (Elt F) VS2_1.junk (kernelRun2_C c i arg2 harg2 arg3 harg3 arg4 harg4 arg5 harg5 arg6 harg6 arg7 harg7 arg8 harg8 hc0 hc1 x0 x1 x2 xs0 xs1).2.2.2.1)

/-! ## The case a point is in, from its position -/

theorem hc0A (t : Fin cfg2.N) (h0 : t.val % 8 = 0) : cond2_0 (grid2.coords t) := (hcond2_0 t).mpr h0
theorem hc1A (t : Fin cfg2.N) (h0 : t.val % 8 = 0) : ¬cond2_1 (grid2.coords t) := fun h => by have := (hcond2_1 t).mp h; omega
theorem hc0N (t : Fin cfg2.N) (h0 : ¬t.val % 8 = 0) : ¬cond2_0 (grid2.coords t) := fun h => h0 ((hcond2_0 t).mp h)
theorem hc1N (t : Fin cfg2.N) (h1 : ¬t.val % 8 = 7) : ¬cond2_1 (grid2.coords t) := fun h => h1 ((hcond2_1 t).mp h)
theorem hc1C (t : Fin cfg2.N) (h1 : t.val % 8 = 7) : cond2_1 (grid2.coords t) := (hcond2_1 t).mpr h1
theorem hc0C (t : Fin cfg2.N) (h1 : t.val % 8 = 7) : ¬cond2_0 (grid2.coords t) := fun h => by have := (hcond2_0 t).mp h; omega

/-! ## What the scratch holds after each point -/

/-- THE ACCUMULATION. The accumulator and the running row sum after the body at position n: the case the position
    selects, run at the point's memrefs and input blocks, over what the point before left (a reset point does not
    look back). -/
def scAt2 (c : Dev nD) : (n : ℕ) → n < cfg2.N → Vec F S256x2048 .f32 × Vec F S256x1 .f32
  | 0, hn => (sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) (hc0A ⟨0, hn⟩ (Nat.zero_mod _)) (hc1A ⟨0, hn⟩ (Nat.zero_mod _)) (iblk2 V c 0 ⟨0, hn⟩) (iblk2 V c 1 ⟨0, hn⟩) (iblk2 V c 2 ⟨0, hn⟩),
      sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) (hc0A ⟨0, hn⟩ (Nat.zero_mod _)) (hc1A ⟨0, hn⟩ (Nat.zero_mod _)) (iblk2 V c 0 ⟨0, hn⟩) (iblk2 V c 1 ⟨0, hn⟩) (iblk2 V c 2 ⟨0, hn⟩))
  | n + 1, hn =>
    if h0 : (n + 1) % 8 = 0 then
      (sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hc0A ⟨n + 1, hn⟩ h0) (hc1A ⟨n + 1, hn⟩ h0) (iblk2 V c 0 ⟨n + 1, hn⟩) (iblk2 V c 1 ⟨n + 1, hn⟩) (iblk2 V c 2 ⟨n + 1, hn⟩),
        sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hc0A ⟨n + 1, hn⟩ h0) (hc1A ⟨n + 1, hn⟩ h0) (iblk2 V c 0 ⟨n + 1, hn⟩) (iblk2 V c 1 ⟨n + 1, hn⟩) (iblk2 V c 2 ⟨n + 1, hn⟩))
    else if h1 : (n + 1) % 8 = 7 then
      (sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hc0N ⟨n + 1, hn⟩ h0) (hc1C ⟨n + 1, hn⟩ h1) (iblk2 V c 0 ⟨n + 1, hn⟩) (iblk2 V c 1 ⟨n + 1, hn⟩) (iblk2 V c 2 ⟨n + 1, hn⟩) (scAt2 c n (Nat.lt_of_succ_lt hn)).1 (scAt2 c n (Nat.lt_of_succ_lt hn)).2,
        sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hc0N ⟨n + 1, hn⟩ h0) (hc1C ⟨n + 1, hn⟩ h1) (iblk2 V c 0 ⟨n + 1, hn⟩) (iblk2 V c 1 ⟨n + 1, hn⟩) (iblk2 V c 2 ⟨n + 1, hn⟩) (scAt2 c n (Nat.lt_of_succ_lt hn)).1 (scAt2 c n (Nat.lt_of_succ_lt hn)).2)
    else
      (sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hc0N ⟨n + 1, hn⟩ h0) (hc1N ⟨n + 1, hn⟩ h1) (iblk2 V c 0 ⟨n + 1, hn⟩) (iblk2 V c 1 ⟨n + 1, hn⟩) (iblk2 V c 2 ⟨n + 1, hn⟩) (scAt2 c n (Nat.lt_of_succ_lt hn)).1 (scAt2 c n (Nat.lt_of_succ_lt hn)).2,
        sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hc0N ⟨n + 1, hn⟩ h0) (hc1N ⟨n + 1, hn⟩ h1) (iblk2 V c 0 ⟨n + 1, hn⟩) (iblk2 V c 1 ⟨n + 1, hn⟩) (iblk2 V c 2 ⟨n + 1, hn⟩) (scAt2 c n (Nat.lt_of_succ_lt hn)).1 (scAt2 c n (Nat.lt_of_succ_lt hn)).2)

/-- At a reset point (k = 0): the case's contents, whatever came before. -/
theorem scAt2_A (c : Dev nD) (t : Fin cfg2.N) (h0 : t.val % 8 = 0) :
    scAt2 V c t.val t.isLt = (sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hc0A t h0) (hc1A t h0) (iblk2 V c 0 t) (iblk2 V c 1 t) (iblk2 V c 2 t),
      sout2_A_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hc0A t h0) (hc1A t h0) (iblk2 V c 0 t) (iblk2 V c 1 t) (iblk2 V c 2 t)) := by
  obtain ⟨n, hn⟩ := t
  cases n with
  | zero => exact rfl
  | succ n => exact (dif_pos h0).trans rfl

/-- At a middle point (0 < k < 7): the case's contents over what the point before left. -/
theorem scAt2_B (c : Dev nD) (t : Fin cfg2.N) (h0 : ¬t.val % 8 = 0) (h1 : ¬t.val % 8 = 7) :
    scAt2 V c t.val t.isLt = (sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hc0N t h0) (hc1N t h1) (iblk2 V c 0 t) (iblk2 V c 1 t) (iblk2 V c 2 t) (scAt2 V c (t.val - 1) (Nat.lt_of_le_of_lt (Nat.sub_le _ _) t.isLt)).1 (scAt2 V c (t.val - 1) (Nat.lt_of_le_of_lt (Nat.sub_le _ _) t.isLt)).2,
      sout2_B_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hc0N t h0) (hc1N t h1) (iblk2 V c 0 t) (iblk2 V c 1 t) (iblk2 V c 2 t) (scAt2 V c (t.val - 1) (Nat.lt_of_le_of_lt (Nat.sub_le _ _) t.isLt)).1 (scAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At an epilogue point (k = 7): the case's contents over what the point before left. -/
theorem scAt2_C (c : Dev nD) (t : Fin cfg2.N) (h0 : ¬t.val % 8 = 0) (h1 : t.val % 8 = 7) :
    scAt2 V c t.val t.isLt = (sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hc0N t h0) (hc1C t h1) (iblk2 V c 0 t) (iblk2 V c 1 t) (iblk2 V c 2 t) (scAt2 V c (t.val - 1) (Nat.lt_of_le_of_lt (Nat.sub_le _ _) t.isLt)).1 (scAt2 V c (t.val - 1) (Nat.lt_of_le_of_lt (Nat.sub_le _ _) t.isLt)).2,
      sout2_C_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hc0N t h0) (hc1C t h1) (iblk2 V c 0 t) (iblk2 V c 1 t) (iblk2 V c 2 t) (scAt2 V c (t.val - 1) (Nat.lt_of_le_of_lt (Nat.sub_le _ _) t.isLt)).1 (scAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What the two outputs' staging buffers hold after the body at an epilogue point; at the other points (where the
    windows are idle and not written back) a placeholder nothing consults. -/
def out2At_3 (c : Dev nD) (t : Fin cfg2.N) : Vec F S256x1 .f32 :=
  if h1 : t.val % 8 = 7 then
    out2_C_3 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hc0C t h1) (hc1C t h1) (iblk2 V c 0 t) (iblk2 V c 1 t) (iblk2 V c 2 t) (scAt2 V c (t.val - 1) (Nat.lt_of_le_of_lt (Nat.sub_le _ _) t.isLt)).1 (scAt2 V c (t.val - 1) (Nat.lt_of_le_of_lt (Nat.sub_le _ _) t.isLt)).2
  else VO2_3.read (Elt F) VO2_3.junk
def out2At_4 (c : Dev nD) (t : Fin cfg2.N) : Vec F S256x1 .f32 :=
  if h1 : t.val % 8 = 7 then
    out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hc0C t h1) (hc1C t h1) (iblk2 V c 0 t) (iblk2 V c 1 t) (iblk2 V c 2 t) (scAt2 V c (t.val - 1) (Nat.lt_of_le_of_lt (Nat.sub_le _ _) t.isLt)).1 (scAt2 V c (t.val - 1) (Nat.lt_of_le_of_lt (Nat.sub_le _ _) t.isLt)).2
  else VO2_4.read (Elt F) VO2_4.junk
theorem out2At_3_C (c : Dev nD) (t : Fin cfg2.N) (h1 : t.val % 8 = 7) :
    out2At_3 V c t = out2_C_3 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hc0C t h1) (hc1C t h1) (iblk2 V c 0 t) (iblk2 V c 1 t) (iblk2 V c 2 t) (scAt2 V c (t.val - 1) (Nat.lt_of_le_of_lt (Nat.sub_le _ _) t.isLt)).1 (scAt2 V c (t.val - 1) (Nat.lt_of_le_of_lt (Nat.sub_le _ _) t.isLt)).2 := dif_pos h1
theorem out2At_4_C (c : Dev nD) (t : Fin cfg2.N) (h1 : t.val % 8 = 7) :
    out2At_4 V c t = out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hc0C t h1) (hc1C t h1) (iblk2 V c 0 t) (iblk2 V c 1 t) (iblk2 V c 2 t) (scAt2 V c (t.val - 1) (Nat.lt_of_le_of_lt (Nat.sub_le _ _) t.isLt)).1 (scAt2 V c (t.val - 1) (Nat.lt_of_le_of_lt (Nat.sub_le _ _) t.isLt)).2 := dif_pos h1

/-! ## The invariant that tracks the scratch -/

/-- Before position n: before the first point the class invariant (both scratch buffers at anything); afterwards the
    two scratch buffers at what the point before left, every other scoped buffer unopened, the generator register at
    some state. -/
def PhiS2 (c : Dev nD) : (n : ℕ) → n ≤ cfg2.N → sProp 𝕄
  | 0, _ => Pipeline.ΦA spec2 c
  | n + 1, hn => iprop(iprop(iprop(owns (c : Thread nD τ) scM2_0 fullShare (scAt2 V c n hn).1 ∗ owns (c : Thread nD τ) scM2_1 fullShare (scAt2 V c n hn).2) ∗ restC c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare (scAt2 V c n hn).1 ∗ owns (c : Thread nD τ) scM2_1 fullShare (scAt2 V c n hn).2) ∗ restC c) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare (scAt2 V c (n - 1) (by omega)).1 ∗ owns (c : Thread nD τ) scM2_1 fullShare (scAt2 V c (n - 1) (by omega)).2) ∗ restC c) ∗ (∃ r, prngReg c r)) := by
  cases n with
  | zero => exact absurd rfl hz
  | succ n => rfl

/-! ## The pipeline's proof data -/

/-- Pipeline 2's proof data on core c: the arrays as the region finds them; after the body each input's buffer at its
    block, each output's at what the epilogue stores; the invariant tracking the scratch; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2At_3 V c t
    | ⟨4, _⟩ => out2At_4 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2At_3 V c t := by dsimp only [dat2]
theorem after2_4 (c : Dev nD) (t : Fin cfg2.N) : (dat2 V c).after 4 t = out2At_4 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t)

set_option maxHeartbeats 8000000 in
/-- The body at any point: the inputs' memrefs hold their blocks; the position says which case the point is in; the
    invariant hands the body the scratch at what the point before left (at anything at the very first point) and takes
    it back at this point's contents; an idle output goes back as it came; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  by_cases h0 : t.val % 8 = 0
  · rw [Dat.leavesExact_idle (dat2 V c) 3 t (idleAt2_3 t (hc1A t h0)) (noFlush2_3 t (hc1A t h0))]
    rw [Dat.leavesExact_idle (dat2 V c) 4 t (idleAt2_4 t (hc1A t h0)) (noFlush2_4 t (hc1A t h0))]
    rw [scAt2_A V c t h0]
    unfold sout2_A_0 sout2_A_1; (try dsimp only)
    by_cases hz : t.val = 0
    · rw [PhiS2_castSucc V c t, PhiS2_zero V c _ _ hz, PhiA2_eq]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ _ _ (hc0A t h0) (hc1A t h0) (iblk2 V c 0 t) (iblk2 V c 1 t) (iblk2 V c 2 t)).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_A_0 c _ _ _ _ _ _ _ _ _ _ _ _ _ _ _ _ _ _ _ _)
            · unfold owns; iexists _; isplitr
              swap; · iexact HS1
              ipureintro; exact View.read_writes_of_cover _ _ _ _ _ (scover2_A_1 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ _ _ (hc0A t h0) (hc1A t h0) (iblk2 V c 0 t) (iblk2 V c 1 t) (iblk2 V c 2 t)).2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_A_0 c _ _ _ _ _ _ _ _ _ _ _ _ _ _ _ _ _ _ _ _)
            · unfold owns; iexists _; isplitr
              swap; · iexact HS1
              ipureintro; exact View.read_writes_of_cover _ _ _ _ _ (scover2_A_1 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat2 V c).leavesExact 3 t = owns (c : Thread nD τ) (ms2_3 t) fullShare ((dat2 V c).after 3 t) from by
        unfold Dat.leavesExact; rw [liveAt2_3 t (hc1C t h1)], after2_3, out2At_3_C V c t h1]
      rw [show (dat2 V c).leavesExact 4 t = owns (c : Thread nD τ) (ms2_4 t) fullShare ((dat2 V c).after 4 t) from by
        unfold Dat.leavesExact; rw [liveAt2_4 t (hc1C t h1)], after2_4, out2At_4_C V c t h1]
      rw [scAt2_C V c t h0 h1]
      unfold out2_C_3 out2_C_4 sout2_C_0 sout2_C_1; (try dsimp only)
      rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ _ _ (hc0N t h0) (hc1C t h1) (iblk2 V c 0 t) (iblk2 V c 1 t) (iblk2 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_C_3 c _ _ _ _ _ _ _ _ _ _ _ _ _ _ _ _ _ _ _ _ _ _)
      unfold owns; iexists _; isplitr
      swap; · iexact H4
      ipureintro; exact View.read_writes_of_cover _ _ _ _ _ (cover2_C_4 c _ _ _ _ _ _ _ _ _ _ _ _ _ _ _ _ _ _ _ _ _ _)
    · rw [Dat.leavesExact_idle (dat2 V c) 3 t (idleAt2_3 t (hc1N t h1)) (noFlush2_3 t (hc1N t h1))]
      rw [Dat.leavesExact_idle (dat2 V c) 4 t (idleAt2_4 t (hc1N t h1)) (noFlush2_4 t (hc1N t h1))]
      rw [scAt2_B V c t h0 h1]
      unfold sout2_B_0 sout2_B_1; (try dsimp only)
      rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ _ _ (hc0N t h0) (hc1N t h1) (iblk2 V c 0 t) (iblk2 V c 1 t) (iblk2 V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class invariant back: the scratch contents are forgotten. -/
theorem Phi2_out (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout2 (c : Dev nD) : (dat2 V c).Φ (Fin.last cfg2.N) ⊢ Pipeline.ΦA spec2 c :=
  Phi2_out V c _ (by rw [Fin.val_last]; have : cfg2.N = 128 := N_2; omega)

end Cert.KernelIdeal.Hand

end
-- ==== Proof.MainRun.lean ====
/-
  The whole program from launch to return: a host stretch (the thresholds reshaped to a row), the three kernel regions,
  and the host tail (the two 4096-element sums, the count test, the division, the select).  The buffer contents at every
  segment boundary are a fold from the launch memory: a host stretch applies its operations; a region leaves each of its
  arrays at what its write-backs make of it and every other buffer as it found it.  Each region is entered from the
  boundary before it and left at the one after it; the run ends with every unscoped buffer at the last boundary's
  contents, from which both the frame (the arguments as launched) and the result's value are read.
-/
import proofs.«419477_j84868553769049_3_alg».proof.Proof.Gen.KernelIdeal.Launch
import proofs.«419477_j84868553769049_3_alg».proof.Proof.Gen.KernelIdeal.Skeleton
import proofs.«419477_j84868553769049_3_alg».proof.Proof.Gen.KernelIdeal.Points
import proofs.«419477_j84868553769049_3_alg».proof.Proof.FrameA
import proofs.«419477_j84868553769049_3_alg».proof.Proof.FrameB
import proofs.«419477_j84868553769049_3_alg».proof.Proof.FrameC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core c's buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit (region 1's entry): its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit (region 2's entry). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- At region 2's exit. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)
/-- After the two host stretches of the tail. -/
abbrev W5 : Dev nD → Valuation τ sig (Elt F) := fun c => StableHlo.after hostOps3 (W4 m c)
abbrev W6 : Dev nD → Valuation τ sig (Elt F) := fun c => StableHlo.after hostOps3_1 (W5 m c)

/-! ## The arguments end as launched -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_forall_not_mem (b := Proc.devRef .tc main_arg0) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m c (Proc.devRef .tc main_arg0) := (W4_arr m c 0).trans (((dat2 (V3 m) c).arrAt_in 0 rfl _).trans (A_eq2 (V3 m) c 0))
    _ = W2 m c (Proc.devRef .tc main_arg0) := (W3_arr m c 0).trans (((dat1 (V2 m) c).arrAt_in 0 rfl _).trans (A_eq1 (V2 m) c 0))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_forall_not_mem (b := Proc.devRef .tc main_arg1) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m c (Proc.devRef .tc main_arg1) := (W4_arr m c 1).trans (((dat2 (V3 m) c).arrAt_in 1 rfl _).trans (A_eq2 (V3 m) c 1))
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_forall_not_mem (b := Proc.devRef .tc main_arg2) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := W3_of_ne m c main_arg2 (by decide)
    _ = W1 m c (Proc.devRef .tc main_arg2) := (W2_arr m c 0).trans (((dat0 (V1 m) c).arrAt_in 0 rfl _).trans (A_eq0 (V1 m) c 0))
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_forall_not_mem (b := Proc.devRef .tc main_arg3) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem hostOps3_1_fresh' : (hostOps3_1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes term. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered from every unscoped buffer at W1, left at W2. Its arrays are split
    out of the unscoped buffers and put back at the exit contents; the generator register goes into the invariant and
    comes out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W3. Its arrays are split
    out of the unscoped buffers and put back at the exit contents; the generator register goes into the invariant and
    comes out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W3, left at W4. Its arrays are split
    out of the unscoped buffers and put back at the exit contents; the generator register goes into the invariant and
    comes out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    have h2 : (pdats m 2 c).Φ (Fin.last _) ⊢ (Pipeline.ΦA spec2 c : sProp 𝕄) := hout2 (V3 m) c
    have h3 : (Pipeline.ΦA spec2 c : sProp 𝕄) ⊢ iprop((∃ r, prngReg c r) ∗ BI.emp ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact h2.trans h3
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh' (W0 m)),
    .region (reg0 m),
    .region (reg1 m),
    .region (reg2 m),
    .host (hseg hostOps3 hostOps3_sub hostOps3_fresh' (W4 m)),
    .host (hseg hostOps3_1 hostOps3_1_sub hostOps3_1_fresh' (W5 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ iprop(Tₙ m c ∗ ∃ W, owes (c.tc : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE FRAME: the four argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run_all m ρ)

end Cert.KernelIdeal.Hand

end
-- ==== Proof.Spec.lean ====
/-
  The mathematics both programs compute, as functions of the four argument arrays read as extended reals, index by index
  and free of any program text.  B = 4096 batch rows, L = 2048 labels.  With gap the f32 value nearest 0.05, thr the f32
  value nearest 0.6 (the same words in both programs):
    incr(r,c) = [lpv(c) + gap < adj(r,c) and r ≠ c],  decr(r,c) = [adj(r,c) < lpv(c) − gap and r ≠ c]   (0 or 1)
    E(b,l) = [thr < pred(b,l)],  Ep = E · pred
    rel(b,l) = 1 + (Σ_j E(b,j) − E(b,l)),  cand = num / rel
    acc(b,l) = Σ_j sim(b,j) · cand(j,l),  resid = pred − acc,  norm(b) = √(Σ_l resid(b,l)²)
    valid(b) = (Σ_j sim(b,j) ≠ 0),  result = 0 if no row is valid, else (Σ_b valid norms) / max(#valid, 1).
  The two programs differ only in the numerator:
    the kernel folds the two adjacency corrections into one matrix C1 = incr·adj − decr·(1 − adj) first,
      numK = (pred + Ep·C1) + E·decr,
    the reference keeps three products,
      numR = ((pred + Ep·(incr·adj)) + E·decr) − Ep·(decr·(1 − adj)).
  On finite inputs these agree (distributivity of a finite sum of reals over a difference); everything after the
  numerator is the same expression, so the results agree by congruence.
-/
import Idealize.ShloMosaic.PureOps.Ideal
import Idealize.ShloMosaic.PureOps.Ideal.Laws

noncomputable section

namespace Cert.Spec

open Idealize.ShloMosaic

/-- the relation gap: the f32 nearest 0.05 -/
def gap : EReal := Ideal.ofBits .f32 0x3D4CCCCD#32
/-- the existence threshold: the f32 nearest 0.6 -/
def thr : EReal := Ideal.ofBits .f32 0x3F19999A#32
/-- the f32 one -/
def one : EReal := Ideal.ofBits .f32 0x3F800000#32

/-- a truth value as the extended real 0 or 1 -/
def ind (p : Prop) [Decidable p] : EReal := if p then 1 else 0

section
variable (pred : Fin 4096 → Fin 2048 → EReal) (sim : Fin 4096 → Fin 4096 → EReal)
  (adj : Fin 2048 → Fin 2048 → EReal) (lpv : Fin 2048 → EReal)

/-- off the diagonal, the entry exceeds the column's threshold by more than the gap -/
def incr (r c : Fin 2048) : EReal := ind (lpv c + gap < adj r c ∧ r ≠ c)
/-- off the diagonal, the entry is below the column's threshold by more than the gap -/
def decr (r c : Fin 2048) : EReal := ind (adj r c < lpv c - gap ∧ r ≠ c)
/-- the kernel's folded correction matrix -/
def c1 (r c : Fin 2048) : EReal := incr adj lpv r c * adj r c - decr adj lpv r c * (one - adj r c)
/-- the label exists in the row -/
def ex (b : Fin 4096) (l : Fin 2048) : EReal := ind (thr < pred b l)
/-- the existing labels' predictions -/
def exp (b : Fin 4096) (l : Fin 2048) : EReal := ex pred b l * pred b l

/-- the numerator the second stage computes from ANY two L×L matrices C (multiplied by the existing predictions) and A
    (multiplied by the existence mask) -/
def numOf (C A : Fin 2048 → Fin 2048 → EReal) (b : Fin 4096) (l : Fin 2048) : EReal :=
  (pred b l + ∑ j : Fin 2048, exp pred b j * C j l) + ∑ j : Fin 2048, ex pred b j * A j l
/-- the kernel's numerator: the second stage at the first stage's two matrices -/
def numK (b : Fin 4096) (l : Fin 2048) : EReal := numOf pred (c1 adj lpv) (decr adj lpv) b l
/-- the reference's numerator -/
def numR (b : Fin 4096) (l : Fin 2048) : EReal :=
  ((pred b l + ∑ j : Fin 2048, exp pred b j * (incr adj lpv j l * adj j l)) + ∑ j : Fin 2048, ex pred b j * decr adj lpv j l)
    - ∑ j : Fin 2048, exp pred b j * (decr adj lpv j l * (one - adj j l))

/-- the number of relations a candidate averages over -/
def rel (b : Fin 4096) (l : Fin 2048) : EReal := one + ((∑ j : Fin 2048, ex pred b j) - ex pred b l)

/-- the corrected candidates of a numerator -/
def cand (num : Fin 4096 → Fin 2048 → EReal) (b : Fin 4096) (l : Fin 2048) : EReal := Ideal.div (num b l) (rel pred b l)

-- the third stage, from ANY candidates matrix cd
variable (cd : Fin 4096 → Fin 2048 → EReal)

/-- similarities times candidates -/
def acc (b : Fin 4096) (l : Fin 2048) : EReal := ∑ j : Fin 4096, sim b j * cd j l
/-- a row's total similarity -/
def simsum (b : Fin 4096) : EReal := ∑ j : Fin 4096, sim b j
def resid (b : Fin 4096) (l : Fin 2048) : EReal := pred b l - acc sim cd b l
/-- a row's residual norm -/
def norm (b : Fin 4096) : EReal := Ideal.sqrt (∑ l : Fin 2048, resid pred sim cd b l * resid pred sim cd b l)
/-- the norm of a valid row, zero for an invalid one -/
def normOut (b : Fin 4096) : EReal := if simsum sim b ≠ 0 then norm pred sim cd b else 0
/-- 1 for a valid row -/
def validOut (b : Fin 4096) : EReal := ind (simsum sim b ≠ 0)
def total : EReal := ∑ b : Fin 4096, normOut pred sim cd b
def cnt : EReal := ∑ b : Fin 4096, validOut sim b
/-- the mean residual norm over the valid rows -/
def result : EReal := if cnt sim = 0 then 0 else Ideal.div (total pred sim cd) (max (cnt sim) one)

end

/-- The result depends on the candidates only through their values. -/
theorem result_congr (pred : Fin 4096 → Fin 2048 → EReal) (sim : Fin 4096 → Fin 4096 → EReal)
    {c₁ c₂ : Fin 4096 → Fin 2048 → EReal} (h : ∀ b l, c₁ b l = c₂ b l) : result pred sim c₁ = result pred sim c₂ := by
  have : c₁ = c₂ := funext fun b => funext fun l => h b l
  rw [this]

/-- The candidates depend on the numerator only through its values. -/
theorem cand_congr (pred : Fin 4096 → Fin 2048 → EReal)
    {n₁ n₂ : Fin 4096 → Fin 2048 → EReal} (h : ∀ b l, n₁ b l = n₂ b l) (b : Fin 4096) (l : Fin 2048) :
    cand pred n₁ b l = cand pred n₂ b l := by
  unfold cand; rw [h b l]

end Cert.Spec

end
-- ==== Proof.ValA.lean ====
/-
  The VALUES the first stage (the builder of the two L×L correction matrices, L = 2048) leaves in its two output arrays,
  at the ideal instance (every element an extended real, every format change the identity).

  With adj(r,c) the adjacency matrix and lpv(c) the threshold row as the stage finds them, gap the f32 nearest 0.05:
    incr(r,c) = [lpv(c) + gap < adj(r,c) and r ≠ c],   decr(r,c) = [adj(r,c) < lpv(c) − gap and r ≠ c]   (0 or 1),
    first output  C1(r,c) = incr(r,c)·adj(r,c) − decr(r,c)·(1 − adj(r,c)),   second output  A2(r,c) = decr(r,c).

  Three steps.  (1) The stored value at one element (p, q) of the 256×2048 block at grid coordinate g: each comparison
  is a decided bit, the conjunction of two bits is the bit of the conjunction, a bit widened and converted is 0 or 1,
  and the diagonal test compares the 32-bit words of g·256 + p and q, which are below 2³² and so differ exactly when the
  numbers do.  (2) The block a point reads is rows 256t … 256t + 255 of the matrix (the threshold row is read whole), so
  what point t writes back is block t of ONE function of the whole arrays.  (3) Row r is covered by point r / 256, the
  eight blocks tile the array, hence the array after the stage is that function at every index.
-/
import proofs.«419477_j84868553769049_3_alg».proof.Proof.FrameA
import proofs.«419477_j84868553769049_3_alg».proof.Proof.Spec
import Idealize.ShloMosaic.Lib.ValueIdx
import Idealize.ShloMosaic.Lib.ValueLayout
import Idealize.ShloMosaic.Lib.Pipeline.Value
import Idealize.ShloMosaic.Lib.WordArith
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.WordArith
open Idealize.ShloMosaic.Pipeline (Dat)
open Cert.Spec (ind gap one)

/-! ## Words and bits -/

/-- A truth bit widened to 32 bits converts to the extended real 0 or 1. -/
theorem sitofp_bit (b : Bool) :
    FloatOps.sitofp (F := Ideal) .f32 ((BitVec.ofBool b).setWidth 32) = if b then (1 : EReal) else 0 := by
  cases b
  · show (((BitVec.setWidth 32 (BitVec.ofBool false)).toInt : ℝ) : EReal) = 0
    rw [show (BitVec.setWidth 32 (BitVec.ofBool false)).toInt = 0 from by decide]; simp
  · show (((BitVec.setWidth 32 (BitVec.ofBool true)).toInt : ℝ) : EReal) = 1
    rw [show (BitVec.setWidth 32 (BitVec.ofBool true)).toInt = 1 from by decide]; simp

/-- The global row number, block·256 + local row, as a 32-bit word: no wrap below 2048. -/
theorem row_word (g p : Nat) (hg : g < 8) (hp : p < 256) :
    IntOp.addi (BitVec.ofNat 32 p) (Scalar.muli (BitVec.ofNat 32 g) 256#32) = BitVec.ofNat 32 (g * 256 + p) := by
  apply BitVec.eq_of_toNat_eq
  simp only [IntOp.addi, Scalar.muli, IntOp.muli, BitVec.toNat_add, BitVec.toNat_mul, BitVec.toNat_ofNat]
  omega

/-- Two numbers below 2³² differ as 32-bit words exactly when they differ. -/
theorem bne_word (a b : Nat) (ha : a < 2 ^ 32) (hb : b < 2 ^ 32) :
    (BitVec.ofNat 32 a != BitVec.ofNat 32 b) = decide (a ≠ b) := by
  by_cases e : a = b
  · subst e; simp
  · have hne : BitVec.ofNat 32 a ≠ BitVec.ofNat 32 b := by
      intro hh
      have := congrArg BitVec.toNat hh
      simp only [BitVec.toNat_ofNat] at this
      omega
    simp [hne, e]

/-- Two propositions that say the same have the same indicator. -/
theorem ind_congr {P Q : Prop} [Decidable P] [Decidable Q] (h : P ↔ Q) : ind P = ind Q := by
  unfold Cert.Spec.ind; exact if_congr h rfl rfl

/-- The conjunction of two decided bits, widened and converted, is the indicator of the conjunction. -/
theorem sitofp_and (P Q : Prop) [Decidable P] [Decidable Q] :
    FloatOps.sitofp (F := Ideal) .f32 ((IntOp.andi (BitVec.ofBool (decide P)) (BitVec.ofBool (decide Q))).setWidth 32)
      = ind (P ∧ Q) := by
  rw [andi_ofBool, sitofp_bit]
  unfold Cert.Spec.ind
  by_cases hP : P <;> by_cases hQ : Q <;> simp [hP, hQ]

/-! ## The payloads at an index -/

section Payload
variable (i : grid0.Coords) (x0 : Vec Ideal S256x2048 .f32) (x1 : Vec Ideal S1x2048 .f32) (p : Fin 256) (q : Fin 2048)

/-- The threshold row passes through its same-shape cast unchanged. -/
theorem pay1_eq : k0_pay1 x1 = x1 := by
  unfold k0_pay1; exact shapeCast_self _ _

/-- The diagonal test at (p, q): the global row block·256 + p is not the column q. -/
theorem pay2_apply : k0_pay2 i (ix2 p q) = BitVec.ofBool (decide ((i 0).val * 256 + p.val ≠ q.val)) := by
  unfold k0_pay2
  show IntOp.cmpi .ne (IntOp.addi (iota .tc S256x2048 32 [0] iota_S256x2048_d0_w32 (ix2 p q))
      (Scalar.muli (BitVec.ofNat 32 (i 0).val) 256#32)) (iota .tc S256x2048 32 [1] iota_S256x2048_d1_w32 (ix2 p q)) = _
  rw [iota_single_apply, iota_single_apply]
  show BitVec.ofBool (IntOp.addi (BitVec.ofNat 32 p.val) (Scalar.muli (BitVec.ofNat 32 (i 0).val) 256#32) != BitVec.ofNat 32 q.val) = _
  have hg : (i 0).val < 8 := (i 0).isLt
  have hp : p.val < 256 := p.isLt
  have hq : q.val < 2048 := q.isLt
  rw [row_word _ _ hg hp, bne_word _ _ (by omega) (by omega)]

/-- The "below the threshold by more than the gap, off the diagonal" indicator at (p, q). -/
theorem pay3_apply : k0_pay3 i x0 x1 (ix2 p q)
    = ind (x0 (ix2 p q) < x1 (ix2 (0 : Fin 1) q) - gap ∧ (i 0).val * 256 + p.val ≠ q.val) := by
  unfold k0_pay3
  show FloatOps.sitofp (F := Ideal) .f32 ((IntOp.andi
      (FloatOps.cmpf .olt (x0 (ix2 p q)) (broadcastTo S256x2048 (subf (k0_pay1 x1) (broadcast S1x2048 (Scalar.ofBits (F := Ideal) .f32 0x3D4CCCCD#32))) broadcasts_S1x2048_S256x2048 (ix2 p q)))
      (k0_pay2 i (ix2 p q))).setWidth 32) = _
  rw [broadcastTo_1b_ab_apply, pay1_eq, pay2_apply, Ideal.cmpf_def]
  show FloatOps.sitofp (F := Ideal) .f32 ((IntOp.andi
      (BitVec.ofBool (decide (x0 (ix2 p q) < x1 (ix2 (0 : Fin 1) q) - gap))) (BitVec.ofBool (decide ((i 0).val * 256 + p.val ≠ q.val)))).setWidth 32) = _
  exact sitofp_and _ _

/-- The second output's payload is that indicator. -/
theorem pay5_apply : k0_pay5 i x0 x1 (ix2 p q)
    = ind (x0 (ix2 p q) < x1 (ix2 (0 : Fin 1) q) - gap ∧ (i 0).val * 256 + p.val ≠ q.val) := by
  unfold k0_pay5
  show k0_pay3 i x0 x1 (ix2 p q) = _
  exact pay3_apply i x0 x1 p q

/-- The "above the threshold by more than the gap, off the diagonal" indicator at (p, q), as the first payload computes it. -/
theorem incr_apply : FloatOps.sitofp (F := Ideal) .f32 ((IntOp.andi
      (FloatOps.cmpf .ogt (x0 (ix2 p q)) (broadcastTo S256x2048 (addf (k0_pay1 x1) (broadcast S1x2048 (Scalar.ofBits (F := Ideal) .f32 0x3D4CCCCD#32))) broadcasts_S1x2048_S256x2048 (ix2 p q)))
      (k0_pay2 i (ix2 p q))).setWidth 32)
    = ind (x1 (ix2 (0 : Fin 1) q) + gap < x0 (ix2 p q) ∧ (i 0).val * 256 + p.val ≠ q.val) := by
  rw [broadcastTo_1b_ab_apply, pay1_eq, pay2_apply, Ideal.cmpf_def]
  show FloatOps.sitofp (F := Ideal) .f32 ((IntOp.andi
      (BitVec.ofBool (decide (x1 (ix2 (0 : Fin 1) q) + gap < x0 (ix2 p q)))) (BitVec.ofBool (decide ((i 0).val * 256 + p.val ≠ q.val)))).setWidth 32) = _
  exact sitofp_and _ _

/-- The first output's payload at (p, q): incr·adj − decr·(1 − adj). -/
theorem pay4_apply : k0_pay4 i x0 x1 (ix2 p q)
    = ind (x1 (ix2 (0 : Fin 1) q) + gap < x0 (ix2 p q) ∧ (i 0).val * 256 + p.val ≠ q.val) * x0 (ix2 p q)
      - ind (x0 (ix2 p q) < x1 (ix2 (0 : Fin 1) q) - gap ∧ (i 0).val * 256 + p.val ≠ q.val) * (one - x0 (ix2 p q)) := by
  unfold k0_pay4
  show FloatOps.sitofp (F := Ideal) .f32 ((IntOp.andi
      (FloatOps.cmpf .ogt (x0 (ix2 p q)) (broadcastTo S256x2048 (addf (k0_pay1 x1) (broadcast S1x2048 (Scalar.ofBits (F := Ideal) .f32 0x3D4CCCCD#32))) broadcasts_S1x2048_S256x2048 (ix2 p q)))
      (k0_pay2 i (ix2 p q))).setWidth 32) * x0 (ix2 p q)
    - k0_pay3 i x0 x1 (ix2 p q) * (Scalar.ofBits (F := Ideal) .f32 0x3F800000#32 - x0 (ix2 p q)) = _
  rw [incr_apply, pay3_apply]
  rfl

end Payload

/-! ## From blocks to the arrays -/

section Arrays
variable (V : (c : Dev nD) → (b : Ref sig .tc) → Buf (Elt Ideal) ((c : Thread nD τ).loc b)) (c : Dev nD)

/-- The adjacency matrix as the region finds it, by row and column. -/
abbrev adjOf : Fin 2048 → Fin 2048 → EReal := fun r k => (V c main_arg2 : S2048x2048.Idx → EReal) (ix2 r k)
/-- The thresholds as the region finds them, by column. -/
abbrev lpvOf : Fin 2048 → EReal := fun k => (V c main_v0 : S1x2048.Idx → EReal) (ix2 (0 : Fin 1) k)

/-- The whole first output: C1 = incr·adj − decr·(1 − adj) at every (row, column). -/
def arrC1 : S2048x2048.Idx → EReal := fun j => Cert.Spec.c1 (adjOf V c) (lpvOf V c) (j 0) (j 1)
/-- The whole second output: decr at every (row, column). -/
def arrA2 : S2048x2048.Idx → EReal := fun j => Cert.Spec.decr (adjOf V c) (lpvOf V c) (j 0) (j 1)

theorem hzA : (![0, 0] : Fin 2 → Nat) = fun _ => 0 := funext fun a => by fin_cases a <;> rfl

/-- The printed index maps over the 8 points: the adjacency and both outputs move down one row block per point, the
    threshold row stays, and the point's coordinate is its number. -/
theorem idxA : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ (grid0.coords t 0).val = t.val :=
  (by decide +kernel : ∀ t : Fin grid0.N, _)

/-- The adjacency block at point t holds rows 256t … 256t + 255 of the matrix. -/
theorem iblkA_0_apply (t : Fin cfg0.N) (p : Fin 256) (q : Fin 2048) (r k : Fin 2048)
    (hr : r.val = t.val * 256 + p.val) (hk : k.val = q.val) :
    (iblk0 (F := Ideal) V c 0 t : Vec Ideal S256x2048 .f32) (ix2 p q) = adjOf V c r k := by
  obtain ⟨e00, e01, -⟩ := idxA t
  unfold iblk0
  rw [View.read_apply]
  show V c main_arg2 (((cfg0.win 0).blk t).view.emb (ix2 p q)) = V c main_arg2 (ix2 r k)
  congr 1
  funext a; apply Fin.ext
  match a with
  | ⟨0, _⟩ => show win0_0.index t (0 : Fin 2) * 256 + 1 * p.val = r.val; omega
  | ⟨1, _⟩ => show win0_0.index t (1 : Fin 2) * 2048 + 1 * q.val = k.val; omega

/-- The threshold block at every point is the whole threshold row. -/
theorem iblkA_1_apply (t : Fin cfg0.N) (q : Fin 2048) (k : Fin 2048) (hk : k.val = q.val) :
    (iblk0 (F := Ideal) V c 1 t : Vec Ideal S1x2048 .f32) (ix2 (0 : Fin 1) q) = lpvOf V c k := by
  obtain ⟨-, -, e10, e11, -⟩ := idxA t
  unfold iblk0
  rw [View.read_apply]
  show V c main_v0 (((cfg0.win 1).blk t).view.emb (ix2 (0 : Fin 1) q)) = V c main_v0 (ix2 (0 : Fin 1) k)
  congr 1
  funext a; apply Fin.ext
  match a with
  | ⟨0, _⟩ => show win0_1.index t (0 : Fin 2) * 1 + 1 * 0 = 0; omega
  | ⟨1, _⟩ => show win0_1.index t (1 : Fin 2) * 2048 + 1 * q.val = k.val; omega

end Arrays

section Blocks
variable (g : grid0.Coords) (x0 : Vec Ideal S256x2048 .f32) (x1 : Vec Ideal S1x2048 .f32)
  (adj : Fin 2048 → Fin 2048 → EReal) (lpv : Fin 2048 → EReal) (p : Fin 256) (q : Fin 2048) (r k : Fin 2048)

/-- Off the diagonal in block coordinates is off the diagonal in the matrix. -/
theorem diag_iff (hr : r.val = (g 0).val * 256 + p.val) : ((g 0).val * 256 + p.val ≠ q.val) ↔ r ≠ q := by
  rw [← hr]; exact ⟨fun h e => h (congrArg Fin.val e), fun h e => h (Fin.ext e)⟩

/-- A block whose entries are the matrix's rows block·256 + p, with the threshold row, stores C1's entries. -/
theorem blockC1 (hr : r.val = (g 0).val * 256 + p.val) (hk : k.val = q.val)
    (h0 : x0 (ix2 p q) = adj r k) (h1 : x1 (ix2 (0 : Fin 1) q) = lpv k) :
    k0_pay4 g x0 x1 (ix2 p q) = Cert.Spec.c1 adj lpv r k := by
  obtain rfl : k = q := Fin.ext hk
  rw [pay4_apply, h0, h1]
  unfold Cert.Spec.c1 Cert.Spec.incr Cert.Spec.decr
  have e1 : ind (lpv k + gap < adj r k ∧ (g 0).val * 256 + p.val ≠ k.val) = ind (lpv k + gap < adj r k ∧ r ≠ k) :=
    ind_congr (and_congr Iff.rfl (diag_iff g p k r hr))
  have e2 : ind (adj r k < lpv k - gap ∧ (g 0).val * 256 + p.val ≠ k.val) = ind (adj r k < lpv k - gap ∧ r ≠ k) :=
    ind_congr (and_congr Iff.rfl (diag_iff g p k r hr))
  rw [e1, e2]

/-- … and, for the second output, decr's entries. -/
theorem blockA2 (hr : r.val = (g 0).val * 256 + p.val) (hk : k.val = q.val)
    (h0 : x0 (ix2 p q) = adj r k) (h1 : x1 (ix2 (0 : Fin 1) q) = lpv k) :
    k0_pay5 g x0 x1 (ix2 p q) = Cert.Spec.decr adj lpv r k := by
  obtain rfl : k = q := Fin.ext hk
  rw [pay5_apply, h0, h1]
  unfold Cert.Spec.decr
  exact ind_congr (and_congr Iff.rfl (diag_iff g p k r hr))

end Blocks

section Final
variable (V : (c : Dev nD) → (b : Ref sig .tc) → Buf (Elt Ideal) ((c : Thread nD τ).loc b)) (c : Dev nD)

/-- What point t writes back to the first output is block t of the whole C1 array. -/
theorem flushedA_2 (t : Fin cfg0.N) :
    (dat0 (F := Ideal) V c).flushed 2 t = ((cfg0.win 2).blk t).view.read (Elt Ideal) (arrC1 V c) := by
  show (cfg0.win 2).cut (grid0.coords t) ((dat0 (F := Ideal) V c).after 2 t) = _
  rw [after0_2]
  unfold outA_2
  rw [View.canon_unit_zero hzA]
  simp only [View.ld_unit_zero (S := S256x2048) hzA, View.ld_unit_zero (S := S1x2048) hzA]
  obtain ⟨e00, e01, e10, e11, e20, e21, e30, e31, eg⟩ := idxA t
  funext j
  obtain ⟨p, q, rfl⟩ : ∃ (p : Fin 256) (q : Fin 2048), j = ix2 p q := ⟨j 0, j 1, eq_ix2 j⟩
  show k0_pay4 (grid0.coords t) (iblk0 V c 0 t) (iblk0 V c 1 t) (ix2 p q)
    = Cert.Spec.c1 (adjOf V c) (lpvOf V c) (((cfg0.win 2).blk t).view.emb (ix2 p q) 0) (((cfg0.win 2).blk t).view.emb (ix2 p q) 1)
  have hr : ((((cfg0.win 2).blk t).view.emb (ix2 p q) 0 : Fin 2048) : Nat) = t.val * 256 + p.val := by
    show win0_2.index t (0 : Fin 2) * 256 + 1 * p.val = _; omega
  have hk : ((((cfg0.win 2).blk t).view.emb (ix2 p q) 1 : Fin 2048) : Nat) = q.val := by
    show win0_2.index t (1 : Fin 2) * 2048 + 1 * q.val = _; omega
  exact blockC1 _ _ _ _ _ p q _ _ (by rw [hr, eg]) hk (iblkA_0_apply V c t p q _ _ hr hk) (iblkA_1_apply V c t q _ hk)

/-- What point t writes back to the second output is block t of the whole decr array. -/
theorem flushedA_3 (t : Fin cfg0.N) :
    (dat0 (F := Ideal) V c).flushed 3 t = ((cfg0.win 3).blk t).view.read (Elt Ideal) (arrA2 V c) := by
  show (cfg0.win 3).cut (grid0.coords t) ((dat0 (F := Ideal) V c).after 3 t) = _
  rw [after0_3]
  unfold outA_3
  rw [View.canon_unit_zero hzA]
  simp only [View.ld_unit_zero (S := S256x2048) hzA, View.ld_unit_zero (S := S1x2048) hzA]
  obtain ⟨e00, e01, e10, e11, e20, e21, e30, e31, eg⟩ := idxA t
  funext j
  obtain ⟨p, q, rfl⟩ : ∃ (p : Fin 256) (q : Fin 2048), j = ix2 p q := ⟨j 0, j 1, eq_ix2 j⟩
  show k0_pay5 (grid0.coords t) (iblk0 V c 0 t) (iblk0 V c 1 t) (ix2 p q)
    = Cert.Spec.decr (adjOf V c) (lpvOf V c) (((cfg0.win 3).blk t).view.emb (ix2 p q) 0) (((cfg0.win 3).blk t).view.emb (ix2 p q) 1)
  have hr : ((((cfg0.win 3).blk t).view.emb (ix2 p q) 0 : Fin 2048) : Nat) = t.val * 256 + p.val := by
    show win0_3.index t (0 : Fin 2) * 256 + 1 * p.val = _; omega
  have hk : ((((cfg0.win 3).blk t).view.emb (ix2 p q) 1 : Fin 2048) : Nat) = q.val := by
    show win0_3.index t (1 : Fin 2) * 2048 + 1 * q.val = _; omega
  exact blockA2 _ _ _ _ _ p q _ _ (by rw [hr, eg]) hk (iblkA_0_apply V c t p q _ _ hr hk) (iblkA_1_apply V c t q _ hk)

/-- An index is in point t's block of the first output iff each coordinate is in the block's range. -/
theorem mem_blkA_2 (t : Fin cfg0.N) (i : S2048x2048.Idx) :
    i ∈ ((cfg0.win 2).blk t).view.set ↔ ∀ a : Fin 2, win0_2.index t a * S256x2048.size a ≤ (i a).val ∧ (i a).val < win0_2.index t a * S256x2048.size a + S256x2048.size a := by
  show i ∈ ((View.whole main_v1_0).slice (win0_2.rect t)).set ↔ _
  rw [View.set_slice_whole, Rect.mem_set_unit]
  exact Iff.rfl

theorem mem_blkA_3 (t : Fin cfg0.N) (i : S2048x2048.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v1_1).slice (win0_3.rect t)).set ↔ _
  rw [View.set_slice_whole, Rect.mem_set_unit]
  exact Iff.rfl

/-- Row r of the first output is covered by point r / 256. -/
theorem coverA_2 (i : S2048x2048.Idx) : ∃ t : Fin cfg0.N, (cfg0.win 2).flush t = true ∧ i ∈ ((cfg0.win 2).blk t).view.set := by
  have hi0 : (i 0).val < 2048 := (i 0).isLt
  have hi1 : (i 1).val < 2048 := (i 1).isLt
  have hN : cfg0.N = 8 := rfl
  let t : Fin cfg0.N := ⟨(i 0).val / 256, by rw [hN]; omega⟩
  obtain ⟨-, -, -, -, e20, e21, -⟩ := idxA t
  have ht : t.val = (i 0).val / 256 := rfl
  refine ⟨t, flush0_2 t, ?_⟩
  rw [mem_blkA_2]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 2048 ≤ (i 1).val ∧ (i 1).val < win0_2.index t (1 : Fin 2) * 2048 + 2048; omega

theorem coverA_3 (i : S2048x2048.Idx) : ∃ t : Fin cfg0.N, (cfg0.win 3).flush t = true ∧ i ∈ ((cfg0.win 3).blk t).view.set := by
  have hi0 : (i 0).val < 2048 := (i 0).isLt
  have hi1 : (i 1).val < 2048 := (i 1).isLt
  have hN : cfg0.N = 8 := rfl
  let t : Fin cfg0.N := ⟨(i 0).val / 256, by rw [hN]; omega⟩
  obtain ⟨-, -, -, -, -, -, e30, e31, -⟩ := idxA t
  have ht : t.val = (i 0).val / 256 := rfl
  refine ⟨t, flush0_3 t, ?_⟩
  rw [mem_blkA_3]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 2048 ≤ (i 1).val ∧ (i 1).val < win0_3.index t (1 : Fin 2) * 2048 + 2048; omega

/-- After region 0 the first output array holds C1 at every index. -/
theorem arrA_c1 (j : S2048x2048.Idx) :
    ((dat0 (F := Ideal) V c).arrAt 2 cfg0.N : S2048x2048.Idx → EReal) j = Cert.Spec.c1 (adjOf V c) (lpvOf V c) (j 0) (j 1) :=
  congrFun ((dat0 (F := Ideal) V c).arrAt_eq_of_cover 2 (arrC1 V c) (fun t _ => flushedA_2 V c t) (coverA_2)) j

/-- After region 0 the second output array holds decr at every index. -/
theorem arrA_a2 (j : S2048x2048.Idx) :
    ((dat0 (F := Ideal) V c).arrAt 3 cfg0.N : S2048x2048.Idx → EReal) j = Cert.Spec.decr (adjOf V c) (lpvOf V c) (j 0) (j 1) :=
  congrFun ((dat0 (F := Ideal) V c).arrAt_eq_of_cover 3 (arrA2 V c) (fun t _ => flushedA_3 V c t) (coverA_3)) j

end Final

end Cert.KernelIdeal.Hand

end
-- ==== Proof.ValB.lean ====
/-
  The values the second stage leaves in the candidates array, at the extended reals.
  B = 4096 batch rows, L = 2048 labels.  At row block t (t < 16) the stage reads rows 256 t … 256 t + 255 of the predictions
  and the two whole L × L matrices C (the folded correction) and A (the decrease mask), and stores the 256 × L block
    cand(b, l) = ((pred(b, l) + Σ_k E(b, k) · pred(b, k) · C(k, l)) + Σ_k E(b, k) · A(k, l)) / (1 + (Σ_k E(b, k) − E(b, l))),
  with E(b, k) = [thr < pred(b, k)] read as 0 or 1.
  First the stored block at one entry (p, q): the comparison bit, widened and converted, is the indicator; each matrix
  product into the zero accumulator is the sum over the contraction coordinate; the lane sum kept as a column and
  broadcast back reads the row's count.  Then the blocks are put together: the block written at point t is the
  restriction, to rows 256 t … 256 t + 255, of ONE function of the array index, and row r lies in the block of point
  r / 256, so the array ends holding that function.
-/
import proofs.«419477_j84868553769049_3_alg».proof.Proof.FrameB
import proofs.«419477_j84868553769049_3_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-! ## One entry of the stored block -/

/-- The comparison "a exceeds thr", as one bit widened to a word and converted, is the indicator [thr < a]. -/
theorem exBitB (a : EReal) :
    (FloatOps.sitofp (F := Ideal) .f32 ((FloatOps.cmpf (F := Ideal) (φ := .f32) .ogt a (Scalar.ofBits .f32 0x3F19999A#32)).setWidth 32) : EReal)
      = Cert.Spec.ind (Cert.Spec.thr < a) := by
  show ((((Ideal.cmp .ogt a Cert.Spec.thr).setWidth 32).toInt : ℝ) : EReal) = _
  unfold Ideal.cmp Cert.Spec.ind
  by_cases h : Cert.Spec.thr < a
  · simp [h]
  · simp [h]

/-- The existence mask E of a block of predictions. -/
def exVB (x0 : FVec Ideal S256x2048 .f32) : FVec Ideal S256x2048 .f32 :=
  sitofp .f32 (extui 32 (cmpf .ogt x0 (broadcast S256x2048 (Scalar.ofBits .f32 0x3F19999A#32))) natLt_1_32)

/-- E at an entry is the indicator of the entry's prediction exceeding thr. -/
theorem exVB_apply (x0 : FVec Ideal S256x2048 .f32) (j : S256x2048.Idx) :
    exVB x0 j = Cert.Spec.ind (Cert.Spec.thr < x0 j) := exBitB (x0 j)

/-! ### The matrix product at an entry

The product contracts the block's lane axis with the matrix's row axis.  At output entry i and contraction coordinate k
the left operand is read at (i 0, k) and the right one at (k, i 1): one fact per operand and axis. -/

/-- The left operand's row is the output's row. -/
theorem lhsB_0 (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
/-- The left operand's lane is the contraction coordinate. -/
theorem lhsB_1 (i : S256x2048.Idx) (q : dot_S256x2048_S2048x2048_S256x2048_1_0_0_1_n_n.contr.Idx) :
    (dot_S256x2048_S2048x2048_S256x2048_1_0_0_1_n_n.lhsIdx i q 1).val = (q ⟨0, by decide⟩).val :=
  dot_S256x2048_S2048x2048_S256x2048_1_0_0_1_n_n.lhsIdx_val_of_single rfl i q
/-- The right operand's row is the contraction coordinate. -/
theorem rhsB_0 (i : S256x2048.Idx) (q : dot_S256x2048_S2048x2048_S256x2048_1_0_0_1_n_n.contr.Idx) :
    (dot_S256x2048_S2048x2048_S256x2048_1_0_0_1_n_n.rhsIdx i q 0).val = (q ⟨0, by decide⟩).val :=
  dot_S256x2048_S2048x2048_S256x2048_1_0_0_1_n_n.rhsIdx_val_of_single rfl i q
/-- The right operand's column is the output's column. -/
theorem rhsB_1 (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- A 256 × L block times an L × L matrix, accumulated into zero: entry (p, q) is Σ_k L(p, k) · R(k, q), the sum
    re-indexed from the one-axis contraction index to its coordinate. -/
theorem mmB_apply (L : FVec Ideal S256x2048 .bf16) (R : FVec Ideal S2048x2048 .bf16) (p : Fin 256) (q : Fin 2048) :
    matmul dot_S256x2048_S2048x2048_S256x2048_1_0_0_1_n_n none L R (constant S256x2048 .f32 0x00000000#32) (ix2 p q)
      = ∑ k : Fin 2048, L (ix2 p k) * R (ix2 k q) := by
  simp only [matmul]
  rw [Ideal.matmul_constant_zero_apply, ← Equiv.sum_comp (ValueIdx.contrEquiv1 dot_S256x2048_S2048x2048_S256x2048_1_0_0_1_n_n 2048 rfl rfl).symm]
  refine Finset.sum_congr rfl fun k _ => ?_
  have hk := ValueIdx.contrEquiv1_symm_val dot_S256x2048_S2048x2048_S256x2048_1_0_0_1_n_n 2048 rfl rfl k
  have el : dot_S256x2048_S2048x2048_S256x2048_1_0_0_1_n_n.lhsIdx (ix2 p q) ((ValueIdx.contrEquiv1 dot_S256x2048_S2048x2048_S256x2048_1_0_0_1_n_n 2048 rfl rfl).symm k) = ix2 p k := funext fun a => Fin.ext (by
    match a with
    | ⟨0, _⟩ => exact lhsB_0 _ _
    | ⟨1, _⟩ => exact (lhsB_1 _ _).trans hk)
  have er : dot_S256x2048_S2048x2048_S256x2048_1_0_0_1_n_n.rhsIdx (ix2 p q) ((ValueIdx.contrEquiv1 dot_S256x2048_S2048x2048_S256x2048_1_0_0_1_n_n 2048 rfl rfl).symm k) = ix2 k q := funext fun a => Fin.ext (by
    match a with
    | ⟨0, _⟩ => exact (rhsB_0 _ _).trans hk
    | ⟨1, _⟩ => exact rhsB_1 _ _)
  rw [el, er]

/-! ### The row's count, kept as a column and broadcast back over the lanes -/

/-- The sum over the lanes of a block, at row p: the index (p) with lane k put back is (p, k). -/
theorem rowSumB_apply (E : FVec Ideal S256x2048 .f32) (p : Fin 256) :
    multiReduction .add [1] S256 E 0x00000000#32 reduces_S256x2048_S256 (.inl rfl) rfl (ix1 p) = ∑ k : Fin 2048, E (ix2 p k) := by
  refine (Ideal.multiReduction_add_single E 0x00000000#32 reduces_S256x2048_S256 (.inl rfl) rfl (ix1 p)).trans ?_
  refine Finset.sum_congr rfl fun k _ => congrArg E ?_
  funext a; apply Fin.ext
  match a with
  | ⟨0, _⟩ => rfl
  | ⟨1, _⟩ => rfl

/-- A vector of 256 entries viewed as a 256 × 1 column reads entry p at (p, 0): the two row-major positions are p. -/
theorem colB_apply {α : Type} (v : S256.Idx → α) (p : Fin 256) (z : Fin 1) :
    shapeCast S256x1 v shapeCasts_S256_S256x1 (ix2 p z) = v (ix1 p) :=
  shapeCast_apply v shapeCasts_S256_S256x1 _ _ (by
    have hz : z.val = 0 := by omega
    rw [Shape.rowMajor_val_two, Shape.rowMajor_val_one]
    show p.val = p.val * 1 + z.val
    omega)

/-- A 256 × 1 column repeated along 2048 lanes reads, at (p, q), the column's row p. -/
theorem colBcastB_apply {α : Type} (v : S256x1.Idx → α) (p : Fin 256) (q : Fin 2048) :
    broadcastTo S256x2048 v broadcasts_S256x1_S256x2048 (ix2 p q) = v (ix2 p (0 : Fin 1)) := by
  refine broadcastTo_apply v broadcasts_S256x1_S256x2048 (ix2 p q) (ix2 p (0 : Fin 1)) fun ax => ?_
  match ax with
  | ⟨0, _⟩ =>
    show p.val = if (256 : Nat) = 1 then 0 else p.val
    rw [if_neg (by decide)]
  | ⟨1, _⟩ => rfl

/-- The number of relations of a block: one plus the row's count of existing labels less the entry's own bit. -/
def relVB (x0 : FVec Ideal S256x2048 .f32) : FVec Ideal S256x2048 .f32 :=
  addf (broadcast S256x2048 (Scalar.ofBits .f32 0x3F800000#32))
    (subf (broadcastTo S256x2048 (shapeCast S256x1 (multiReduction .add [1] S256 (exVB x0) 0x00000000#32 reduces_S256x2048_S256 (.inl rfl) rfl) shapeCasts_S256_S256x1) broadcasts_S256x1_S256x2048) (exVB x0))

/-- At (p, q) it is 1 + (Σ_k E(p, k) − E(p, q)). -/
theorem relVB_apply (x0 : FVec Ideal S256x2048 .f32) (p : Fin 256) (q : Fin 2048) :
    relVB x0 (ix2 p q) = Cert.Spec.one + ((∑ k : Fin 2048, Cert.Spec.ind (Cert.Spec.thr < x0 (ix2 p k))) - Cert.Spec.ind (Cert.Spec.thr < x0 (ix2 p q))) := by
  show Cert.Spec.one + (broadcastTo S256x2048 (shapeCast S256x1 (multiReduction .add [1] S256 (exVB x0) 0x00000000#32 reduces_S256x2048_S256 (.inl rfl) rfl) shapeCasts_S256_S256x1) broadcasts_S256x1_S256x2048 (ix2 p q) - exVB x0 (ix2 p q)) = _
  rw [colBcastB_apply, colB_apply, rowSumB_apply, exVB_apply]
  simp only [exVB_apply]

/-- The stored block as a tree over the mask, the two products and the relation count: the numerator
    (x0 + (E · x0) C) + E A over the relation count, entry by entry. -/
theorem payB_eq (x0 : FVec Ideal S256x2048 .f32) (x1 x2 : FVec Ideal S2048x2048 .bf16) :
    k1_pay1 (F := Ideal) x0 x1 x2
      = truncf .bf16 (divf (addf (addf x0
            (matmul dot_S256x2048_S2048x2048_S256x2048_1_0_0_1_n_n none (truncf .bf16 (mulf (exVB x0) x0) bitsLt_bf16_f32) (shapeCast S2048x2048 x1 shapeCasts_S2048x2048_S2048x2048) (constant S256x2048 .f32 0x00000000#32)))
            (matmul dot_S256x2048_S2048x2048_S256x2048_1_0_0_1_n_n none (truncf .bf16 (exVB x0) bitsLt_bf16_f32) (shapeCast S2048x2048 x2 shapeCasts_S2048x2048_S2048x2048) (constant S256x2048 .f32 0x00000000#32)))
          (relVB x0)) bitsLt_bf16_f32 := rfl

/-- THE STORED BLOCK AT (p, q), over a prediction block x0 and two whole matrices x1, x2. -/
theorem payB_apply (x0 : FVec Ideal S256x2048 .f32) (x1 x2 : FVec Ideal S2048x2048 .bf16) (p : Fin 256) (q : Fin 2048) :
    (k1_pay1 (F := Ideal) x0 x1 x2 : S256x2048.Idx → EReal) (ix2 p q)
      = Ideal.div ((x0 (ix2 p q) + ∑ k : Fin 2048, (Cert.Spec.ind (Cert.Spec.thr < x0 (ix2 p k)) * x0 (ix2 p k)) * x1 (ix2 k q))
            + ∑ k : Fin 2048, Cert.Spec.ind (Cert.Spec.thr < x0 (ix2 p k)) * x2 (ix2 k q))
          (Cert.Spec.one + ((∑ k : Fin 2048, Cert.Spec.ind (Cert.Spec.thr < x0 (ix2 p k))) - Cert.Spec.ind (Cert.Spec.thr < x0 (ix2 p q)))) := by
  rw [payB_eq]
  show Ideal.div ((x0 (ix2 p q) + matmul dot_S256x2048_S2048x2048_S256x2048_1_0_0_1_n_n none (truncf .bf16 (mulf (exVB x0) x0) bitsLt_bf16_f32) (shapeCast S2048x2048 x1 shapeCasts_S2048x2048_S2048x2048) (constant S256x2048 .f32 0x00000000#32) (ix2 p q))
      + matmul dot_S256x2048_S2048x2048_S256x2048_1_0_0_1_n_n none (truncf .bf16 (exVB x0) bitsLt_bf16_f32) (shapeCast S2048x2048 x2 shapeCasts_S2048x2048_S2048x2048) (constant S256x2048 .f32 0x00000000#32) (ix2 p q))
    (relVB x0 (ix2 p q)) = _
  rw [mmB_apply, mmB_apply, relVB_apply, shapeCast_self, shapeCast_self]
  simp only [truncf_apply, mulf_apply, exVB_apply]

/-! ## From blocks to the array -/

theorem hzB : (![0, 0] : Fin 2 → Nat) = fun _ => 0 := funext fun a => by fin_cases a <;> rfl

/-- One block of candidates over literal blocks: if the prediction block is rows 256 t … 256 t + 255 of the predictions P
    and the two matrices are C and A read whole, the stored block at (p, q) is the candidate at (256 t + p, q). -/
theorem blockB_cand (P : S4096x2048.Idx → EReal) (C A : S2048x2048.Idx → EReal)
    (x0 : FVec Ideal S256x2048 .f32) (x1 x2 : FVec Ideal S2048x2048 .bf16) (t : Nat) (ht : t < 16)
    (h0 : ∀ (p : Fin 256) (q : Fin 2048), x0 (ix2 p q) = P (ix2 (⟨t * 256 + p.val, by omega⟩ : Fin 4096) q))
    (h1 : ∀ (k q : Fin 2048), x1 (ix2 k q) = C (ix2 k q)) (h2 : ∀ (k q : Fin 2048), x2 (ix2 k q) = A (ix2 k q))
    (p : Fin 256) (q : Fin 2048) :
    (k1_pay1 (F := Ideal) x0 x1 x2 : S256x2048.Idx → EReal) (ix2 p q)
      = Cert.Spec.cand (fun b l => P (ix2 b l))
          (Cert.Spec.numOf (fun b l => P (ix2 b l)) (fun r k => C (ix2 r k)) (fun r k => A (ix2 r k)))
          (⟨t * 256 + p.val, by omega⟩ : Fin 4096) q := by
  rw [payB_apply]
  unfold Cert.Spec.cand Cert.Spec.numOf Cert.Spec.rel Cert.Spec.exp Cert.Spec.ex
  simp only [h0, h1, h2]

section Array

variable (V : (c : Dev nD) → (b : Ref sig .tc) → Buf (Elt Ideal) ((c : Thread nD τ).loc b)) (c : Dev nD)

/-- The predictions, the folded correction matrix and the decrease mask as the second stage finds them, by coordinates. -/
abbrev predOf : Fin 4096 → Fin 2048 → EReal := fun b l => (V c main_arg0 : S4096x2048.Idx → EReal) (ix2 b l)
abbrev c1Of : Fin 2048 → Fin 2048 → EReal := fun r k => (V c main_v1_0 : S2048x2048.Idx → EReal) (ix2 r k)
abbrev a2Of : Fin 2048 → Fin 2048 → EReal := fun r k => (V c main_v1_1 : S2048x2048.Idx → EReal) (ix2 r k)

/-- The corrected candidates as ONE function of the output array's index. -/
def candArrB : S4096x2048.Idx → EReal := fun j =>
  Cert.Spec.cand (predOf V c) (Cert.Spec.numOf (predOf V c) (c1Of V c) (a2Of V c)) (j 0) (j 1)

/-- The block index maps over the sixteen points: the prediction and candidate blocks sit at row block t, column block 0;
    the two matrices at block (0, 0). -/
theorem idxB : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 16 :=
  (by decide +kernel : ∀ t : Fin grid1.N, _)

/-- The prediction block at point t is rows 256 t … 256 t + 255 of the predictions: an entry sits, on each axis, at
    block index × block size + its coordinate. -/
theorem iblkB0_apply (t : Fin cfg1.N) (p : Fin 256) (q : Fin 2048) :
    (iblk1 V c 0 t : S256x2048.Idx → EReal) (ix2 p q)
      = (V c main_arg0 : S4096x2048.Idx → EReal) (ix2 (⟨t.val * 256 + p.val, by have := (idxB t).2.2.2.2.2.2.2.2; omega⟩ : Fin 4096) q) := by
  obtain ⟨e0, e1, -⟩ := idxB t
  unfold iblk1
  rw [View.read_apply]
  show V c main_arg0 _ = V c main_arg0 _
  congr 1
  funext a
  apply Fin.ext
  match a with
  | ⟨0, _⟩ => show win1_0.index t (0 : Fin 2) * 256 + 1 * p.val = t.val * 256 + p.val; rw [e0]; omega
  | ⟨1, _⟩ => show win1_0.index t (1 : Fin 2) * 2048 + 1 * q.val = q.val; rw [e1]; omega

/-- The correction matrix's block at every point is the whole matrix. -/
theorem iblkB1_apply (t : Fin cfg1.N) (k q : Fin 2048) :
    (iblk1 V c 1 t : S2048x2048.Idx → EReal) (ix2 k q) = (V c main_v1_0 : S2048x2048.Idx → EReal) (ix2 k q) := by
  obtain ⟨-, -, e0, e1, -⟩ := idxB t
  unfold iblk1
  rw [View.read_apply]
  show V c main_v1_0 _ = V c main_v1_0 _
  congr 1
  funext a
  apply Fin.ext
  match a with
  | ⟨0, _⟩ => show win1_1.index t (0 : Fin 2) * 2048 + 1 * k.val = k.val; rw [e0]; omega
  | ⟨1, _⟩ => show win1_1.index t (1 : Fin 2) * 2048 + 1 * q.val = q.val; rw [e1]; omega

/-- The decrease mask's block at every point is the whole matrix. -/
theorem iblkB2_apply (t : Fin cfg1.N) (k q : Fin 2048) :
    (iblk1 V c 2 t : S2048x2048.Idx → EReal) (ix2 k q) = (V c main_v1_1 : S2048x2048.Idx → EReal) (ix2 k q) := by
  obtain ⟨-, -, -, -, e0, e1, -⟩ := idxB t
  unfold iblk1
  rw [View.read_apply]
  show V c main_v1_1 _ = V c main_v1_1 _
  congr 1
  funext a
  apply Fin.ext
  match a with
  | ⟨0, _⟩ => show win1_2.index t (0 : Fin 2) * 2048 + 1 * k.val = k.val; rw [e0]; omega
  | ⟨1, _⟩ => show win1_2.index t (1 : Fin 2) * 2048 + 1 * q.val = q.val; rw [e1]; omega

/-- Entry (p, q) of the candidates block at point t sits at (256 t + p, q) of the array. -/
theorem embB3 (t : Fin cfg1.N) (p : Fin 256) (q : Fin 2048) :
    (((cfg1.win 3).blk t).view.emb (ix2 p q) : S4096x2048.Idx)
      = ix2 (⟨t.val * 256 + p.val, by have := (idxB t).2.2.2.2.2.2.2.2; omega⟩ : Fin 4096) q := by
  obtain ⟨-, -, -, -, -, -, e0, e1, -⟩ := idxB t
  funext a
  apply Fin.ext
  match a with
  | ⟨0, _⟩ => show win1_3.index t (0 : Fin 2) * 256 + 1 * p.val = t.val * 256 + p.val; rw [e0]; omega
  | ⟨1, _⟩ => show win1_3.index t (1 : Fin 2) * 2048 + 1 * q.val = q.val; rw [e1]; omega

/-- WHAT POINT t WRITES BACK is block t of the candidates: the one whole-block store leaves the stored value of the three
    input blocks, which is the candidates function at the entry's place in the array. -/
theorem flushedB_eq (t : Fin cfg1.N) :
    (dat1 (F := Ideal) V c).flushed 3 t = ((cfg1.win 3).blk t).view.read (Elt Ideal) (candArrB V c) := by
  show (cfg1.win 3).cut (grid1.coords t) ((dat1 (F := Ideal) V c).after 3 t) = _
  rw [after1_3]
  unfold outB_3
  rw [View.canon_unit_zero hzB]
  simp only [View.ld_unit_zero (S := S256x2048) hzB, View.ld_unit_zero (S := S2048x2048) hzB]
  funext y
  obtain ⟨p, q, rfl⟩ : ∃ (p : Fin 256) (q : Fin 2048), y = ix2 p q := ⟨y 0, y 1, eq_ix2 y⟩
  show (k1_pay1 (F := Ideal) (iblk1 V c 0 t) (iblk1 V c 1 t) (iblk1 V c 2 t) : S256x2048.Idx → EReal) (ix2 p q)
    = candArrB V c (((cfg1.win 3).blk t).view.emb (ix2 p q))
  rw [embB3 t p q]
  exact blockB_cand (V c main_arg0) (V c main_v1_0) (V c main_v1_1) (iblk1 V c 0 t) (iblk1 V c 1 t) (iblk1 V c 2 t) t.val
    (idxB t).2.2.2.2.2.2.2.2 (iblkB0_apply V c t) (iblkB1_apply V c t) (iblkB2_apply V c t) p q

/-- An index of the array is in point t's block iff each coordinate is in the block's range on its axis. -/
theorem mem_blkB (t : Fin cfg1.N) (i : S4096x2048.Idx) :
    i ∈ ((cfg1.win 3).blk t).view.set ↔ ∀ a : Fin 2, win1_3.index t a * S256x2048.size a ≤ (i a).val ∧ (i a).val < win1_3.index t a * S256x2048.size a + S256x2048.size a := by
  show i ∈ ((View.whole main_v2).slice (win1_3.rect t)).set ↔ _
  rw [View.set_slice_whole, Rect.mem_set_unit]
  exact Iff.rfl

/-- Row r of the array lies in the block of point r / 256, and every point writes back. -/
theorem coverB3 (i : S4096x2048.Idx) : ∃ t : Fin cfg1.N, (cfg1.win 3).flush t = true ∧ i ∈ ((cfg1.win 3).blk t).view.set := by
  have hi0 : (i 0).val < 4096 := (i 0).isLt
  have hi1 : (i 1).val < 2048 := (i 1).isLt
  have hN : cfg1.N = 16 := N_1
  refine ⟨⟨(i 0).val / 256, by rw [hN]; omega⟩, flush1_3 _, ?_⟩
  rw [mem_blkB]
  obtain ⟨-, -, -, -, -, -, e0, e1, -⟩ := idxB ⟨(i 0).val / 256, by rw [hN]; omega⟩
  intro a
  match a with
  | ⟨0, _⟩ =>
    show win1_3.index _ (0 : Fin 2) * 256 ≤ (i 0).val ∧ (i 0).val < win1_3.index _ (0 : Fin 2) * 256 + 256
    rw [e0]; show (i 0).val / 256 * 256 ≤ (i 0).val ∧ (i 0).val < (i 0).val / 256 * 256 + 256; omega
  | ⟨1, _⟩ =>
    show win1_3.index _ (1 : Fin 2) * 2048 ≤ (i 1).val ∧ (i 1).val < win1_3.index _ (1 : Fin 2) * 2048 + 2048
    rw [e1]; omega

/-- THE CANDIDATES ARRAY after the second stage is the candidates function: every block written is its restriction and
    the blocks cover the array. -/
theorem arrB_eq : (dat1 (F := Ideal) V c).arrAt 3 cfg1.N = candArrB V c :=
  (dat1 (F := Ideal) V c).arrAt_eq_of_cover 3 (candArrB V c) (fun t _ => flushedB_eq V c t) coverB3

/-- Index by index: the corrected candidates of the predictions over the numerator built from the two matrices the
    second stage reads. -/
theorem arrB_cand (j : S4096x2048.Idx) :
    ((dat1 (F := Ideal) V c).arrAt 3 cfg1.N : S4096x2048.Idx → EReal) j
      = Cert.Spec.cand (predOf V c) (Cert.Spec.numOf (predOf V c) (c1Of V c) (a2Of V c)) (j 0) (j 1) := by
  rw [arrB_eq]; rfl

end Array

end Cert.KernelIdeal.Hand

end
-- ==== Proof.PieceC.lean ====
/-
  Region 2, what each control case leaves, as the body's arithmetic over the blocks it loaded.  One point adds to the
  accumulator the product of the point's 256×512 similarities block with the 512-row tile of the candidates the point's
  contraction coordinate selects (accStep), and to the running row sum the block's row sums (sumStep); a reset point
  starts both from zero; an epilogue point then stores, from the updated scratch, the masked residual norm and the
  validity flag.
-/
import proofs.«419477_j84868553769049_3_alg».proof.Proof.Gen.KernelIdeal.Launch
import proofs.«419477_j84868553769049_3_alg».proof.Proof.Gen.KernelIdeal.Skeleton
import proofs.«419477_j84868553769049_3_alg».proof.Proof.Gen.KernelIdeal.Points
import proofs.«419477_j84868553769049_3_alg».proof.Proof.FrameC
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangles the body loads and stores through, and the candidates' 512-row tile of a point. -/
abbrev rS : Rect S256x512 := Rect.unit (s := S256x512) ![0, 0] S256x512.size inb_S256x512_S256x512_0_0
abbrev rCw : Rect S256x2048 := Rect.unit (s := S256x2048) ![0, 0] S256x2048.size inb_S256x2048_S256x2048_0_0
abbrev rN : Rect S256x1 := Rect.unit (s := S256x1) ![0, 0] S256x1.size inb_S256x1_S256x1_0_0
abbrev rT (i : grid2.Coords) : Rect S4096x2048 := Rect.unit (s := S4096x2048) (k2_off1 i) S512x2048.size (k2_off1_inb i)

/-- One point's update of the accumulator a: a + (similarities block) · (candidates tile). -/
def accStep (i : grid2.Coords) (x1 : Vec F S256x512 .f32) (x2 : Vec F S4096x2048 .bf16) (a : Vec F S256x2048 .f32) : Vec F S256x2048 .f32 :=
  k2_pay3 (View.ld x1 rS) (View.ld x2 (rT i)) a
/-- One point's update of the running row sum s: s + row sums of the similarities block. -/
def sumStep (x1 : Vec F S256x512 .f32) (s : Vec F S256x1 .f32) : Vec F S256x1 .f32 :=
  k2_pay4 (View.ld x1 rS) s
/-- The epilogue's two stores, from the prediction block and the updated scratch. -/
def normStore (x0 : Vec F S256x2048 .f32) (a : Vec F S256x2048 .f32) (s : Vec F S256x1 .f32) : Vec F S256x1 .f32 :=
  k2_pay6 (View.ld x0 rCw) a s
def validStore (s : Vec F S256x1 .f32) : Vec F S256x1 .f32 := k2_pay7 s

/-- The zero offsets of a whole rectangle, as the constant function the whole-rectangle laws are stated over. -/
private theorem hzC : (![0, 0] : Fin 2 → Nat) = fun _ => 0 := funext fun a => by fin_cases a <;> rfl

/-! Each piece below is read off the same way: the stores of a case tile the buffer, so what they leave is their
    canonical contents; the last store through the whole rectangle decides it, and its payload's operands are the
    loads the body made — of an input block, or of a scratch buffer the same body stored just before (the reset's
    zero read back). A load through a whole rectangle reads the contents themselves. -/

theorem piece_A_0 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : cond2_0 i) (hc1 : ¬cond2_1 i) (x0 : Vec F S256x2048 .f32) (x1 : Vec F S256x512 .f32) (x2 : Vec F S4096x2048 .bf16) :
    sout2_A_0 c i arg2 harg2 arg3 harg3 arg4 harg4 arg5 harg5 arg6 harg6 arg7 harg7 arg8 harg8 hc0 hc1 x0 x1 x2 = accStep i x1 x2 (k2_pay1 (F := F)) := by
  unfold sout2_A_0
  rw [View.read_writes_eq_canon _ _ _ (scover2_A_0 c i arg2 harg2 arg3 harg3 arg4 harg4 arg5 harg5 arg6 harg6 arg7 harg7 arg8 harg8 hc0 hc1 x0 x1 x2)]
  unfold kernelRun2_A
  dsimp only
  sl_unfold_words
  rw [View.canon_cons_unit_zero (S := S256x2048) hzC, View.readCov_unit_zero (S := S256x2048) _ hzC]
  unfold accStep
  simp only [View.readAt_eq_ld, harg3.read_unread, harg4.read_unread, View.readCov_unit_zero (S := S256x2048) _ hzC, View.readCov_unit_zero (S := S256x1) _ hzC, View.ld_unit_zero (S := S256x2048) hzC, View.ld_unit_zero (S := S256x1) hzC]
  rfl
theorem piece_A_1 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : cond2_0 i) (hc1 : ¬cond2_1 i) (x0 : Vec F S256x2048 .f32) (x1 : Vec F S256x512 .f32) (x2 : Vec F S4096x2048 .bf16) :
    sout2_A_1 c i arg2 harg2 arg3 harg3 arg4 harg4 arg5 harg5 arg6 harg6 arg7 harg7 arg8 harg8 hc0 hc1 x0 x1 x2 = sumStep x1 (k2_pay2 (F := F)) := by
  unfold sout2_A_1
  rw [View.read_writes_eq_canon _ _ _ (scover2_A_1 c i arg2 harg2 arg3 harg3 arg4 harg4 arg5 harg5 arg6 harg6 arg7 harg7 arg8 harg8 hc0 hc1 x0 x1 x2)]
  unfold kernelRun2_A
  dsimp only
  sl_unfold_words
  rw [View.canon_cons_unit_zero (S := S256x1) hzC, View.readCov_unit_zero (S := S256x1) _ hzC]
  unfold sumStep
  simp only [View.readAt_eq_ld, harg3.read_unread, View.readCov_unit_zero (S := S256x2048) _ hzC, View.readCov_unit_zero (S := S256x1) _ hzC, View.ld_unit_zero (S := S256x2048) hzC, View.ld_unit_zero (S := S256x1) hzC]
theorem piece_B_0 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : ¬cond2_1 i) (x0 : Vec F S256x2048 .f32) (x1 : Vec F S256x512 .f32) (x2 : Vec F S4096x2048 .bf16) (xs0 : Vec F S256x2048 .f32) (xs1 : Vec F S256x1 .f32) :
    sout2_B_0 c i arg2 harg2 arg3 harg3 arg4 harg4 arg5 harg5 arg6 harg6 arg7 harg7 arg8 harg8 hc0 hc1 x0 x1 x2 xs0 xs1 = accStep i x1 x2 xs0 := by
  unfold sout2_B_0
  rw [View.read_writes_eq_canon _ _ _ (scover2_B_0 c i arg2 harg2 arg3 harg3 arg4 harg4 arg5 harg5 arg6 harg6 arg7 harg7 arg8 harg8 hc0 hc1 x0 x1 x2 xs0 xs1)]
  unfold kernelRun2_B
  dsimp only
  sl_unfold_words
  rw [View.canon_unit_zero (S := S256x2048) hzC]
  unfold accStep
  simp only [View.readAt_eq_ld, harg3.read_unread, harg4.read_unread, harg7.read_unread, View.readCov_unit_zero (S := S256x2048) _ hzC, View.readCov_unit_zero (S := S256x1) _ hzC, View.ld_unit_zero (S := S256x2048) hzC, View.ld_unit_zero (S := S256x1) hzC]
  rfl
theorem piece_B_1 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : ¬cond2_1 i) (x0 : Vec F S256x2048 .f32) (x1 : Vec F S256x512 .f32) (x2 : Vec F S4096x2048 .bf16) (xs0 : Vec F S256x2048 .f32) (xs1 : Vec F S256x1 .f32) :
    sout2_B_1 c i arg2 harg2 arg3 harg3 arg4 harg4 arg5 harg5 arg6 harg6 arg7 harg7 arg8 harg8 hc0 hc1 x0 x1 x2 xs0 xs1 = sumStep x1 xs1 := by
  unfold sout2_B_1
  rw [View.read_writes_eq_canon _ _ _ (scover2_B_1 c i arg2 harg2 arg3 harg3 arg4 harg4 arg5 harg5 arg6 harg6 arg7 harg7 arg8 harg8 hc0 hc1 x0 x1 x2 xs0 xs1)]
  unfold kernelRun2_B
  dsimp only
  sl_unfold_words
  rw [View.canon_unit_zero (S := S256x1) hzC]
  unfold sumStep
  simp only [View.readAt_eq_ld, harg3.read_unread, harg8.read_unread, View.readCov_unit_zero (S := S256x2048) _ hzC, View.readCov_unit_zero (S := S256x1) _ hzC, View.ld_unit_zero (S := S256x2048) hzC, View.ld_unit_zero (S := S256x1) hzC]
theorem piece_C_0 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : cond2_1 i) (x0 : Vec F S256x2048 .f32) (x1 : Vec F S256x512 .f32) (x2 : Vec F S4096x2048 .bf16) (xs0 : Vec F S256x2048 .f32) (xs1 : Vec F S256x1 .f32) :
    sout2_C_0 c i arg2 harg2 arg3 harg3 arg4 harg4 arg5 harg5 arg6 harg6 arg7 harg7 arg8 harg8 hc0 hc1 x0 x1 x2 xs0 xs1 = accStep i x1 x2 xs0 := by
  unfold sout2_C_0
  rw [View.read_writes_eq_canon _ _ _ (scover2_C_0 c i arg2 harg2 arg3 harg3 arg4 harg4 arg5 harg5 arg6 harg6 arg7 harg7 arg8 harg8 hc0 hc1 x0 x1 x2 xs0 xs1)]
  unfold kernelRun2_C
  dsimp only
  sl_unfold_words
  rw [View.canon_unit_zero (S := S256x2048) hzC]
  unfold accStep
  simp only [View.readAt_eq_ld, harg3.read_unread, harg4.read_unread, harg7.read_unread, View.readCov_unit_zero (S := S256x2048) _ hzC, View.readCov_unit_zero (S := S256x1) _ hzC, View.ld_unit_zero (S := S256x2048) hzC, View.ld_unit_zero (S := S256x1) hzC]
  rfl
theorem piece_C_1 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : cond2_1 i) (x0 : Vec F S256x2048 .f32) (x1 : Vec F S256x512 .f32) (x2 : Vec F S4096x2048 .bf16) (xs0 : Vec F S256x2048 .f32) (xs1 : Vec F S256x1 .f32) :
    sout2_C_1 c i arg2 harg2 arg3 harg3 arg4 harg4 arg5 harg5 arg6 harg6 arg7 harg7 arg8 harg8 hc0 hc1 x0 x1 x2 xs0 xs1 = sumStep x1 xs1 := by
  unfold sout2_C_1
  rw [View.read_writes_eq_canon _ _ _ (scover2_C_1 c i arg2 harg2 arg3 harg3 arg4 harg4 arg5 harg5 arg6 harg6 arg7 harg7 arg8 harg8 hc0 hc1 x0 x1 x2 xs0 xs1)]
  unfold kernelRun2_C
  dsimp only
  sl_unfold_words
  rw [View.canon_unit_zero (S := S256x1) hzC]
  unfold sumStep
  simp only [View.readAt_eq_ld, harg3.read_unread, harg8.read_unread, View.readCov_unit_zero (S := S256x2048) _ hzC, View.readCov_unit_zero (S := S256x1) _ hzC, View.ld_unit_zero (S := S256x2048) hzC, View.ld_unit_zero (S := S256x1) hzC]
theorem piece_C_3 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : cond2_1 i) (x0 : Vec F S256x2048 .f32) (x1 : Vec F S256x512 .f32) (x2 : Vec F S4096x2048 .bf16) (xs0 : Vec F S256x2048 .f32) (xs1 : Vec F S256x1 .f32) :
    out2_C_3 c i arg2 harg2 arg3 harg3 arg4 harg4 arg5 harg5 arg6 harg6 arg7 harg7 arg8 harg8 hc0 hc1 x0 x1 x2 xs0 xs1 = normStore x0 (accStep i x1 x2 xs0) (sumStep x1 xs1) := by
  unfold out2_C_3
  rw [View.read_writes_eq_canon _ _ _ (cover2_C_3 c i arg2 harg2 arg3 harg3 arg4 harg4 arg5 harg5 arg6 harg6 arg7 harg7 arg8 harg8 hc0 hc1 x0 x1 x2 xs0 xs1)]
  unfold kernelRun2_C
  dsimp only
  sl_unfold_words
  rw [View.canon_unit_zero (S := S256x1) hzC]
  unfold normStore accStep sumStep
  simp only [View.readAt_eq_ld, harg2.read_unread, harg3.read_unread, harg4.read_unread, harg7.read_unread, harg8.read_unread, View.readCov_unit_zero (S := S256x2048) _ hzC, View.readCov_unit_zero (S := S256x1) _ hzC, View.ld_unit_zero (S := S256x2048) hzC, View.ld_unit_zero (S := S256x1) hzC]
  rfl
theorem piece_C_4 (c : Dev nD) (i : grid2.Coords) (arg2 : Memref sig .tc .vmem S256x2048 .f32) (harg2 : arg2.IsWhole) (arg3 : Memref sig .tc .vmem S256x512 .f32) (harg3 : arg3.IsWhole) (arg4 : Memref sig .tc .vmem S4096x2048 .bf16) (harg4 : arg4.IsWhole) (arg5 : Memref sig .tc .vmem S256x1 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (hc0 : ¬cond2_0 i) (hc1 : cond2_1 i) (x0 : Vec F S256x2048 .f32) (x1 : Vec F S256x512 .f32) (x2 : Vec F S4096x2048 .bf16) (xs0 : Vec F S256x2048 .f32) (xs1 : Vec F S256x1 .f32) :
    out2_C_4 c i arg2 harg2 arg3 harg3 arg4 harg4 arg5 harg5 arg6 harg6 arg7 harg7 arg8 harg8 hc0 hc1 x0 x1 x2 xs0 xs1 = validStore (sumStep x1 xs1) := by
  unfold out2_C_4
  rw [View.read_writes_eq_canon _ _ _ (cover2_C_4 c i arg2 harg2 arg3 harg3 arg4 harg4 arg5 harg5 arg6 harg6 arg7 harg7 arg8 harg8 hc0 hc1 x0 x1 x2 xs0 xs1)]
  unfold kernelRun2_C
  dsimp only
  sl_unfold_words
  rw [View.canon_unit_zero (S := S256x1) hzC]
  unfold validStore sumStep
  simp only [View.readAt_eq_ld, harg3.read_unread, harg8.read_unread, View.readCov_unit_zero (S := S256x2048) _ hzC, View.readCov_unit_zero (S := S256x1) _ hzC, View.ld_unit_zero (S := S256x2048) hzC, View.ld_unit_zero (S := S256x1) hzC]

variable (V : (c : Dev nD) → (b : Ref sig .tc) → Buf (Elt F) ((c : Thread nD τ).loc b))

/-- The scratch after a reset point, a later point, and the outputs at an epilogue point, in one line each. -/
theorem scAt2_reset (c : Dev nD) (t : Fin cfg2.N) (h0 : t.val % 8 = 0) :
    scAt2 V c t.val t.isLt = (accStep (grid2.coords t) (iblk2 V c 1 t) (iblk2 V c 2 t) (k2_pay1 (F := F)), sumStep (iblk2 V c 1 t) (k2_pay2 (F := F))) := by
  rw [scAt2_A V c t h0, piece_A_0, piece_A_1]
theorem scAt2_step (c : Dev nD) (t : Fin cfg2.N) (h0 : ¬t.val % 8 = 0) :
    scAt2 V c t.val t.isLt = (accStep (grid2.coords t) (iblk2 V c 1 t) (iblk2 V c 2 t) (scAt2 V c (t.val - 1) (Nat.lt_of_le_of_lt (Nat.sub_le _ _) t.isLt)).1,
      sumStep (iblk2 V c 1 t) (scAt2 V c (t.val - 1) (Nat.lt_of_le_of_lt (Nat.sub_le _ _) t.isLt)).2) := by
  by_cases h1 : t.val % 8 = 7
  · rw [scAt2_C V c t h0 h1, piece_C_0, piece_C_1]
  · rw [scAt2_B V c t h0 h1, piece_B_0, piece_B_1]
theorem out2At_3_epi (c : Dev nD) (t : Fin cfg2.N) (h1 : t.val % 8 = 7) :
    out2At_3 V c t = normStore (iblk2 V c 0 t) (scAt2 V c t.val t.isLt).1 (scAt2 V c t.val t.isLt).2 := by
  rw [out2At_3_C V c t h1, piece_C_3, scAt2_step V c t (by omega)]
theorem out2At_4_epi (c : Dev nD) (t : Fin cfg2.N) (h1 : t.val % 8 = 7) :
    out2At_4 V c t = validStore (scAt2 V c t.val t.isLt).2 := by
  rw [out2At_4_C V c t h1, piece_C_4, scAt2_step V c t (by omega)]

end Cert.KernelIdeal.Hand

end
-- ==== Proof.ValC.lean ====
/-
  Region 2 of @main (the third kernel call: residual norms), the VALUES its two output arrays end holding, at the extended reals.

  The grid is 16 row tiles × 8 contraction tiles; point t has row tile o = t / 8 and contraction tile k = t % 8.  With
  pred the 4096×2048 predictions, sim the 4096×4096 similarities and cd the 4096×2048 candidates as the region finds them:
    * one point adds to the 256×2048 accumulator the product of the similarities' block (rows 256·o + p, columns
      512·k + jj) with the candidates' rows 512·k + jj, and to the 256×1 running row sum the block's row sums; the
      matmul at an index is the accumulator there plus the sum over the contraction coordinate of the factors' products,
      a lane reduction the sum over the lane coordinate;
    * THE INVARIANT, by induction on the point: after point t the accumulator holds at (p, q)
          Σ_{j < 512·(k+1)} sim(256·o + p, j) · cd(j, q)
      and the running row sum holds Σ_{j < 512·(k+1)} sim(256·o + p, j) — a reset point (k = 0) starts from zero, every
      other point adds its tile of 512 to what the point before left (a sum over the first 512·(k+1) naturals is the sum
      over the first 512·k plus the next tile's; extended reals are an additive commutative monoid, so regrouping is free);
    * at k = 7 the sums run over all 4096 contraction indices: they are acc(b, q) and simsum(b) of the row b = 256·o + p,
      and the two stores are √(Σ_l (pred(b,l) − acc(b,l))²) where simsum(b) ≠ 0, else 0, and the flag [simsum(b) ≠ 0];
    * the output blocks are written back at k = 7 only, block o of each 4096×1 array; row b lies under the block of
      point 8·(b / 256) + 7, so the written-back blocks cover the arrays and each array ends holding its function of the row.
-/
import proofs.«419477_j84868553769049_3_alg».proof.Proof.PieceC
import proofs.«419477_j84868553769049_3_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

theorem hzC : (![0, 0] : Fin 2 → Nat) = fun _ => 0 := funext fun a => by fin_cases a <;> rfl

/-- the four coordinate facts of the contraction's operand indices -/
theorem lhsC_0 (i : S256x2048.Idx) (q : dot_S256x512_S512x2048_S256x2048_1_0_0_1_n_n.contr.Idx) :
    (dot_S256x512_S512x2048_S256x2048_1_0_0_1_n_n.lhsIdx i q 0).val = (i 0).val := by
  unfold DotDims.lhsIdx
  rw [dif_neg (show ¬(0 : Fin S256x512.rank) ∈ dot_S256x512_S512x2048_S256x2048_1_0_0_1_n_n.lhsBatch by decide), dif_pos (show (0 : Fin S256x512.rank) ∈ dot_S256x512_S512x2048_S256x2048_1_0_0_1_n_n.lhsNonContracting by decide)]
  rfl
theorem lhsC_1 (i : S256x2048.Idx) (q : dot_S256x512_S512x2048_S256x2048_1_0_0_1_n_n.contr.Idx) :
    (dot_S256x512_S512x2048_S256x2048_1_0_0_1_n_n.lhsIdx i q 1).val = (q ⟨0, by decide⟩).val :=
  dot_S256x512_S512x2048_S256x2048_1_0_0_1_n_n.lhsIdx_val_of_single rfl i q
theorem rhsC_0 (i : S256x2048.Idx) (q : dot_S256x512_S512x2048_S256x2048_1_0_0_1_n_n.contr.Idx) :
    (dot_S256x512_S512x2048_S256x2048_1_0_0_1_n_n.rhsIdx i q 0).val = (q ⟨0, by decide⟩).val :=
  dot_S256x512_S512x2048_S256x2048_1_0_0_1_n_n.rhsIdx_val_of_single rfl i q
theorem rhsC_1 (i : S256x2048.Idx) (q : dot_S256x512_S512x2048_S256x2048_1_0_0_1_n_n.contr.Idx) :
    (dot_S256x512_S512x2048_S256x2048_1_0_0_1_n_n.rhsIdx i q 1).val = (i 1).val := by
  unfold DotDims.rhsIdx
  rw [dif_neg (show ¬(1 : Fin S512x2048.rank) ∈ dot_S256x512_S512x2048_S256x2048_1_0_0_1_n_n.rhsBatch by decide), dif_pos (show (1 : Fin S512x2048.rank) ∈ dot_S256x512_S512x2048_S256x2048_1_0_0_1_n_n.rhsNonContracting by decide)]
  rfl

/-- The accumulator's update at (p, q): what it held there plus the sum over the 512 contraction coordinates of the
    similarities' entry (p, jj) times the candidates' entry (jj, q) (the narrowing to bf16 is the identity here). -/
theorem payC3_apply (x : Vec Ideal S256x512 .f32) (y : Vec Ideal S512x2048 .bf16) (a : Vec Ideal S256x2048 .f32)
    (p : Fin 256) (q : Fin 2048) :
    k2_pay3 (F := Ideal) x y a (ix2 p q) = a (ix2 p q) + ∑ jj : Fin 512, x (ix2 p jj) * y (ix2 jj q) := by
  unfold k2_pay3
  rw [shapeCast_self, shapeCast_self, addf_apply]
  simp only [matmul]
  rw [Ideal.matmul_constant_zero_apply, ← Equiv.sum_comp (ValueIdx.contrEquiv1 dot_S256x512_S512x2048_S256x2048_1_0_0_1_n_n 512 rfl rfl).symm]
  refine congrArg (a (ix2 p q) + ·) (Finset.sum_congr rfl fun k _ => ?_)
  have hk := ValueIdx.contrEquiv1_symm_val dot_S256x512_S512x2048_S256x2048_1_0_0_1_n_n 512 rfl rfl k
  have el : dot_S256x512_S512x2048_S256x2048_1_0_0_1_n_n.lhsIdx (ix2 p q) ((ValueIdx.contrEquiv1 dot_S256x512_S512x2048_S256x2048_1_0_0_1_n_n 512 rfl rfl).symm k) = ix2 p k := funext fun a => Fin.ext (by
    match a with
    | ⟨0, _⟩ => exact lhsC_0 _ _
    | ⟨1, _⟩ => exact (lhsC_1 _ _).trans hk)
  have er : dot_S256x512_S512x2048_S256x2048_1_0_0_1_n_n.rhsIdx (ix2 p q) ((ValueIdx.contrEquiv1 dot_S256x512_S512x2048_S256x2048_1_0_0_1_n_n 512 rfl rfl).symm k) = ix2 k q := funext fun a => Fin.ext (by
    match a with
    | ⟨0, _⟩ => exact (rhsC_0 _ _).trans hk
    | ⟨1, _⟩ => exact rhsC_1 _ _)
  rw [el, er]
  rfl

/-- a 256-vector viewed as a 256×1 column: row p of the column is entry p -/
theorem colC_apply (v : FVec Ideal S256 .f32) (p : Fin 256) (z : Fin 1) :
    shapeCast S256x1 v shapeCasts_S256_S256x1 (ix2 p z) = v (ix1 p) := by
  refine shapeCast_apply v shapeCasts_S256_S256x1 (ix2 p z) (ix1 p) ?_
  rw [Shape.rowMajor_val_one, Shape.rowMajor_val_two]
  show p.val = p.val * 1 + z.val
  have := z.isLt
  omega

/-- the row sum of a 256×512 block -/
theorem rowSumC512_apply (x : FVec Ideal S256x512 .f32) (p : Fin 256) :
    multiReduction (F := Ideal) .add [1] S256 x 0x00000000#32 reduces_S256x512_S256 (.inl rfl) rfl (ix1 p) = ∑ jj : Fin 512, x (ix2 p jj) := by
  refine (Ideal.multiReduction_add_single (φ := .f32) x 0x00000000#32 reduces_S256x512_S256 (.inl rfl) rfl (ix1 p)).trans ?_
  refine Finset.sum_congr rfl fun k _ => congrArg x (funext fun a => Fin.ext ?_)
  match a with
  | ⟨0, _⟩ => rfl
  | ⟨1, _⟩ => rfl

/-- the row sum of a 256×2048 block -/
theorem rowSumC2048_apply (x : FVec Ideal S256x2048 .f32) (p : Fin 256) :
    multiReduction (F := Ideal) .add [1] S256 x 0x00000000#32 reduces_S256x2048_S256 (.inl rfl) rfl (ix1 p) = ∑ l : Fin 2048, x (ix2 p l) := by
  refine (Ideal.multiReduction_add_single (φ := .f32) x 0x00000000#32 reduces_S256x2048_S256 (.inl rfl) rfl (ix1 p)).trans ?_
  refine Finset.sum_congr rfl fun k _ => congrArg x (funext fun a => Fin.ext ?_)
  match a with
  | ⟨0, _⟩ => rfl
  | ⟨1, _⟩ => rfl

/-- The running row sum's update at row p: what it held there plus the block's row sum. -/
theorem payC4_apply (x : Vec Ideal S256x512 .f32) (s : Vec Ideal S256x1 .f32) (p : Fin 256) (z : Fin 1) :
    k2_pay4 (F := Ideal) x s (ix2 p z) = s (ix2 p z) + ∑ jj : Fin 512, x (ix2 p jj) := by
  unfold k2_pay4
  rw [shapeCast_self, addf_apply, colC_apply, rowSumC512_apply]

/-- the comparison "differs from zero" of an extended real, as a one-bit word -/
theorem payC5_apply (s : Vec Ideal S256x1 .f32) (j : S256x1.Idx) :
    k2_pay5 (F := Ideal) s j = BitVec.ofBool (decide (s j ≠ 0)) := by
  unfold k2_pay5
  rw [cmpf_apply, broadcast_apply]
  show Ideal.cmp .one (s j) (Ideal.ofBits .f32 0x00000000#32) = _
  rw [Ideal.ofBits_zero_f32]
  rfl

/-- The first store at row p: the square root of the row's summed squared residuals where the row sum differs from
    zero, zero elsewhere. -/
theorem payC6_apply (x0 a : Vec Ideal S256x2048 .f32) (s : Vec Ideal S256x1 .f32) (p : Fin 256) (z : Fin 1) :
    k2_pay6 (F := Ideal) x0 a s (ix2 p z)
      = if s (ix2 p z) ≠ 0 then Ideal.sqrt (∑ l : Fin 2048, (x0 (ix2 p l) - a (ix2 p l)) * (x0 (ix2 p l) - a (ix2 p l))) else 0 := by
  unfold k2_pay6
  rw [select_apply, payC5_apply, broadcast_apply]
  show Scalar.select _ (Ideal.sqrt (shapeCast S256x1 _ shapeCasts_S256_S256x1 (ix2 p z))) (Ideal.ofBits .f32 0x00000000#32) = _
  rw [colC_apply, rowSumC2048_apply, Ideal.ofBits_zero_f32]
  by_cases h : s (ix2 p z) ≠ 0
  · rw [if_pos h, decide_eq_true h]; rfl
  · rw [if_neg h, decide_eq_false h]; rfl

/-- The second store at row p: 1 where the row sum differs from zero, 0 elsewhere (the one-bit comparison widened and
    converted). -/
theorem payC7_apply (s : Vec Ideal S256x1 .f32) (p : Fin 256) (z : Fin 1) :
    k2_pay7 (F := Ideal) s (ix2 p z) = Cert.Spec.ind (s (ix2 p z) ≠ 0) := by
  unfold k2_pay7
  rw [sitofp_apply, extui_apply, payC5_apply]
  unfold Cert.Spec.ind
  by_cases h : s (ix2 p z) ≠ 0
  · rw [if_pos h, decide_eq_true h]
    show (((BitVec.setWidth 32 (BitVec.ofBool true)).toInt : ℝ) : EReal) = 1
    rw [show (BitVec.setWidth 32 (BitVec.ofBool true)).toInt = 1 from by decide]
    norm_num
  · rw [if_neg h, decide_eq_false h]
    show (((BitVec.setWidth 32 (BitVec.ofBool false)).toInt : ℝ) : EReal) = 0
    rw [show (BitVec.setWidth 32 (BitVec.ofBool false)).toInt = 0 from by decide]
    norm_num

/-- Where each window's block sits at point t (row tile t / 8, contraction tile t % 8), and the row offset of the
    candidates' tile the body loads: decided once over the 128 points. -/
theorem idxC : ∀ t : Fin cfg2.N,
    win2_0.index t (0 : Fin 2) = t.val / 8 ∧ win2_0.index t (1 : Fin 2) = 0
    ∧ win2_1.index t (0 : Fin 2) = t.val / 8 ∧ win2_1.index t (1 : Fin 2) = t.val % 8
    ∧ win2_2.index t (0 : Fin 2) = 0 ∧ win2_2.index t (1 : Fin 2) = 0
    ∧ win2_3.index t (0 : Fin 2) = t.val / 8 ∧ win2_3.index t (1 : Fin 2) = 0
    ∧ win2_4.index t (0 : Fin 2) = t.val / 8 ∧ win2_4.index t (1 : Fin 2) = 0
    ∧ k2_off1 (grid2.coords t) (0 : Fin 2) = 512 * (t.val % 8) ∧ k2_off1 (grid2.coords t) (1 : Fin 2) = 0 :=
  (by decide +kernel : ∀ t : Fin grid2.N, _)

/-- the array row under row p of point t's row tile -/
def rowOfC (t : Fin cfg2.N) (p : Fin 256) : Fin 4096 :=
  ⟨256 * (t.val / 8) + p.val, by have := t.isLt; have hN : cfg2.N = 128 := N_2; have := p.isLt; omega⟩

variable (V : (c : Dev nD) → (b : Ref sig .tc) → Buf (Elt Ideal) ((c : Thread nD τ).loc b)) (c : Dev nD)

abbrev predOf2 : Fin 4096 → Fin 2048 → EReal := fun b l => (V c main_arg0 : S4096x2048.Idx → EReal) (ValueIdx.ix2 b l)
abbrev simOf2 : Fin 4096 → Fin 4096 → EReal := fun b j => (V c main_arg1 : S4096x4096.Idx → EReal) (ValueIdx.ix2 b j)
abbrev cdOf2 : Fin 4096 → Fin 2048 → EReal := fun b l => (V c main_v2 : S4096x2048.Idx → EReal) (ValueIdx.ix2 b l)

/-- the similarities and the candidates along the contraction index as a natural number, zero past the end -/
def simAtC (b : Fin 4096) (j : ℕ) : EReal := if h : j < 4096 then simOf2 V c b ⟨j, h⟩ else 0
def cdAtC (j : ℕ) (l : Fin 2048) : EReal := if h : j < 4096 then cdOf2 V c ⟨j, h⟩ l else 0

theorem iblkC0_apply (t : Fin cfg2.N) (p : Fin 256) (l : Fin 2048) :
    (iblk2 V c 0 t : S256x2048.Idx → EReal) (ix2 p l) = predOf2 V c (rowOfC t p) l := by
  obtain ⟨e0, e1, -⟩ := idxC t
  unfold iblk2
  rw [View.read_apply]
  show V c main_arg0 _ = V c main_arg0 _
  congr 1
  funext a; apply Fin.ext
  match a with
  | ⟨0, _⟩ => show win2_0.index t (0 : Fin 2) * 256 + 1 * p.val = 256 * (t.val / 8) + p.val; rw [e0]; omega
  | ⟨1, _⟩ => show win2_0.index t (1 : Fin 2) * 2048 + 1 * l.val = l.val; rw [e1]; omega

theorem iblkC1_apply (t : Fin cfg2.N) (p : Fin 256) (jj : Fin 512) :
    (iblk2 V c 1 t : S256x512.Idx → EReal) (ix2 p jj) = simAtC V c (rowOfC t p) (512 * (t.val % 8) + jj.val) := by
  obtain ⟨-, -, e0, e1, -⟩ := idxC t
  have hj : 512 * (t.val % 8) + jj.val < 4096 := by have := jj.isLt; omega
  unfold simAtC
  rw [dif_pos hj]
  unfold iblk2
  rw [View.read_apply]
  show V c main_arg1 _ = V c main_arg1 _
  congr 1
  funext a; apply Fin.ext
  match a with
  | ⟨0, _⟩ => show win2_1.index t (0 : Fin 2) * 256 + 1 * p.val = 256 * (t.val / 8) + p.val; rw [e0]; omega
  | ⟨1, _⟩ => show win2_1.index t (1 : Fin 2) * 512 + 1 * jj.val = 512 * (t.val % 8) + jj.val; rw [e1]; omega

theorem tileC2_apply (t : Fin cfg2.N) (jj : Fin 512) (q : Fin 2048) :
    (View.ld (iblk2 V c 2 t : S4096x2048.Idx → EReal) (rT (grid2.coords t)) : S512x2048.Idx → EReal) (ix2 jj q)
      = cdAtC V c (512 * (t.val % 8) + jj.val) q := by
  obtain ⟨-, -, -, -, e0, e1, -, -, -, -, o0, o1⟩ := idxC t
  have hj : 512 * (t.val % 8) + jj.val < 4096 := by have := jj.isLt; omega
  unfold cdAtC
  rw [dif_pos hj]
  show (iblk2 V c 2 t : S4096x2048.Idx → EReal) ((rT (grid2.coords t)).idx (ix2 jj q)) = _
  unfold iblk2
  rw [View.read_apply]
  show V c main_v2 _ = V c main_v2 _
  congr 1
  funext a; apply Fin.ext
  match a with
  | ⟨0, _⟩ => show win2_2.index t (0 : Fin 2) * 4096 + 1 * (k2_off1 (grid2.coords t) (0 : Fin 2) + 1 * jj.val) = 512 * (t.val % 8) + jj.val; rw [e0, o0]; omega
  | ⟨1, _⟩ => show win2_2.index t (1 : Fin 2) * 2048 + 1 * (k2_off1 (grid2.coords t) (1 : Fin 2) + 1 * q.val) = q.val; rw [e1, o1]; omega

/-! ## One point's update, at an index -/

theorem zeroAccC_apply (j : S256x2048.Idx) : (k2_pay1 (F := Ideal)) j = 0 := by
  unfold k2_pay1
  rw [shapeCast_self, broadcast_apply]
  exact Ideal.ofBits_zero_f32
theorem zeroSumC_apply (j : S256x1.Idx) : (k2_pay2 (F := Ideal)) j = 0 := by
  unfold k2_pay2
  rw [shapeCast_self, broadcast_apply]
  exact Ideal.ofBits_zero_f32

/-- A sum over the first 512·(k+1) naturals is the sum over the first 512·k plus the sum over the next tile of 512. -/
theorem sum_tileC (f : ℕ → EReal) (k : ℕ) :
    ∑ j ∈ Finset.range (512 * (k + 1)), f j = ∑ j ∈ Finset.range (512 * k), f j + ∑ jj : Fin 512, f (512 * k + jj.val) := by
  rw [show 512 * (k + 1) = 512 * k + 512 from by ring, Finset.sum_range_add, Finset.sum_range (fun x => f (512 * k + x))]

/-- The accumulator's update at (p, q): if it held the products' sum over the first k tiles and the point's two blocks
    are tile k of the two factors, it holds the sum over the first k + 1 tiles. -/
theorem accStepC_sum (i : grid2.Coords) (x1 : Vec Ideal S256x512 .f32) (x2 : Vec Ideal S4096x2048 .bf16)
    (a : Vec Ideal S256x2048 .f32) (p : Fin 256) (q : Fin 2048) (f g : ℕ → EReal) (k : ℕ)
    (ha : a (ix2 p q) = ∑ j ∈ Finset.range (512 * k), f j * g j)
    (h1 : ∀ jj : Fin 512, x1 (ix2 p jj) = f (512 * k + jj.val))
    (h2 : ∀ jj : Fin 512, (View.ld x2 (rT i) : S512x2048.Idx → EReal) (ix2 jj q) = g (512 * k + jj.val)) :
    accStep i x1 x2 a (ix2 p q) = ∑ j ∈ Finset.range (512 * (k + 1)), f j * g j := by
  unfold accStep
  rw [payC3_apply, ha, sum_tileC]
  refine congrArg (_ + ·) (Finset.sum_congr rfl fun jj _ => ?_)
  rw [View.ld_unit_zero (S := S256x512) hzC, h1 jj, h2 jj]

/-- The running row sum's update at row p, likewise. -/
theorem sumStepC_sum (x1 : Vec Ideal S256x512 .f32) (s : Vec Ideal S256x1 .f32) (p : Fin 256) (z : Fin 1) (f : ℕ → EReal) (k : ℕ)
    (hs : s (ix2 p z) = ∑ j ∈ Finset.range (512 * k), f j)
    (h1 : ∀ jj : Fin 512, x1 (ix2 p jj) = f (512 * k + jj.val)) :
    sumStep x1 s (ix2 p z) = ∑ j ∈ Finset.range (512 * (k + 1)), f j := by
  unfold sumStep
  rw [payC4_apply, hs, sum_tileC]
  refine congrArg (_ + ·) (Finset.sum_congr rfl fun jj _ => ?_)
  rw [View.ld_unit_zero (S := S256x512) hzC, h1 jj]

/-! ## The invariant -/

/-- THE INVARIANT. After point n (row tile n / 8, contraction tile n % 8) the accumulator holds, at (p, q), the sum of
    similarity × candidate over the first 512·(n % 8 + 1) contraction indices, for row 256·(n / 8) + p and column q; and
    the running row sum holds that row's similarities summed over the same indices. By induction on the point: a reset
    point starts from zero, every other point adds its tile to what the point before left. -/
theorem scAt2_invC : ∀ (n : ℕ) (hn : n < cfg2.N) (p : Fin 256),
    (∀ q : Fin 2048, (scAt2 V c n hn).1 (ix2 p q)
        = ∑ j ∈ Finset.range (512 * (n % 8 + 1)), simAtC V c (rowOfC ⟨n, hn⟩ p) j * cdAtC V c j q)
    ∧ (∀ z : Fin 1, (scAt2 V c n hn).2 (ix2 p z)
        = ∑ j ∈ Finset.range (512 * (n % 8 + 1)), simAtC V c (rowOfC ⟨n, hn⟩ p) j) := by
  intro n
  induction n with
  | zero =>
    intro hn p
    have e := scAt2_reset V c ⟨0, hn⟩ (Nat.zero_mod 8)
    have e' : scAt2 V c 0 hn = _ := e
    rw [e']
    refine ⟨fun q => ?_, fun z => ?_⟩
    · exact accStepC_sum _ _ _ _ p q _ _ (0 % 8) (by rw [zeroAccC_apply]; simp) (fun jj => iblkC1_apply V c ⟨0, hn⟩ p jj) (fun jj => tileC2_apply V c ⟨0, hn⟩ jj q)
    · exact sumStepC_sum _ _ p z _ (0 % 8) (by rw [zeroSumC_apply]; simp) (fun jj => iblkC1_apply V c ⟨0, hn⟩ p jj)
  | succ n ih =>
    intro hn p
    by_cases h0 : (n + 1) % 8 = 0
    · have e' : scAt2 V c (n + 1) hn = _ := scAt2_reset V c ⟨n + 1, hn⟩ h0
      rw [e']
      refine ⟨fun q => ?_, fun z => ?_⟩
      · exact accStepC_sum _ _ _ _ p q _ _ ((n + 1) % 8) (by rw [zeroAccC_apply, h0]; simp) (fun jj => iblkC1_apply V c ⟨n + 1, hn⟩ p jj) (fun jj => tileC2_apply V c ⟨n + 1, hn⟩ jj q)
      · exact sumStepC_sum _ _ p z _ ((n + 1) % 8) (by rw [zeroSumC_apply, h0]; simp) (fun jj => iblkC1_apply V c ⟨n + 1, hn⟩ p jj)
    · have hn' : n < cfg2.N := Nat.lt_of_succ_lt hn
      have e' : scAt2 V c (n + 1) hn = (accStep (grid2.coords ⟨n + 1, hn⟩) (iblk2 V c 1 ⟨n + 1, hn⟩) (iblk2 V c 2 ⟨n + 1, hn⟩) (scAt2 V c n hn').1,
          sumStep (iblk2 V c 1 ⟨n + 1, hn⟩) (scAt2 V c n hn').2) := scAt2_step V c ⟨n + 1, hn⟩ h0
      rw [e']
      have hk : (n + 1) % 8 = n % 8 + 1 := by omega
      have hrow : rowOfC ⟨n, hn'⟩ p = rowOfC ⟨n + 1, hn⟩ p := Fin.ext (by show 256 * (n / 8) + p.val = 256 * ((n + 1) / 8) + p.val; omega)
      obtain ⟨ih1, ih2⟩ := ih hn' p
      refine ⟨fun q => ?_, fun z => ?_⟩
      · exact accStepC_sum _ _ _ _ p q _ _ ((n + 1) % 8) (by rw [ih1 q, hrow, hk]) (fun jj => iblkC1_apply V c ⟨n + 1, hn⟩ p jj) (fun jj => tileC2_apply V c ⟨n + 1, hn⟩ jj q)
      · exact sumStepC_sum _ _ p z _ ((n + 1) % 8) (by rw [ih2 z, hrow, hk]) (fun jj => iblkC1_apply V c ⟨n + 1, hn⟩ p jj)

/-! ## The last contraction tile: the two stores -/

/-- Over all eight tiles the sums are the specification's. -/
theorem accC_full (b : Fin 4096) (q : Fin 2048) :
    ∑ j ∈ Finset.range (512 * (7 + 1)), simAtC V c b j * cdAtC V c j q = Cert.Spec.acc (simOf2 V c) (cdOf2 V c) b q := by
  unfold Cert.Spec.acc
  rw [show 512 * (7 + 1) = 4096 from rfl, Finset.sum_range]
  refine Finset.sum_congr rfl fun j _ => ?_
  unfold simAtC cdAtC
  rw [dif_pos j.isLt, dif_pos j.isLt]
theorem simsumC_full (b : Fin 4096) :
    ∑ j ∈ Finset.range (512 * (7 + 1)), simAtC V c b j = Cert.Spec.simsum (simOf2 V c) b := by
  unfold Cert.Spec.simsum
  rw [show 512 * (7 + 1) = 4096 from rfl, Finset.sum_range]
  refine Finset.sum_congr rfl fun j _ => ?_
  unfold simAtC
  rw [dif_pos j.isLt]

/-- The norm store at row p, from what the three operands hold on that row. -/
theorem normStoreC_apply (x0 a : Vec Ideal S256x2048 .f32) (s : Vec Ideal S256x1 .f32) (p : Fin 256) (z : Fin 1)
    (pr ac : Fin 2048 → EReal) (ss : EReal)
    (h0 : ∀ l, x0 (ix2 p l) = pr l) (ha : ∀ l, a (ix2 p l) = ac l) (hs : s (ix2 p z) = ss) :
    normStore x0 a s (ix2 p z) = if ss ≠ 0 then Ideal.sqrt (∑ l : Fin 2048, (pr l - ac l) * (pr l - ac l)) else 0 := by
  unfold normStore
  rw [payC6_apply, hs, View.ld_unit_zero (S := S256x2048) hzC]
  simp only [h0, ha]

/-- At an epilogue point the first output's block holds, on row p, the masked residual norm of the array row under it. -/
theorem outC3_apply (t : Fin cfg2.N) (h7 : t.val % 8 = 7) (p : Fin 256) (z : Fin 1) :
    (out2At_3 V c t : S256x1.Idx → EReal) (ix2 p z)
      = Cert.Spec.normOut (predOf2 V c) (simOf2 V c) (cdOf2 V c) (rowOfC t p) := by
  rw [out2At_3_epi V c t h7]
  obtain ⟨i1, i2⟩ := scAt2_invC V c t.val t.isLt p
  refine (normStoreC_apply _ _ _ p z (predOf2 V c (rowOfC t p)) (Cert.Spec.acc (simOf2 V c) (cdOf2 V c) (rowOfC t p))
    (Cert.Spec.simsum (simOf2 V c) (rowOfC t p)) (fun l => iblkC0_apply V c t p l)
    (fun l => (i1 l).trans (by rw [h7]; exact accC_full V c _ l)) ((i2 z).trans (by rw [h7]; exact simsumC_full V c _))).trans ?_
  rfl

/-- … and the second output's block the validity flag of that row. -/
theorem outC4_apply (t : Fin cfg2.N) (h7 : t.val % 8 = 7) (p : Fin 256) (z : Fin 1) :
    (out2At_4 V c t : S256x1.Idx → EReal) (ix2 p z) = Cert.Spec.validOut (simOf2 V c) (rowOfC t p) := by
  rw [out2At_4_epi V c t h7]
  obtain ⟨-, i2⟩ := scAt2_invC V c t.val t.isLt p
  unfold validStore
  rw [payC7_apply, i2 z, h7, simsumC_full]
  rfl

/-! ## From blocks to the arrays -/

/-- The two functions of the array index the output arrays end holding. -/
abbrev normArrC : S4096x1.Idx → EReal := fun j => Cert.Spec.normOut (predOf2 V c) (simOf2 V c) (cdOf2 V c) (j 0)
abbrev validArrC : S4096x1.Idx → EReal := fun j => Cert.Spec.validOut (simOf2 V c) (j 0)

/-- What an epilogue point writes back through the first output's window is its block of the norms' array: row p of the
    block is array row 256·(t / 8) + p. -/
theorem flushedC3 (t : Fin cfg2.N) (hf : (cfg2.win 3).flush t = true) :
    (dat2 (F := Ideal) V c).flushed 3 t = ((cfg2.win 3).blk t).view.read (Elt Ideal) (normArrC V c) := by
  have h7 : t.val % 8 = 7 := (flush2_3 t).mp hf
  obtain ⟨-, -, -, -, -, -, e0, e1, -⟩ := idxC t
  show (cfg2.win 3).cut (grid2.coords t) ((dat2 V c).after 3 t) = _
  rw [after2_3]
  have key : ∀ y : S256x1.Idx, (out2At_3 V c t : S256x1.Idx → EReal) y = normArrC V c (((cfg2.win 3).blk t).view.emb y) := by
    intro y
    obtain ⟨p, z, rfl⟩ : ∃ (p : Fin 256) (z : Fin 1), y = ix2 p z := ⟨y 0, y 1, eq_ix2 y⟩
    rw [outC3_apply V c t h7 p z]
    show Cert.Spec.normOut _ _ _ _ = Cert.Spec.normOut _ _ _ _
    congr 1
    apply Fin.ext
    show 256 * (t.val / 8) + p.val = win2_3.index t (0 : Fin 2) * 256 + 1 * p.val
    rw [e0]; omega
  exact funext fun y => key y
theorem flushedC4 (t : Fin cfg2.N) (hf : (cfg2.win 4).flush t = true) :
    (dat2 (F := Ideal) V c).flushed 4 t = ((cfg2.win 4).blk t).view.read (Elt Ideal) (validArrC V c) := by
  have h7 : t.val % 8 = 7 := (flush2_4 t).mp hf
  obtain ⟨-, -, -, -, -, -, -, -, e0, e1, -⟩ := idxC t
  show (cfg2.win 4).cut (grid2.coords t) ((dat2 V c).after 4 t) = _
  rw [after2_4]
  have key : ∀ y : S256x1.Idx, (out2At_4 V c t : S256x1.Idx → EReal) y = validArrC V c (((cfg2.win 4).blk t).view.emb y) := by
    intro y
    obtain ⟨p, z, rfl⟩ : ∃ (p : Fin 256) (z : Fin 1), y = ix2 p z := ⟨y 0, y 1, eq_ix2 y⟩
    rw [outC4_apply V c t h7 p z]
    show Cert.Spec.validOut _ _ = Cert.Spec.validOut _ _
    congr 1
    apply Fin.ext
    show 256 * (t.val / 8) + p.val = win2_4.index t (0 : Fin 2) * 256 + 1 * p.val
    rw [e0]; omega
  exact funext fun y => key y

/-- An index of an output array is in point t's block iff each coordinate is in the block's range on its axis. -/
theorem mem_blkC3 (t : Fin cfg2.N) (i : S4096x1.Idx) :
    i ∈ ((cfg2.win 3).blk t).view.set ↔ ∀ a : Fin 2, win2_3.index t a * S256x1.size a ≤ (i a).val ∧ (i a).val < win2_3.index t a * S256x1.size a + S256x1.size a := by
  show i ∈ ((View.whole main_v3_0).slice (win2_3.rect t)).set ↔ _
  rw [View.set_slice_whole, Rect.mem_set_unit]
  exact Iff.rfl
theorem mem_blkC4 (t : Fin cfg2.N) (i : S4096x1.Idx) :
    i ∈ ((cfg2.win 4).blk t).view.set ↔ ∀ a : Fin 2, win2_4.index t a * S256x1.size a ≤ (i a).val ∧ (i a).val < win2_4.index t a * S256x1.size a + S256x1.size a := by
  show i ∈ ((View.whole main_v3_1).slice (win2_4.rect t)).set ↔ _
  rw [View.set_slice_whole, Rect.mem_set_unit]
  exact Iff.rfl

/-- The epilogue point of the row tile that holds array row r. -/
def epiOfC (i : S4096x1.Idx) : Fin cfg2.N :=
  ⟨8 * ((i 0).val / 256) + 7, by have h : (i 0).val < 4096 := (i 0).isLt; have hN : cfg2.N = 128 := N_2; omega⟩

/-- Every row of an output array is under the block its row tile's epilogue point writes back. -/
theorem coverC3 (i : S4096x1.Idx) : ∃ t : Fin cfg2.N, (cfg2.win 3).flush t = true ∧ i ∈ ((cfg2.win 3).blk t).view.set := by
  have h0 : (i 0).val < 4096 := (i 0).isLt
  have h1 : (i 1).val < 1 := (i 1).isLt
  obtain ⟨-, -, -, -, -, -, e0, e1, -⟩ := idxC (epiOfC i)
  have hv : (epiOfC i).val = 8 * ((i 0).val / 256) + 7 := rfl
  refine ⟨epiOfC i, (flush2_3 _).mpr (by rw [hv]; omega), ?_⟩
  rw [mem_blkC3]
  intro a
  match a with
  | ⟨0, _⟩ => show win2_3.index (epiOfC i) (0 : Fin 2) * 256 ≤ (i 0).val ∧ (i 0).val < win2_3.index (epiOfC i) (0 : Fin 2) * 256 + 256; rw [e0, hv]; omega
  | ⟨1, _⟩ => show win2_3.index (epiOfC i) (1 : Fin 2) * 1 ≤ (i 1).val ∧ (i 1).val < win2_3.index (epiOfC i) (1 : Fin 2) * 1 + 1; rw [e1]; omega
theorem coverC4 (i : S4096x1.Idx) : ∃ t : Fin cfg2.N, (cfg2.win 4).flush t = true ∧ i ∈ ((cfg2.win 4).blk t).view.set := by
  have h0 : (i 0).val < 4096 := (i 0).isLt
  have h1 : (i 1).val < 1 := (i 1).isLt
  obtain ⟨-, -, -, -, -, -, -, -, e0, e1, -⟩ := idxC (epiOfC i)
  have hv : (epiOfC i).val = 8 * ((i 0).val / 256) + 7 := rfl
  refine ⟨epiOfC i, (flush2_4 _).mpr (by rw [hv]; omega), ?_⟩
  rw [mem_blkC4]
  intro a
  match a with
  | ⟨0, _⟩ => show win2_4.index (epiOfC i) (0 : Fin 2) * 256 ≤ (i 0).val ∧ (i 0).val < win2_4.index (epiOfC i) (0 : Fin 2) * 256 + 256; rw [e0, hv]; omega
  | ⟨1, _⟩ => show win2_4.index (epiOfC i) (1 : Fin 2) * 1 ≤ (i 1).val ∧ (i 1).val < win2_4.index (epiOfC i) (1 : Fin 2) * 1 + 1; rw [e1]; omega

/-- THE VALUES the region leaves: the first output array holds every row's masked residual norm, the second every
    row's validity flag. -/
theorem arrC_norm (j : S4096x1.Idx) :
    ((dat2 (F := Ideal) V c).arrAt 3 cfg2.N : S4096x1.Idx → EReal) j
      = Cert.Spec.normOut (predOf2 V c) (simOf2 V c) (cdOf2 V c) (j 0) :=
  congrFun ((dat2 (F := Ideal) V c).arrAt_eq_of_cover 3 (normArrC V c) (flushedC3 V c) (coverC3)) j
theorem arrC_valid (j : S4096x1.Idx) :
    ((dat2 (F := Ideal) V c).arrAt 4 cfg2.N : S4096x1.Idx → EReal) j = Cert.Spec.validOut (simOf2 V c) (j 0) :=
  congrFun ((dat2 (F := Ideal) V c).arrAt_eq_of_cover 4 (validArrC V c) (flushedC4 V c) (coverC4)) j

end Cert.KernelIdeal.Hand

end
-- ==== Proof.MainVal.lean ====
/-
  The kernel program's result as the mathematical function of its arguments, at the ideal instance.  The contents each
  region is entered with are read back through the boundary contents: the first stretch reshapes the thresholds into a
  row; region 0 leaves C1 and A2; region 1, entered with them, leaves the candidates of the kernel's numerator; region 2,
  entered with those, leaves the masked residual norms and the validity flags; the tail sums both over the 4096 rows
  and divides, unless no row is valid.
-/
import proofs.«419477_j84868553769049_3_alg».proof.Proof.MainRun
import proofs.«419477_j84868553769049_3_alg».proof.Proof.Spec
import proofs.«419477_j84868553769049_3_alg».proof.Proof.ValA
import proofs.«419477_j84868553769049_3_alg».proof.Proof.ValB
import proofs.«419477_j84868553769049_3_alg».proof.Proof.ValC
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

/-! ## The host tail read at its one index -/

/-- The host's sum of a [4096, 1] array from zero is the sum over its 4096 rows. -/
theorem sum41 (X : S4096x1.Idx → EReal) (x : Fin 4096 → EReal) (hx : ∀ b, X (ix2 b (0 : Fin 1)) = x b) (j : S_.Idx) :
    (Host.reduceAdd (F := Ideal) X (constant S_ .f32 0x00000000#32) reducesTo_S4096x1_S_d0_1 h_S_ : S_.Idx → EReal) j = ∑ b, x b := by
  unfold Host.reduceAdd
  rw [Ideal.hostReduceAdd_def, Ideal.hostReduceAdd_total _ (fun b => b.elim0)]
  rw [constant_apply, Ideal.ofBits_zero_f32, zero_add, sum_idx2]
  refine Finset.sum_congr rfl fun b _ => ?_
  rw [Fin.sum_univ_one]
  exact hx b

/-- The tail: zero when the count is zero, else the total over the larger of the count and one. -/
theorem tail_apply (N Vd : S4096x1.Idx → EReal) (n v : Fin 4096 → EReal) (hn : ∀ b, N (ix2 b (0 : Fin 1)) = n b) (hv : ∀ b, Vd (ix2 b (0 : Fin 1)) = v b) :
    (select (cmpf (F := Ideal) .oeq (Host.reduceAdd (F := Ideal) Vd (constant (F := Ideal) S_ .f32 0x00000000#32) reducesTo_S4096x1_S_d0_1 h_S_) (constant (F := Ideal) S_ .f32 0x00000000#32)) (constant (F := Ideal) S_ .f32 0x00000000#32)
      (Host.divf (F := Ideal) (Host.reduceAdd (F := Ideal) N (constant (F := Ideal) S_ .f32 0x00000000#32) reducesTo_S4096x1_S_d0_1 h_S_) (maximumf (F := Ideal) (Host.reduceAdd (F := Ideal) Vd (constant (F := Ideal) S_ .f32 0x00000000#32) reducesTo_S4096x1_S_d0_1 h_S_) (constant (F := Ideal) S_ .f32 0x3F800000#32))) : S_.Idx → EReal)
    = fun _ => if (∑ b, v b) = 0 then 0 else Ideal.div (∑ b, n b) (max (∑ b, v b) Cert.Spec.one) := by
  funext i
  rw [select_apply, cmpf_apply, sum41 Vd v hv i, constant_apply, Ideal.ofBits_zero_f32]
  show Scalar.select (Ideal.cmp .oeq (∑ b, v b) 0) 0
      (Ideal.div ((Host.reduceAdd (F := Ideal) N (constant (F := Ideal) S_ .f32 0x00000000#32) reducesTo_S4096x1_S_d0_1 h_S_ : S_.Idx → EReal) i)
        (max ((Host.reduceAdd (F := Ideal) Vd (constant (F := Ideal) S_ .f32 0x00000000#32) reducesTo_S4096x1_S_d0_1 h_S_ : S_.Idx → EReal) i) (Ideal.ofBits .f32 0x3F800000#32))) = _
  rw [sum41 N n hn i, sum41 Vd v hv i]
  unfold Ideal.cmp Cert.Spec.one
  by_cases h : (∑ b, v b) = 0
  · rw [if_pos h]; simp only [h, decide_true, BitVec.ofBool_true]; exact select_one _ _
  · rw [if_neg h]; simp only [h, decide_false, BitVec.ofBool_false]; exact select_zero _ _

variable (m : (ℓ : Loc nD τ sig) → Buf (Elt Ideal) ℓ) (c : Dev nD)

/-! ## The arguments as functions of Fin indices -/

abbrev predM : Fin 4096 → Fin 2048 → EReal := fun b l => (m ((c.tc : Thread nD τ).loc main_arg0) : S4096x2048.Idx → EReal) (ix2 b l)
abbrev simM : Fin 4096 → Fin 4096 → EReal := fun b j => (m ((c.tc : Thread nD τ).loc main_arg1) : S4096x4096.Idx → EReal) (ix2 b j)
abbrev adjM : Fin 2048 → Fin 2048 → EReal := fun r k => (m ((c.tc : Thread nD τ).loc main_arg2) : S2048x2048.Idx → EReal) (ix2 r k)
abbrev lpvM : Fin 2048 → EReal := fun k => (m ((c.tc : Thread nD τ).loc main_arg3) : S2048.Idx → EReal) (ix1 k)

/-! ## What region 0 is entered with, and what it leaves -/

theorem V1_main_arg2 : V1 m c main_arg2 = m ((c.tc : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide))) : W1 m c (Proc.devRef .tc main_arg2) = W0 m c (Proc.devRef .tc main_arg2))
theorem V1_main_v0 : (V1 m c main_v0 : S1x2048.Idx → EReal)
    = shapeCast S1x2048 (m ((c.tc : Thread nD τ).loc main_arg3) : S2048.Idx → EReal) shapeCasts_S2048_S1x2048 := by
  show StableHlo.after hostOps0 (W0 m c) (Proc.devRef .tc main_v0) = _
  after_results
  rfl
theorem adjOf_V1 : adjOf (V1 m) c = adjM m c := by
  funext r k
  exact congrFun (V1_main_arg2 m c) (ix2 r k)
theorem lpvOf_V1 : lpvOf (V1 m) c = lpvM m c := by
  funext k
  show (V1 m c main_v0 : S1x2048.Idx → EReal) (ix2 (0 : Fin 1) k) = _
  rw [V1_main_v0]
  exact shapeCast_a_1a_apply _ _ _ _
theorem V2_main_v1_0 : V2 m c main_v1_0 = (dat0 (V1 m) c).arrAt 2 cfg0.N := W2_arr m c 2
theorem V2_main_v1_1 : V2 m c main_v1_1 = (dat0 (V1 m) c).arrAt 3 cfg0.N := W2_arr m c 3
theorem V2_main_arg0 : V2 m c main_arg0 = m ((c.tc : Thread nD τ).loc main_arg0) :=
  (W2_of_ne m c main_arg0 (by decide)).trans
    (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide))) : W1 m c (Proc.devRef .tc main_arg0) = W0 m c (Proc.devRef .tc main_arg0))
theorem c1Of_V2 : c1Of (V2 m) c = Cert.Spec.c1 (adjM m c) (lpvM m c) := by
  funext r k
  refine (congrFun (V2_main_v1_0 m c) (ix2 r k)).trans ?_
  rw [← adjOf_V1, ← lpvOf_V1]
  exact arrA_c1 (V1 m) c (ix2 r k)
theorem a2Of_V2 : a2Of (V2 m) c = Cert.Spec.decr (adjM m c) (lpvM m c) := by
  funext r k
  refine (congrFun (V2_main_v1_1 m c) (ix2 r k)).trans ?_
  rw [← adjOf_V1, ← lpvOf_V1]
  exact arrA_a2 (V1 m) c (ix2 r k)
theorem predOf_V2 : predOf (V2 m) c = predM m c := by
  funext b l
  exact congrFun (V2_main_arg0 m c) (ix2 b l)

/-! ## What region 1 leaves: the candidates of the kernel's numerator -/

theorem V3_main_v2 : V3 m c main_v2 = (dat1 (V2 m) c).arrAt 3 cfg1.N := W3_arr m c 3
theorem V3_main_arg0 : V3 m c main_arg0 = m ((c.tc : Thread nD τ).loc main_arg0) :=
  ((W3_arr m c 0).trans (((dat1 (V2 m) c).arrAt_in 0 rfl _).trans (A_eq1 (V2 m) c 0))).trans (V2_main_arg0 m c)
theorem V3_main_arg1 : V3 m c main_arg1 = m ((c.tc : Thread nD τ).loc main_arg1) :=
  (W3_of_ne m c main_arg1 (by decide)).trans ((W2_of_ne m c main_arg1 (by decide)).trans
    (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide))) : W1 m c (Proc.devRef .tc main_arg1) = W0 m c (Proc.devRef .tc main_arg1)))
theorem cdOf_V3 : cdOf2 (V3 m) c = Cert.Spec.cand (predM m c) (Cert.Spec.numK (predM m c) (adjM m c) (lpvM m c)) := by
  funext b l
  refine (congrFun (V3_main_v2 m c) (ix2 b l)).trans ?_
  refine (arrB_cand (V2 m) c (ix2 b l)).trans ?_
  rw [predOf_V2, c1Of_V2, a2Of_V2]
  rfl
theorem predOf2_V3 : predOf2 (V3 m) c = predM m c := by
  funext b l
  exact congrFun (V3_main_arg0 m c) (ix2 b l)
theorem simOf2_V3 : simOf2 (V3 m) c = simM m c := by
  funext b j
  exact congrFun (V3_main_arg1 m c) (ix2 b j)

/-! ## What region 2 leaves, and the result -/

theorem W4_main_v3_0 : W4 m c (Proc.devRef .tc main_v3_0) = (dat2 (V3 m) c).arrAt 3 cfg2.N := W4_arr m c 3
theorem W4_main_v3_1 : W4 m c (Proc.devRef .tc main_v3_1) = (dat2 (V3 m) c).arrAt 4 cfg2.N := W4_arr m c 4

/-- The result buffer after the tail, as the tail's operations of the two arrays region 2 leaves. -/
theorem W6_main_v9 : (W6 m c (Proc.devRef .tc main_v9) : S_.Idx → EReal) =
    select (cmpf (F := Ideal) .oeq (Host.reduceAdd (F := Ideal) (W4 m c (Proc.devRef .tc main_v3_1) : S4096x1.Idx → EReal) (constant (F := Ideal) S_ .f32 0x00000000#32) reducesTo_S4096x1_S_d0_1 h_S_) (constant (F := Ideal) S_ .f32 0x00000000#32)) (constant (F := Ideal) S_ .f32 0x00000000#32)
      (Host.divf (F := Ideal) (Host.reduceAdd (F := Ideal) (W4 m c (Proc.devRef .tc main_v3_0) : S4096x1.Idx → EReal) (constant (F := Ideal) S_ .f32 0x00000000#32) reducesTo_S4096x1_S_d0_1 h_S_) (maximumf (F := Ideal) (Host.reduceAdd (F := Ideal) (W4 m c (Proc.devRef .tc main_v3_1) : S4096x1.Idx → EReal) (constant (F := Ideal) S_ .f32 0x00000000#32) reducesTo_S4096x1_S_d0_1 h_S_) (constant (F := Ideal) S_ .f32 0x3F800000#32))) := by
  show StableHlo.after hostOps3_1 (StableHlo.after hostOps3 (W4 m c)) (Proc.devRef .tc main_v9) = _
  after_results
  rfl

/-- THE KERNEL'S RESULT: the mean residual norm over the valid rows, at the candidates of the kernel's numerator. -/
theorem result_val : (W6 m c (Proc.devRef .tc main_v9) : S_.Idx → EReal)
    = fun _ => Cert.Spec.result (predM m c) (simM m c) (Cert.Spec.cand (predM m c) (Cert.Spec.numK (predM m c) (adjM m c) (lpvM m c))) := by
  rw [W6_main_v9]
  refine (tail_apply _ _ (Cert.Spec.normOut (predM m c) (simM m c) (Cert.Spec.cand (predM m c) (Cert.Spec.numK (predM m c) (adjM m c) (lpvM m c))))
    (Cert.Spec.validOut (simM m c)) (fun b => ?_) (fun b => ?_)).trans rfl
  · refine (congrFun (W4_main_v3_0 m c) (ix2 b (0 : Fin 1))).trans ?_
    rw [← cdOf_V3, ← predOf2_V3, ← simOf2_V3]
    exact arrC_norm (V3 m) c (ix2 b (0 : Fin 1))
  · refine (congrFun (W4_main_v3_1 m c) (ix2 b (0 : Fin 1))).trans ?_
    rw [← simOf2_V3]
    exact arrC_valid (V3 m) c (ix2 b (0 : Fin 1))

/-- THE VALUE RUN: every weakly fair execution terminates with the result at that function and the arguments as launched. -/
theorem run_val (ρ : Dev nD → PrngReg) : θ_run (defs (F := Ideal)) (onTc (τ := τ) (main (F := Ideal))) ⟨m, fun _ => 0, ρ⟩ (fun r => ∀ c : Dev nD,
      r.2.mem ((c.tc : Thread nD τ).loc main_v9) = (fun _ => Cert.Spec.result (predM m c) (simM m c) (Cert.Spec.cand (predM m c) (Cert.Spec.numK (predM m c) (adjM m c) (lpvM m c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v9 (by decide))).trans (result_val m c),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run_all m ρ)

end Cert.KernelIdeal.Hand

end
-- ==== Proof.RefVal.lean ====
/-
  The reference program's result as a function of its arguments, at the extended reals.
  With pred, sim, adj, lpv the four argument arrays read by their coordinates (B = 4096 rows, L = 2048 labels), the
  program's operations are read stage by stage at an index, each stage as the specification names it:
    the masks      E(b,l) = [thr < pred(b,l)],  incr(r,c) = [lpv(c) + gap < adj(r,c) and r ≠ c],
                   decr(r,c) = [adj(r,c) < lpv(c) − gap and r ≠ c]   (a comparison's bit, converted, is the indicator;
                   the off-diagonal bit compares the two coordinates as 32-bit words, which are below 2048);
    the numerator  numR = ((pred + Ep·(incr·adj)) + E·decr) − Ep·(decr·(1 − adj)), each product a sum over the label axis;
    the candidates cand = numR / rel,  rel(b,l) = 1 + (Σ_j E(b,j) − E(b,l))   (the row sum is broadcast back along the labels);
    the norms      acc = sim·cand,  resid = pred − acc,  norm(b) = √(Σ_l resid(b,l)²);
    the mean       valid(b) = (Σ_j sim(b,j) ≠ 0),  total = Σ_b [valid] norm,  cnt = Σ_b [valid],
                   result = 0 if cnt = 0, else total / max(cnt, 1).
  Every reduction starts from the f32 zero, which is the real 0; a sum over a rank-1 index set is the sum over its
  coordinate range.  The last theorem restates the reference's run with its result at that value.
-/
import proofs.«419477_j84868553769049_3_alg».proof.Proof.RefRun
import proofs.«419477_j84868553769049_3_alg».proof.Proof.RefRead
import proofs.«419477_j84868553769049_3_alg».proof.Proof.Spec
import Idealize.ShloMosaic.Lib.ValueIdx
import Idealize.ShloMosaic.Lib.ValueIdxRank1
import Idealize.ShloMosaic.Lib.WordArith
import Idealize.ShloMosaic.PureOps.Ideal.Laws
import Idealize.ShloMosaic.Lib.StableHlo.Run
import Mathlib.Algebra.BigOperators.Group.Finset.Defs
import Mathlib.Algebra.BigOperators.Group.Finset.Basic
import Mathlib.Data.EReal.Basic

noncomputable section

namespace Cert.ReferenceIdeal.RefValue

open Cert.ReferenceIdeal Idealize.ShloMosaic Idealize.ShloMosaic.TcCoe Idealize.SL.Sem
open Cert.ReferenceIdeal.ReadP Idealize.ShloMosaic.ValueIdx

/-! ## One-bit words and their float images -/

/-- A decided proposition's bit, converted to a float, is the proposition's indicator. -/
theorem uitofp_ofBool (p : Prop) [Decidable p] :
    FloatOps.uitofp (F := Ideal) .f32 (BitVec.ofBool (decide p)) = Cert.Spec.ind p := by
  unfold Cert.Spec.ind
  by_cases h : p
  · rw [if_pos h, decide_eq_true h]
    show (((1 : ℕ) : ℝ) : EReal) = 1
    rw [Nat.cast_one, EReal.coe_one]
  · rw [if_neg h, decide_eq_false h]
    show (((0 : ℕ) : ℝ) : EReal) = 0
    rw [Nat.cast_zero, EReal.coe_zero]

/-- The conjunction of two decided bits is the decided conjunction. -/
theorem andi_decide (p q : Prop) [Decidable p] [Decidable q] :
    IntOp.andi (BitVec.ofBool (decide p)) (BitVec.ofBool (decide q)) = BitVec.ofBool (decide (p ∧ q)) := by
  rw [WordArith.andi_ofBool, Bool.decide_and]

/-- A select on a decided bit is an if-then-else. -/
theorem select_decide {α : Type} (p : Prop) [Decidable p] (a b : α) :
    Scalar.select (BitVec.ofBool (decide p)) a b = if p then a else b := by
  by_cases h : p
  · rw [if_pos h, decide_eq_true h]; exact select_one a b
  · rw [if_neg h, decide_eq_false h]; exact select_zero a b

/-- Two row numbers below 2048, as 32-bit words (the first with a zero added), differ exactly when they differ. -/
theorem offdiag_word (r c : Fin 2048) :
    ~~~(IntOp.cmpi .eq (IntOp.addi (BitVec.ofNat 32 r.val) 0#32) (BitVec.ofNat 32 c.val)) = BitVec.ofBool (decide (r ≠ c)) := by
  have hr := r.isLt
  have hc := c.isLt
  have e : ((BitVec.ofNat 32 r.val + 0#32 == BitVec.ofNat 32 c.val) : Bool) = decide (r = c) := by
    rw [BitVec.add_zero]
    by_cases h : r = c
    · subst h; simp
    · rw [decide_eq_false h]
      apply beq_eq_false_iff_ne.mpr
      intro hh
      apply h
      apply Fin.ext
      have := congrArg BitVec.toNat hh
      simp only [BitVec.toNat_ofNat] at this
      omega
  show ~~~(BitVec.ofBool (BitVec.ofNat 32 r.val + 0#32 == BitVec.ofNat 32 c.val)) = _
  rw [e]
  by_cases h : r = c
  · rw [decide_eq_true h, decide_eq_false (not_not.mpr h)]; decide
  · rw [decide_eq_false h, decide_eq_true h]; decide

/-! ## The arguments as functions of their coordinates -/

/-- the predictions by row and label -/
abbrev prd (x0 : (⟨S4096x2048, .f32⟩ : BufTy).Contents (Elt Ideal)) : Fin 4096 → Fin 2048 → EReal := fun b l => x0 (ix2 b l)
/-- the similarities by row and column -/
abbrev smm (x1 : (⟨S4096x4096, .f32⟩ : BufTy).Contents (Elt Ideal)) : Fin 4096 → Fin 4096 → EReal := fun b j => x1 (ix2 b j)
/-- the adjacency entries by row and column -/
abbrev adj (x2 : (⟨S2048x2048, .f32⟩ : BufTy).Contents (Elt Ideal)) : Fin 2048 → Fin 2048 → EReal := fun r k => x2 (ix2 r k)
/-- the label thresholds -/
abbrev lpv (x3 : (⟨S2048, .f32⟩ : BufTy).Contents (Elt Ideal)) : Fin 2048 → EReal := fun k => x3 (ix1 k)

variable (x0 : (⟨S4096x2048, .f32⟩ : BufTy).Contents (Elt Ideal)) (x1 : (⟨S4096x4096, .f32⟩ : BufTy).Contents (Elt Ideal))
  (x2 : (⟨S2048x2048, .f32⟩ : BufTy).Contents (Elt Ideal)) (x3 : (⟨S2048, .f32⟩ : BufTy).Contents (Elt Ideal))

/-! ## Where the layout operations read -/

theorem idx_v9_v12 (r c : Fin 2048) : idx_main_v9 (idx_main_v12 (ix2 r c)) = ix1 c :=
  funext fun a => by match a with | ⟨0, _⟩ => rfl

theorem idx_v16_v19 (r c : Fin 2048) : idx_main_v16 (idx_main_v19 (ix2 r c)) = ix1 c :=
  funext fun a => by match a with | ⟨0, _⟩ => rfl

theorem lidx_v25 (b : Fin 4096) (l k : Fin 2048) : lidx_main_v25 (ix2 b l) k = ix2 b k :=
  funext fun a => by match a with | ⟨0, _⟩ => rfl | ⟨1, _⟩ => rfl
theorem ridx_v25 (b : Fin 4096) (l k : Fin 2048) : ridx_main_v25 (ix2 b l) k = ix2 k l :=
  funext fun a => by match a with | ⟨0, _⟩ => rfl | ⟨1, _⟩ => rfl
theorem lidx_v27 (b : Fin 4096) (l k : Fin 2048) : lidx_main_v27 (ix2 b l) k = ix2 b k :=
  funext fun a => by match a with | ⟨0, _⟩ => rfl | ⟨1, _⟩ => rfl
theorem ridx_v27 (b : Fin 4096) (l k : Fin 2048) : ridx_main_v27 (ix2 b l) k = ix2 k l :=
  funext fun a => by match a with | ⟨0, _⟩ => rfl | ⟨1, _⟩ => rfl
theorem lidx_v32 (b : Fin 4096) (l k : Fin 2048) : lidx_main_v32 (ix2 b l) k = ix2 b k :=
  funext fun a => by match a with | ⟨0, _⟩ => rfl | ⟨1, _⟩ => rfl
theorem ridx_v32 (b : Fin 4096) (l k : Fin 2048) : ridx_main_v32 (ix2 b l) k = ix2 k l :=
  funext fun a => by match a with | ⟨0, _⟩ => rfl | ⟨1, _⟩ => rfl

/-! ## The masks -/

/-- the existence mask -/
theorem ex_eq (b : Fin 4096) (l : Fin 2048) :
    val_main_v2 (F := Ideal) x0 (ix2 b l) = Cert.Spec.ex (prd x0) b l := by
  rw [val_main_v2_apply, val_main_v1_apply, val_main_v0_apply, val_main_cst_apply]
  show FloatOps.uitofp (F := Ideal) .f32 (BitVec.ofBool (decide (Cert.Spec.thr < x0 (ix2 b l)))) = _
  exact uitofp_ofBool _

/-- the existing labels' predictions -/
theorem exp_eq (b : Fin 4096) (l : Fin 2048) :
    val_main_v23 (F := Ideal) x0 (ix2 b l) = Cert.Spec.exp (prd x0) b l := by
  rw [val_main_v23_apply, ex_eq]
  rfl

/-- the off-diagonal mask -/
theorem offdiag_eq (r c : Fin 2048) : val_main_v8 (F := Ideal) (ix2 r c) = BitVec.ofBool (decide (r ≠ c)) := by
  rw [val_main_v8_apply, val_main_v7_apply, val_main_v6_apply, val_main_v3_apply, val_main_v4_apply, val_main_v5_apply,
    val_main_c_apply]
  exact offdiag_word r c

/-- the increase mask -/
theorem incr_eq (r c : Fin 2048) :
    val_main_v15 (F := Ideal) x2 x3 (ix2 r c) = Cert.Spec.incr (adj x2) (lpv x3) r c := by
  rw [val_main_v15_apply, val_main_v14_apply, val_main_v13_apply, val_main_v12_apply, val_main_v11_apply,
    val_main_v9_apply, val_main_v10_apply, val_main_cst_0_apply, idx_v9_v12, offdiag_eq]
  show FloatOps.uitofp (F := Ideal) .f32 (IntOp.andi (BitVec.ofBool (decide (x3 (ix1 c) + Cert.Spec.gap < x2 (ix2 r c))))
    (BitVec.ofBool (decide (r ≠ c)))) = _
  rw [andi_decide]
  exact uitofp_ofBool _

/-- the decrease mask -/
theorem decr_eq (r c : Fin 2048) :
    val_main_v22 (F := Ideal) x2 x3 (ix2 r c) = Cert.Spec.decr (adj x2) (lpv x3) r c := by
  rw [val_main_v22_apply, val_main_v21_apply, val_main_v20_apply, val_main_v19_apply, val_main_v18_apply,
    val_main_v16_apply, val_main_v17_apply, val_main_cst_1_apply, idx_v16_v19, offdiag_eq]
  show FloatOps.uitofp (F := Ideal) .f32 (IntOp.andi (BitVec.ofBool (decide (x2 (ix2 r c) < x3 (ix1 c) - Cert.Spec.gap)))
    (BitVec.ofBool (decide (r ≠ c)))) = _
  rw [andi_decide]
  exact uitofp_ofBool _

/-! ## The numerator -/

/-- the increase correction's matrix -/
theorem incrAdj_eq (j l : Fin 2048) :
    val_main_v24 (F := Ideal) x2 x3 (ix2 j l) = Cert.Spec.incr (adj x2) (lpv x3) j l * adj x2 j l := by
  rw [val_main_v24_apply, incr_eq]
  rfl

/-- the decrease correction's matrix -/
theorem decrAdj_eq (j l : Fin 2048) :
    val_main_v31 (F := Ideal) x2 x3 (ix2 j l) = Cert.Spec.decr (adj x2) (lpv x3) j l * (Cert.Spec.one - adj x2 j l) := by
  rw [val_main_v31_apply, decr_eq, val_main_v30_apply, val_main_v29_apply, val_main_cst_2_apply]
  rfl

/-- the first product -/
theorem dot25_eq (b : Fin 4096) (l : Fin 2048) :
    val_main_v25 (F := Ideal) x0 x2 x3 (ix2 b l)
      = ∑ j : Fin 2048, Cert.Spec.exp (prd x0) b j * (Cert.Spec.incr (adj x2) (lpv x3) j l * adj x2 j l) := by
  rw [val_main_v25_apply]
  refine Finset.sum_congr rfl fun k _ => ?_
  rw [lidx_v25, ridx_v25, exp_eq, incrAdj_eq]

/-- the second product -/
theorem dot27_eq (b : Fin 4096) (l : Fin 2048) :
    val_main_v27 (F := Ideal) x0 x2 x3 (ix2 b l)
      = ∑ j : Fin 2048, Cert.Spec.ex (prd x0) b j * Cert.Spec.decr (adj x2) (lpv x3) j l := by
  rw [val_main_v27_apply]
  refine Finset.sum_congr rfl fun k _ => ?_
  rw [lidx_v27, ridx_v27, ex_eq, decr_eq]

/-- the third product -/
theorem dot32_eq (b : Fin 4096) (l : Fin 2048) :
    val_main_v32 (F := Ideal) x0 x2 x3 (ix2 b l)
      = ∑ j : Fin 2048, Cert.Spec.exp (prd x0) b j * (Cert.Spec.decr (adj x2) (lpv x3) j l * (Cert.Spec.one - adj x2 j l)) := by
  rw [val_main_v32_apply]
  refine Finset.sum_congr rfl fun k _ => ?_
  rw [lidx_v32, ridx_v32, exp_eq, decrAdj_eq]

/-- the reference's numerator -/
theorem num_eq (b : Fin 4096) (l : Fin 2048) :
    val_main_v33 (F := Ideal) x0 x2 x3 (ix2 b l) = Cert.Spec.numR (prd x0) (adj x2) (lpv x3) b l := by
  rw [val_main_v33_apply, val_main_v28_apply, val_main_v26_apply, dot25_eq, dot27_eq, dot32_eq]
  rfl

/-! ## The candidates -/

theorem idx_v35_v36 (b : Fin 4096) (l : Fin 2048) : idx_main_v35 (idx_main_v36 (ix2 b l)) = ix1 b :=
  funext fun a => by match a with | ⟨0, _⟩ => rfl
theorem idx_v34 (b : Fin 4096) (k : Fin 2048) : idx_main_v34 (ix1 b) k = ix2 b k :=
  funext fun a => by match a with | ⟨0, _⟩ => rfl | ⟨1, _⟩ => rfl
theorem lidx_v41 (b : Fin 4096) (l : Fin 2048) (k : Fin 4096) : lidx_main_v41 (ix2 b l) k = ix2 b k :=
  funext fun a => by match a with | ⟨0, _⟩ => rfl | ⟨1, _⟩ => rfl
theorem ridx_v41 (b : Fin 4096) (l : Fin 2048) (k : Fin 4096) : ridx_main_v41 (ix2 b l) k = ix2 k l :=
  funext fun a => by match a with | ⟨0, _⟩ => rfl | ⟨1, _⟩ => rfl
theorem idx_v44 (b : Fin 4096) (k : Fin 2048) : idx_main_v44 (ix1 b) k = ix2 b k :=
  funext fun a => by match a with | ⟨0, _⟩ => rfl | ⟨1, _⟩ => rfl
theorem idx_v46 (b k : Fin 4096) : idx_main_v46 (ix1 b) k = ix2 b k :=
  funext fun a => by match a with | ⟨0, _⟩ => rfl | ⟨1, _⟩ => rfl

/-- a row's number of existing labels -/
theorem exsum_eq (b : Fin 4096) :
    val_main_v34 (F := Ideal) x0 (ix1 b) = ∑ j : Fin 2048, Cert.Spec.ex (prd x0) b j := by
  rw [val_main_v34_apply, val_main_cst_3_apply]
  show Ideal.ofBits .f32 0x00000000#32 + _ = _
  rw [Ideal.ofBits_zero_f32, zero_add]
  refine Finset.sum_congr rfl fun k _ => ?_
  rw [idx_v34, ex_eq]

/-- the number of relations a candidate averages over -/
theorem rel_eq (b : Fin 4096) (l : Fin 2048) :
    val_main_v39 (F := Ideal) x0 (ix2 b l) = Cert.Spec.rel (prd x0) b l := by
  rw [val_main_v39_apply, val_main_v38_apply, val_main_cst_4_apply, val_main_v37_apply, val_main_v36_apply,
    val_main_v35_apply, idx_v35_v36, exsum_eq, ex_eq]
  rfl

/-- the reference's candidates, as the specification names them -/
abbrev cnd : Fin 4096 → Fin 2048 → EReal :=
  Cert.Spec.cand (prd x0) (Cert.Spec.numR (prd x0) (adj x2) (lpv x3))

theorem cand_eq (b : Fin 4096) (l : Fin 2048) :
    val_main_v40 (F := Ideal) x0 x2 x3 (ix2 b l) = cnd x0 x2 x3 b l := by
  rw [val_main_v40_apply, num_eq, rel_eq]
  rfl

/-! ## The residual norms -/

/-- similarities times candidates -/
theorem acc_eq (b : Fin 4096) (l : Fin 2048) :
    val_main_v41 (F := Ideal) x0 x1 x2 x3 (ix2 b l) = Cert.Spec.acc (smm x1) (cnd x0 x2 x3) b l := by
  rw [val_main_v41_apply]
  unfold Cert.Spec.acc
  refine Finset.sum_congr rfl fun k _ => ?_
  rw [lidx_v41, ridx_v41, cand_eq]

/-- a residual's square -/
theorem sq_eq (b : Fin 4096) (l : Fin 2048) :
    val_main_v43 (F := Ideal) x0 x1 x2 x3 (ix2 b l)
      = Cert.Spec.resid (prd x0) (smm x1) (cnd x0 x2 x3) b l * Cert.Spec.resid (prd x0) (smm x1) (cnd x0 x2 x3) b l := by
  rw [val_main_v43_apply, val_main_v42_apply, acc_eq]
  rfl

/-- a row's residual norm -/
theorem norm_eq (b : Fin 4096) :
    val_main_v45 (F := Ideal) x0 x1 x2 x3 (ix1 b) = Cert.Spec.norm (prd x0) (smm x1) (cnd x0 x2 x3) b := by
  rw [val_main_v45_apply, val_main_v44_apply, val_main_cst_5_apply]
  have e : (∑ k : Fin 2048, val_main_v43 (F := Ideal) x0 x1 x2 x3 (idx_main_v44 (ix1 b) k))
      = ∑ l : Fin 2048, Cert.Spec.resid (prd x0) (smm x1) (cnd x0 x2 x3) b l * Cert.Spec.resid (prd x0) (smm x1) (cnd x0 x2 x3) b l :=
    Finset.sum_congr rfl fun k _ => by rw [idx_v44, sq_eq]
  rw [e]
  show Ideal.sqrt (Ideal.ofBits .f32 0x00000000#32 + _) = _
  rw [Ideal.ofBits_zero_f32, zero_add]
  rfl

/-! ## The valid rows -/

/-- a row's total similarity -/
theorem simsum_eq (b : Fin 4096) :
    val_main_v46 (F := Ideal) x1 (ix1 b) = Cert.Spec.simsum (smm x1) b := by
  rw [val_main_v46_apply, val_main_cst_6_apply]
  show Ideal.ofBits .f32 0x00000000#32 + _ = _
  rw [Ideal.ofBits_zero_f32, zero_add]
  unfold Cert.Spec.simsum
  refine Finset.sum_congr rfl fun k _ => ?_
  rw [idx_v46]

/-- the valid-row bit -/
theorem validBit_eq (b : Fin 4096) :
    val_main_v48 (F := Ideal) x1 (ix1 b) = BitVec.ofBool (decide (Cert.Spec.simsum (smm x1) b ≠ 0)) := by
  rw [val_main_v48_apply, simsum_eq, val_main_v47_apply, val_main_cst_7_apply]
  show BitVec.ofBool (decide (Cert.Spec.simsum (smm x1) b ≠ Ideal.ofBits .f32 0x00000000#32)) = _
  simp only [Ideal.ofBits_zero_f32]

/-- 1 for a valid row -/
theorem valid_eq (b : Fin 4096) :
    val_main_v49 (F := Ideal) x1 (ix1 b) = Cert.Spec.validOut (smm x1) b := by
  rw [val_main_v49_apply, validBit_eq]
  exact uitofp_ofBool _

/-- the norm of a valid row, zero for an invalid one -/
theorem normOut_eq (b : Fin 4096) :
    val_main_v52 (F := Ideal) x0 x1 x2 x3 (ix1 b) = Cert.Spec.normOut (prd x0) (smm x1) (cnd x0 x2 x3) b := by
  rw [val_main_v52_apply, validBit_eq, norm_eq, val_main_v51_apply, val_main_cst_9_apply, select_decide]
  show (if Cert.Spec.simsum (smm x1) b ≠ 0 then Cert.Spec.norm (prd x0) (smm x1) (cnd x0 x2 x3) b
    else Ideal.ofBits .f32 0x00000000#32) = _
  rw [Ideal.ofBits_zero_f32]
  rfl

/-! ## The mean over the valid rows -/

/-- the number of valid rows -/
theorem cnt_eq (i : S_.Idx) : val_main_v50 (F := Ideal) x1 i = Cert.Spec.cnt (smm x1) := by
  rw [val_main_v50_apply, val_main_cst_8_apply]
  show Ideal.ofBits .f32 0x00000000#32 + _ = _
  rw [Ideal.ofBits_zero_f32, zero_add]
  unfold Cert.Spec.cnt
  refine ((Equiv.sum_comp (idxEquiv1 (n := 4096)).symm (val_main_v49 (F := Ideal) x1)).symm).trans ?_
  exact Finset.sum_congr rfl fun b _ => valid_eq x1 b

/-- the valid rows' norms, summed -/
theorem total_eq (i : S_.Idx) :
    val_main_v53 (F := Ideal) x0 x1 x2 x3 i = Cert.Spec.total (prd x0) (smm x1) (cnd x0 x2 x3) := by
  rw [val_main_v53_apply, val_main_cst_10_apply]
  show Ideal.ofBits .f32 0x00000000#32 + _ = _
  rw [Ideal.ofBits_zero_f32, zero_add]
  unfold Cert.Spec.total
  refine ((Equiv.sum_comp (idxEquiv1 (n := 4096)).symm (val_main_v52 (F := Ideal) x0 x1 x2 x3)).symm).trans ?_
  exact Finset.sum_congr rfl fun b _ => normOut_eq x0 x1 x2 x3 b

/-- the reference's result -/
theorem result_eq (i : S_.Idx) :
    val_main_v57 (F := Ideal) x0 x1 x2 x3 i = Cert.Spec.result (prd x0) (smm x1) (cnd x0 x2 x3) := by
  rw [val_main_v57_apply, val_main_v54_apply, cnt_eq, val_main_cst_11_apply, val_main_cst_13_apply, val_main_v56_apply,
    total_eq, val_main_v55_apply, cnt_eq, val_main_cst_12_apply]
  show Scalar.select (BitVec.ofBool (decide (Cert.Spec.cnt (smm x1) = Ideal.ofBits .f32 0x00000000#32)))
    (Ideal.ofBits .f32 0x00000000#32)
    (Ideal.div (Cert.Spec.total (prd x0) (smm x1) (cnd x0 x2 x3)) (max (Cert.Spec.cnt (smm x1)) Cert.Spec.one)) = _
  rw [select_decide]
  simp only [Ideal.ofBits_zero_f32]
  rfl

/-! ## The run -/

section Run

variable (m' : (ℓ : Loc nD τ sig) → Buf (Elt Ideal) ℓ) (c : Dev nD)

/-- the predictions a device's memory holds, by row and label -/
abbrev predOf : Fin 4096 → Fin 2048 → EReal :=
  fun b l => (m' ((c.tc : Thread nD τ).loc main_arg0) : S4096x2048.Idx → EReal) (ValueIdx.ix2 b l)
/-- the similarities it holds, by row and column -/
abbrev simOf : Fin 4096 → Fin 4096 → EReal :=
  fun b j => (m' ((c.tc : Thread nD τ).loc main_arg1) : S4096x4096.Idx → EReal) (ValueIdx.ix2 b j)
/-- the adjacency entries it holds, by row and column -/
abbrev adjOf : Fin 2048 → Fin 2048 → EReal :=
  fun r k => (m' ((c.tc : Thread nD τ).loc main_arg2) : S2048x2048.Idx → EReal) (ValueIdx.ix2 r k)
/-- the label thresholds it holds -/
abbrev lpvOf : Fin 2048 → EReal :=
  fun k => (m' ((c.tc : Thread nD τ).loc main_arg3) : S2048.Idx → EReal) (ValueIdx.ix1 k)

/-- The reference's result is the specification's mean residual norm at the reference's numerator. -/
theorem res_eq_spec :
    (Cert.ReferenceIdeal.ValueP.res_out0 (F := Ideal) m' c : S_.Idx → EReal)
      = fun _ => Cert.Spec.result (predOf m' c) (simOf m' c)
          (Cert.Spec.cand (predOf m' c) (Cert.Spec.numR (predOf m' c) (adjOf m' c) (lpvOf m' c))) := by
  funext i
  show Cert.ReferenceIdeal.ValueP.res_main_v57 (F := Ideal) m' c i = _
  rw [val_main_v57_eq]
  exact result_eq _ _ _ _ i

/-- Every weakly fair execution of the reference ends with its result at the specification's value, the arguments unchanged. -/
theorem run_spec (ρ' : Dev nD → PrngReg) :
    θ_run (Cert.ReferenceIdeal.defs (F := Ideal)) (onTc (τ := τ) (main (F := Ideal))) ⟨m', fun _ => 0, ρ'⟩ (fun r => ∀ c : Dev nD,
      r.2.mem ((c.tc : Thread nD τ).loc main_v57)
          = (fun _ => Cert.Spec.result (predOf m' c) (simOf m' c)
              (Cert.Spec.cand (predOf m' c) (Cert.Spec.numR (predOf m' c) (adjOf m' c) (lpvOf m' c))))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)) :=
  (θ_run (Cert.ReferenceIdeal.defs (F := Ideal)) _ _).mono
    (fun _ h c => ⟨(h c).1.trans (res_eq_spec m' c), (h c).2⟩)
    (Cert.ReferenceIdeal.ValueP.run (F := Ideal) m' ρ')

end Run

end Cert.ReferenceIdeal.RefValue

end
-- ==== Proof.Alg.lean ====
/-
  The two numerators agree on finite inputs.

  Write I = incr, D = decr (each the extended real 0 or 1, whatever the thresholds are: the truth value of a
  comparison is 0 or 1 even when a threshold is infinite), a = adj, E = ex (0 or 1), p = pred, Ep = E · p.  When every
  entry of pred and adj is a real, every term of both numerators is the image of a real, so the extended-real sums are
  images of real sums, and in the reals

    (p + Σ_j Ep_j (I_j a_j − D_j (1 − a_j))) + Σ_j E_j D_j
      = ((p + Σ_j Ep_j (I_j a_j)) + Σ_j E_j D_j) − Σ_j Ep_j (D_j (1 − a_j))

  by distributing the product over the difference and the finite sum over the difference.  Everything after the
  numerator is one expression in both, so the results agree by congruence.
-/
import proofs.«419477_j84868553769049_3_alg».proof.Proof.Spec
import Mathlib.Data.EReal.Basic
import Mathlib.Data.EReal.Operations
import Mathlib.Algebra.BigOperators.Group.Finset.Defs
import Mathlib.Algebra.BigOperators.Group.Finset.Basic
import Mathlib.Tactic.Ring
import Mathlib.Tactic.NormNum.Basic

noncomputable section

namespace Cert.Spec

open Idealize.ShloMosaic

/-- the f32 pattern 0x3F800000 denotes the real number one -/
theorem one_eq_coe : one = ((1 : ℝ) : EReal) := by
  unfold one
  simp [Ideal.ofBits, Ideal.ieee, -EReal.coe_mul]; norm_num

/-- a truth value is the image of a real, 0 or 1 -/
theorem ind_eq_coe (q : Prop) [Decidable q] : ind q = (((if q then 1 else 0 : ℝ)) : EReal) := by
  unfold ind; split_ifs <;> simp

/-- the inclusion of the reals commutes with finite sums -/
theorem coe_finset_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- the identity in the reals: a product distributes over a difference, a finite sum over a difference -/
theorem num_real {ι : Type} [Fintype ι] (P : ℝ) (E p I a D : ι → ℝ) :
    (P + ∑ j, E j * p j * (I j * a j - D j * (1 - a j))) + ∑ j, E j * D j
      = ((P + ∑ j, E j * p j * (I j * a j)) + ∑ j, E j * D j) - ∑ j, E j * p j * (D j * (1 - a j)) := by
  simp only [mul_sub, Finset.sum_sub_distrib]
  ring

/-- The kernel's numerator and the reference's numerator agree wherever pred and adj are finite. -/
theorem numK_eq_numR (pred : Fin 4096 → Fin 2048 → EReal) (adj : Fin 2048 → Fin 2048 → EReal) (lpv : Fin 2048 → EReal)
    (hp : ∀ b l, ∃ r : ℝ, pred b l = (r : EReal)) (ha : ∀ r k, ∃ x : ℝ, adj r k = (x : EReal)) :
    ∀ b l, numK pred adj lpv b l = numR pred adj lpv b l := by
  intro b l
  choose p hp using hp
  choose a ha using ha
  unfold numK numR numOf c1 exp incr decr ex
  simp only [ind_eq_coe, one_eq_coe, hp, ha]
  simp only [← EReal.coe_mul, ← EReal.coe_sub, ← EReal.coe_add, coe_finset_sum]
  rw [num_real]

/-- The results computed from the two numerators agree on finite inputs. -/
theorem result_numK_eq_numR (pred : Fin 4096 → Fin 2048 → EReal) (sim : Fin 4096 → Fin 4096 → EReal)
    (adj : Fin 2048 → Fin 2048 → EReal) (lpv : Fin 2048 → EReal)
    (hp : ∀ b l, ∃ r : ℝ, pred b l = (r : EReal)) (ha : ∀ r k, ∃ x : ℝ, adj r k = (x : EReal)) :
    result pred sim (cand pred (numK pred adj lpv)) = result pred sim (cand pred (numR pred adj lpv)) :=
  result_congr pred sim (cand_congr pred (numK_eq_numR pred adj lpv hp ha))

end Cert.Spec

end
-- ==== Proof.Fin.lean ====
/-
  From the precondition to "every entry is a real".

  The precondition is the conjunction, over the four argument arrays, of "every entry x has |x| < +∞", each conjunct
  an and-reduction over all axes of the elementwise comparison of max x (−x) with the value the f32 pattern
  0x7F800000 denotes, which is ⊤.  The whole predicate being 1 makes each reduction 1, a reduction by "and" onto a
  single index that is 1 met a 1 at every entry, and max x (−x) < ⊤ fails at x = ⊤ and at x = ⊥ (where −x = ⊤):
  so x is the image of a real.  Only the first and the third array are needed.
-/
import proofs.«419477_j84868553769049_3_alg».proof.Defs
import proofs.«419477_j84868553769049_3_alg».proof.Proof.Gen.Pre_finite_inputs
import Idealize.ShloMosaic.Lib.ReduceAll
import Idealize.ShloMosaic.Lib.ValueIdx
import Idealize.ShloMosaic.Lib.IdealHost
import Idealize.ShloMosaic.PureOps.Ideal
import Mathlib.Data.EReal.Basic

noncomputable section

namespace Cert.KernelIdeal.Hand

open Idealize.ShloMosaic Idealize.ShloMosaic.ValueIdx Idealize.SL.Sem

/-- An extended real whose absolute value max x (−x) lies strictly below the value of the f32 pattern 0x7F800000
    (which is ⊤) is the image of a real: at ⊤ and at ⊥ the maximum is ⊤ itself. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- The scalar shape has one index. -/
theorem subsingleton_scalarIdx : Subsingleton Cert.Pre_finite_inputs.S_.Idx :=
  ⟨fun _ _ => funext fun d => d.elim0⟩

/-- The finiteness predicate at any four arrays: if it is all ones, every entry of the first and of the third array is
    the image of a real. -/
theorem finite_of_fn [Cert.Pre_finite_inputs.Facts]
    (a0 : FVec Ideal Cert.Pre_finite_inputs.S4096x2048 .f32) (a1 : FVec Ideal Cert.Pre_finite_inputs.S4096x4096 .f32)
    (a2 : FVec Ideal Cert.Pre_finite_inputs.S2048x2048 .f32) (a3 : FVec Ideal Cert.Pre_finite_inputs.S2048 .f32)
    (h : Cert.Pre_finite_inputs.fn (F := Ideal) a0 a1 a2 a3 = fun _ => 1#1) :
    (∀ i, ∃ r : ℝ, a0 i = (r : EReal)) ∧ (∀ i, ∃ r : ℝ, a2 i = (r : EReal)) := by
  haveI := subsingleton_scalarIdx
  have h0 := congrFun h ix0
  dsimp only [Cert.Pre_finite_inputs.fn, Cert.Pre_finite_inputs.fn_part1] at h0
  -- the outer conjunctions are pointwise "and"s of one-bit words
  change IntOp.andi (IntOp.andi (IntOp.andi _ _) _) _ = 1#1 at h0
  rw [IntOp.andi_eq_one, IntOp.andi_eq_one, IntOp.andi_eq_one] at h0
  obtain ⟨⟨⟨h_0, -⟩, h_2⟩, -⟩ := h0
  refine ⟨fun i => real_of_abs_lt_inf (a0 i) ?_, fun i => real_of_abs_lt_inf (a2 i) ?_⟩
  · have e := Host.reduce_andi_all _ _ _ _ _ h_0 i
    rw [cmpf_apply, broadcastInDim_scalar_apply, constant_apply] at e
    exact e
  · have e := Host.reduce_andi_all _ _ _ _ _ h_2 i
    rw [cmpf_apply, broadcastInDim_scalar_apply, constant_apply] at e
    exact e

/-- Under the precondition, on every device, every entry of the first argument array (the predictions) and of the
    third (the adjacency) is the image of a real. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0) :
        Cert.KernelIdeal.S4096x2048.Idx → EReal) i = (r : EReal))
    ∧ (∀ i, ∃ r : ℝ, (m ((c.tc : Thread Cert.KernelIdeal.nD Cert.KernelIdeal.τ).loc Cert.KernelIdeal.main_arg2) :
        Cert.KernelIdeal.S2048x2048.Idx → EReal) i = (r : EReal)) :=
  finite_of_fn _ _ _ _ (h c)

end Cert.KernelIdeal.Hand

end
-- ==== Proof.lean ====
/-
  The certificate's five claims.

  The kernel program is three pipelined kernel launches between two host stretches: the first builds, from the adjacency
  matrix and the thresholds, the matrices C1 = incr·adj − decr·(1 − adj) and A2 = decr; the second the corrected
  candidates ((pred + Ep·C1) + E·A2) / rel; the third accumulates similarities·candidates and the similarities' row sums
  over eight contraction tiles in two scratch buffers and stores, at the last tile, each row's masked residual norm and
  validity flag; the host tail averages the norms over the valid rows.  Its frame (at the word-level and at the ideal
  instance) is the launch of the three regions over the boundary contents; its value at the ideal instance is read off
  those contents stage by stage.  The reference computes the same mean with the numerator
  ((pred + Ep·(incr·adj)) + E·decr) − Ep·(decr·(1 − adj)); on finite inputs the two numerators are one real number
  (a finite sum distributes over a difference), and everything after the numerator is the same expression.
-/
import proofs.«419477_j84868553769049_3_alg».proof.Defs
import proofs.«419477_j84868553769049_3_alg».proof.Proof.Gen.Kernel
import proofs.«419477_j84868553769049_3_alg».proof.Proof.Gen.KernelIdeal
import proofs.«419477_j84868553769049_3_alg».proof.Proof.Gen.ReferenceIdeal
import proofs.«419477_j84868553769049_3_alg».proof.Proof.Gen.Pre_finite_inputs
import proofs.«419477_j84868553769049_3_alg».proof.Proof.KMainRun
import proofs.«419477_j84868553769049_3_alg».proof.Proof.MainVal
import proofs.«419477_j84868553769049_3_alg».proof.Proof.RefVal
import proofs.«419477_j84868553769049_3_alg».proof.Proof.Alg
import proofs.«419477_j84868553769049_3_alg».proof.Proof.Fin
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level program runs and leaves its arguments as launched. -/
theorem frame_k : Cert.frame_Kernel := fun m ρ _ => Cert.Kernel.Hand.frame m ρ
/-- So does the idealized program. -/
theorem frame_ki : Cert.frame_KernelIdeal := fun m ρ _ => Cert.KernelIdeal.Hand.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RefValue.run_spec m ρ)

/-- The ideal pass rewrote nothing. -/
theorem preserves : Cert.preserves_Kernel_KernelIdeal := trivial

/-- Both programs end at the mean residual norm over the valid rows; the kernel's numerator and the reference's agree on
    finite predictions and a finite adjacency matrix. -/
theorem algebraic : Cert.algebraic_KernelIdeal_ReferenceIdeal := by
  intro m ρ m' ρ' hpre hagree
  refine ⟨fun c => fun _ => Cert.Spec.result (Cert.KernelIdeal.Hand.predM m c) (Cert.KernelIdeal.Hand.simM m c)
      (Cert.Spec.cand (Cert.KernelIdeal.Hand.predM m c) (Cert.Spec.numK (Cert.KernelIdeal.Hand.predM m c) (Cert.KernelIdeal.Hand.adjM m c) (Cert.KernelIdeal.Hand.lpvM m c))),
    Cert.KernelIdeal.Hand.run_val m ρ, ?_⟩
  refine (θ_run Cert.ReferenceIdeal.defs _ _).mono (fun r h c => ⟨(h c).1.trans ?_, (h c).2⟩)
    (Cert.ReferenceIdeal.RefValue.run_spec m' ρ')
  have hp : Cert.ReferenceIdeal.RefValue.predOf m' c = Cert.KernelIdeal.Hand.predM m c := by
    funext b l; exact congrFun (hagree c).1 (ix2 b l)
  have hs : Cert.ReferenceIdeal.RefValue.simOf m' c = Cert.KernelIdeal.Hand.simM m c := by
    funext b j; exact congrFun (hagree c).2.1 (ix2 b j)
  have ha : Cert.ReferenceIdeal.RefValue.adjOf m' c = Cert.KernelIdeal.Hand.adjM m c := by
    funext r k; exact congrFun (hagree c).2.2.1 (ix2 r k)
  have hl : Cert.ReferenceIdeal.RefValue.lpvOf m' c = Cert.KernelIdeal.Hand.lpvM m c := by
    funext k; exact congrFun (hagree c).2.2.2 (ix1 k)
  rw [hp, hs, ha, hl]
  have hfin := Cert.KernelIdeal.Hand.finite_of_pre m hpre c
  funext _
  exact (Cert.Spec.result_numK_eq_numR (Cert.KernelIdeal.Hand.predM m c) (Cert.KernelIdeal.Hand.simM m c)
    (Cert.KernelIdeal.Hand.adjM m c) (Cert.KernelIdeal.Hand.lpvM m c)
    (fun b l => hfin.1 (ix2 b l)) (fun r k => hfin.2 (ix2 r k))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
